-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S128x32000 : Shape := ⟨2, ![128, 32000]⟩
abbrev S32000x128 : Shape := ⟨2, ![32000, 128]⟩
abbrev S_ : Shape := ⟨0, ![]⟩

class Facts : Prop where
  bcast_S_S128x32000 : S_.BroadcastsInDim S128x32000 (![] : Fin 0 → Fin S128x32000.rank)
  reducesTo_S128x32000_S_d0_1 : S128x32000.ReducesTo [0, 1] S_
  h_S_ : 0 < S_.numel
  bcast_S_S32000x128 : S_.BroadcastsInDim S32000x128 (![] : Fin 0 → Fin S32000x128.rank)
  reducesTo_S32000x128_S_d0_1 : S32000x128.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : IVec S4096x2 32) (main_arg1 : FVec F S128x32000 .f32) (main_arg2 : FVec F S32000x128 .f32) : IVec S_ 1 :=
  let main_v0 : FVec F S128x32000 .f32 := Host.absf main_arg1
  let main_cst : FVec F S_ .f32 := constant S_ .f32 0x7F800000#32
  let main_v1 : FVec F S128x32000 .f32 := broadcastInDim S128x32000 ![] bcast_S_S128x32000 main_cst
  let main_v2 : IVec S128x32000 1 := cmpf .olt main_v0 main_v1
  let main_c : IVec S_ 1 := constantI S_ 1 1#1
  let main_v3 : IVec S_ 1 := (fun x v => Host.reduce IntOp.andi x v reducesTo_S128x32000_S_d0_1 h_S_) main_v2 main_c
  let main_v4 : FVec F S32000x128 .f32 := Host.absf main_arg2
  let main_cst_0 : FVec F S_ .f32 := constant S_ .f32 0x7F800000#32
  let main_v5 : FVec F S32000x128 .f32 := broadcastInDim S32000x128 ![] bcast_S_S32000x128 main_cst_0
  let main_v6 : IVec S32000x128 1 := cmpf .olt main_v4 main_v5
  let main_c_1 : IVec S_ 1 := constantI S_ 1 1#1
  let main_v7 : IVec S_ 1 := (fun x v => Host.reduce IntOp.andi x v reducesTo_S32000x128_S_d0_1 h_S_) main_v6 main_c_1
  let main_v8 : IVec S_ 1 := andi main_v3 main_v7
  let main_c_2 : IVec S_ 32 := constantI S_ 32 0#32
  let main_v9 : IVec S4096x2 32 := broadcastInDim S4096x2 ![] bcast_S_S4096x2 main_c_2
  let main_v10 : IVec S4096x2 1 := cmpi .sge main_arg0 main_v9
  let main_c_3 : IVec S_ 32 := constantI S_ 32 32000#32
  let main_v11 : IVec S4096x2 32 := broadcastInDim S4096x2 ![] bcast_S_S4096x2 main_c_3
  let main_v12 : IVec S4096x2 1 := cmpi .slt main_arg0 main_v11
  let main_v13 : IVec S4096x2 1 := andi main_v10 main_v12
  let main_c_4 : IVec S_ 1 := constantI S_ 1 1#1
  let main_v14 : IVec S_ 1 := (fun x v => Host.reduce IntOp.andi x v reducesTo_S4096x2_S_d0_1 h_S_) main_v13 main_c_4
  let main_v15 : IVec S_ 1 := andi main_v8 main_v14
  main_v15
-- ==== Kernel.lean ====
abbrev S4096x2 : Shape := ⟨2, ![4096, 2]⟩
abbrev S128x32000 : Shape := ⟨2, ![128, 32000]⟩
abbrev S32000x128 : Shape := ⟨2, ![32000, 128]⟩
abbrev S8192 : Shape := ⟨1, ![8192]⟩
abbrev S4096x128 : Shape := ⟨2, ![4096, 128]⟩
abbrev S512x128 : Shape := ⟨2, ![512, 128]⟩
abbrev S8x128 : Shape := ⟨2, ![8, 128]⟩
abbrev S1 : Shape := ⟨1, ![1]⟩
abbrev S1x128 : Shape := ⟨2, ![1, 128]⟩
abbrev S128 : Shape := ⟨1, ![128]⟩
abbrev S4096x32000 : Shape := ⟨2, ![4096, 32000]⟩
abbrev S3200x128 : Shape := ⟨2, ![3200, 128]⟩
abbrev S512x3200 : Shape := ⟨2, ![512, 3200]⟩

abbrev nBuf : Space → Nat
  | .hbm => 7
  | .vmem => 10
  | .smem => 1
  | _ => 0

abbrev bufTy : (tb : Table) → Fin (tcTables nBuf tb) → BufTy
  | .hbm, ⟨0, _⟩ => ⟨S4096x2, .i32⟩
  | .hbm, ⟨1, _⟩ => ⟨S128x32000, .f32⟩
  | .hbm, ⟨2, _⟩ => ⟨S32000x128, .f32⟩
  | .hbm, ⟨3, _⟩ => ⟨S32000x128, .f32⟩
  | .hbm, ⟨4, _⟩ => ⟨S32000x128, .bf16⟩
  | .hbm, ⟨5, _⟩ => ⟨S4096x128, .f32⟩
  | .hbm, ⟨6, _⟩ => ⟨S4096x32000, .f32⟩
  | .local _ .vmem, ⟨0, _⟩ => ⟨S32000x128, .f32⟩
  | .local _ .vmem, ⟨1, _⟩ => ⟨S512x128, .f32⟩
  | .local _ .vmem, ⟨2, _⟩ => ⟨S512x128, .f32⟩
  | .local _ .vmem, ⟨3, _⟩ => ⟨S8x128, .f32⟩
  | .local _ .vmem, ⟨4, _⟩ => ⟨S512x128, .f32⟩
  | .local _ .vmem, ⟨5, _⟩ => ⟨S512x128, .f32⟩
  | .local _ .vmem, ⟨6, _⟩ => ⟨S3200x128, .bf16⟩
  | .local _ .vmem, ⟨7, _⟩ => ⟨S3200x128, .bf16⟩
  | .local _ .vmem, ⟨8, _⟩ => ⟨S512x3200, .f32⟩
  | .local _ .vmem, ⟨9, _⟩ => ⟨S512x3200, .f32⟩
  | .local _ .smem, ⟨0, _⟩ => ⟨S8192, .i32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c0_i32_1 : BitVec 32 := 0#32
  let v3 : BitVec 32 := Scalar.addi v2 c0_i32_1
  let v4 : BitVec 32 := Scalar.addi v0 v3
  let c2_i32 : BitVec 32 := 2#32
  let v5 : BitVec 32 := Scalar.muli v4 c2_i32
  let c0_i32_2 : BitVec 32 := 0#32
  let v6 : BitVec 32 := Scalar.addi v5 c0_i32_2
  let v7 : Index := Scalar.indexCast v6
  ![v7.toNat]
def k0_off2 (v8 : BitVec 32) : Fin 2 → Nat :=
  let v9 : Index := Scalar.indexCast v8
  let c0 : Index := 0#32
  ![v9.toNat, 0]

def k0_chk1 (v8 : BitVec 32) : Prop :=
  (∀ a, (k0_off2 v8) a + S1x128.size a ≤ S32000x128.size a)
instance k0_chk1.dec : ∀ (v8 : BitVec 32), Decidable (k0_chk1 v8) := fun v8 => decidable_of_iff' _ (Iff.of_eq (k0_chk1.eq_1 v8))
theorem k0_off2_inb : ∀ (v8 : BitVec 32) (k0_hw1 : k0_chk1 v8), ∀ a, (k0_off2 v8) a + S1x128.size a ≤ S32000x128.size a := fun v8 k0_hw1 => k0_hw1

def k0_off3 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c0_i32_1 : BitVec 32 := 0#32
  let v3 : BitVec 32 := Scalar.addi v2 c0_i32_1
  let v4 : BitVec 32 := Scalar.addi v0 v3
  let c2_i32_3 : BitVec 32 := 2#32
  let v12 : BitVec 32 := Scalar.muli v4 c2_i32_3
  let c1_i32_4 : BitVec 32 := 1#32
  let v13 : BitVec 32 := Scalar.addi v12 c1_i32_4
  let v14 : Index := Scalar.indexCast v13
  ![v14.toNat]
def k0_off4 (v15 : BitVec 32) : Fin 2 → Nat :=
  let v16 : Index := Scalar.indexCast v15
  let c0_5 : Index := 0#32
  ![v16.toNat, 0]

def k0_chk2 (v15 : BitVec 32) : Prop :=
  (∀ a, (k0_off4 v15) a + S1x128.size a ≤ S32000x128.size a)
instance k0_chk2.dec : ∀ (v15 : BitVec 32), Decidable (k0_chk2 v15) := fun v15 => decidable_of_iff' _ (Iff.of_eq (k0_chk2.eq_1 v15))
theorem k0_off4_inb : ∀ (v15 : BitVec 32) (k0_hw2 : k0_chk2 v15), ∀ a, (k0_off4 v15) a + S1x128.size a ≤ S32000x128.size a := fun v15 k0_hw2 => k0_hw2

def k0_off5 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c1_i32_8 : BitVec 32 := 1#32
  let v25 : BitVec 32 := Scalar.addi v2 c1_i32_8
  let v26 : BitVec 32 := Scalar.addi v0 v25
  let c2_i32_9 : BitVec 32 := 2#32
  let v27 : BitVec 32 := Scalar.muli v26 c2_i32_9
  let c0_i32_10 : BitVec 32 := 0#32
  let v28 : BitVec 32 := Scalar.addi v27 c0_i32_10
  let v29 : Index := Scalar.indexCast v28
  ![v29.toNat]
def k0_off6 (v30 : BitVec 32) : Fin 2 → Nat :=
  let v31 : Index := Scalar.indexCast v30
  let c0_11 : Index := 0#32
  ![v31.toNat, 0]

def k0_chk3 (v30 : BitVec 32) : Prop :=
  (∀ a, (k0_off6 v30) a + S1x128.size a ≤ S32000x128.size a)
instance k0_chk3.dec : ∀ (v30 : BitVec 32), Decidable (k0_chk3 v30) := fun v30 => decidable_of_iff' _ (Iff.of_eq (k0_chk3.eq_1 v30))
theorem k0_off6_inb : ∀ (v30 : BitVec 32) (k0_hw3 : k0_chk3 v30), ∀ a, (k0_off6 v30) a + S1x128.size a ≤ S32000x128.size a := fun v30 k0_hw3 => k0_hw3

def k0_off7 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c1_i32_8 : BitVec 32 := 1#32
  let v25 : BitVec 32 := Scalar.addi v2 c1_i32_8
  let v26 : BitVec 32 := Scalar.addi v0 v25
  let c2_i32_12 : BitVec 32 := 2#32
  let v34 : BitVec 32 := Scalar.muli v26 c2_i32_12
  let c1_i32_13 : BitVec 32 := 1#32
  let v35 : BitVec 32 := Scalar.addi v34 c1_i32_13
  let v36 : Index := Scalar.indexCast v35
  ![v36.toNat]
def k0_off8 (v37 : BitVec 32) : Fin 2 → Nat :=
  let v38 : Index := Scalar.indexCast v37
  let c0_14 : Index := 0#32
  ![v38.toNat, 0]

def k0_chk4 (v37 : BitVec 32) : Prop :=
  (∀ a, (k0_off8 v37) a + S1x128.size a ≤ S32000x128.size a)
instance k0_chk4.dec : ∀ (v37 : BitVec 32), Decidable (k0_chk4 v37) := fun v37 => decidable_of_iff' _ (Iff.of_eq (k0_chk4.eq_1 v37))
theorem k0_off8_inb : ∀ (v37 : BitVec 32) (k0_hw4 : k0_chk4 v37), ∀ a, (k0_off8 v37) a + S1x128.size a ≤ S32000x128.size a := fun v37 k0_hw4 => k0_hw4

def k0_off9 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c2_i32_17 : BitVec 32 := 2#32
  let v47 : BitVec 32 := Scalar.addi v2 c2_i32_17
  let v48 : BitVec 32 := Scalar.addi v0 v47
  let c2_i32_18 : BitVec 32 := 2#32
  let v49 : BitVec 32 := Scalar.muli v48 c2_i32_18
  let c0_i32_19 : BitVec 32 := 0#32
  let v50 : BitVec 32 := Scalar.addi v49 c0_i32_19
  let v51 : Index := Scalar.indexCast v50
  ![v51.toNat]
def k0_off10 (v52 : BitVec 32) : Fin 2 → Nat :=
  let v53 : Index := Scalar.indexCast v52
  let c0_20 : Index := 0#32
  ![v53.toNat, 0]

def k0_chk5 (v52 : BitVec 32) : Prop :=
  (∀ a, (k0_off10 v52) a + S1x128.size a ≤ S32000x128.size a)
instance k0_chk5.dec : ∀ (v52 : BitVec 32), Decidable (k0_chk5 v52) := fun v52 => decidable_of_iff' _ (Iff.of_eq (k0_chk5.eq_1 v52))
theorem k0_off10_inb : ∀ (v52 : BitVec 32) (k0_hw5 : k0_chk5 v52), ∀ a, (k0_off10 v52) a + S1x128.size a ≤ S32000x128.size a := fun v52 k0_hw5 => k0_hw5

def k0_off11 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c2_i32_17 : BitVec 32 := 2#32
  let v47 : BitVec 32 := Scalar.addi v2 c2_i32_17
  let v48 : BitVec 32 := Scalar.addi v0 v47
  let c2_i32_21 : BitVec 32 := 2#32
  let v56 : BitVec 32 := Scalar.muli v48 c2_i32_21
  let c1_i32_22 : BitVec 32 := 1#32
  let v57 : BitVec 32 := Scalar.addi v56 c1_i32_22
  let v58 : Index := Scalar.indexCast v57
  ![v58.toNat]
def k0_off12 (v59 : BitVec 32) : Fin 2 → Nat :=
  let v60 : Index := Scalar.indexCast v59
  let c0_23 : Index := 0#32
  ![v60.toNat, 0]

def k0_chk6 (v59 : BitVec 32) : Prop :=
  (∀ a, (k0_off12 v59) a + S1x128.size a ≤ S32000x128.size a)
instance k0_chk6.dec : ∀ (v59 : BitVec 32), Decidable (k0_chk6 v59) := fun v59 => decidable_of_iff' _ (Iff.of_eq (k0_chk6.eq_1 v59))
theorem k0_off12_inb : ∀ (v59 : BitVec 32) (k0_hw6 : k0_chk6 v59), ∀ a, (k0_off12 v59) a + S1x128.size a ≤ S32000x128.size a := fun v59 k0_hw6 => k0_hw6

def k0_off13 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c3_i32 : BitVec 32 := 3#32
  let v69 : BitVec 32 := Scalar.addi v2 c3_i32
  let v70 : BitVec 32 := Scalar.addi v0 v69
  let c2_i32_26 : BitVec 32 := 2#32
  let v71 : BitVec 32 := Scalar.muli v70 c2_i32_26
  let c0_i32_27 : BitVec 32 := 0#32
  let v72 : BitVec 32 := Scalar.addi v71 c0_i32_27
  let v73 : Index := Scalar.indexCast v72
  ![v73.toNat]
def k0_off14 (v74 : BitVec 32) : Fin 2 → Nat :=
  let v75 : Index := Scalar.indexCast v74
  let c0_28 : Index := 0#32
  ![v75.toNat, 0]

def k0_chk7 (v74 : BitVec 32) : Prop :=
  (∀ a, (k0_off14 v74) a + S1x128.size a ≤ S32000x128.size a)
instance k0_chk7.dec : ∀ (v74 : BitVec 32), Decidable (k0_chk7 v74) := fun v74 => decidable_of_iff' _ (Iff.of_eq (k0_chk7.eq_1 v74))
theorem k0_off14_inb : ∀ (v74 : BitVec 32) (k0_hw7 : k0_chk7 v74), ∀ a, (k0_off14 v74) a + S1x128.size a ≤ S32000x128.size a := fun v74 k0_hw7 => k0_hw7

def k0_off15 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c3_i32 : BitVec 32 := 3#32
  let v69 : BitVec 32 := Scalar.addi v2 c3_i32
  let v70 : BitVec 32 := Scalar.addi v0 v69
  let c2_i32_29 : BitVec 32 := 2#32
  let v78 : BitVec 32 := Scalar.muli v70 c2_i32_29
  let c1_i32_30 : BitVec 32 := 1#32
  let v79 : BitVec 32 := Scalar.addi v78 c1_i32_30
  let v80 : Index := Scalar.indexCast v79
  ![v80.toNat]
def k0_off16 (v81 : BitVec 32) : Fin 2 → Nat :=
  let v82 : Index := Scalar.indexCast v81
  let c0_31 : Index := 0#32
  ![v82.toNat, 0]

def k0_chk8 (v81 : BitVec 32) : Prop :=
  (∀ a, (k0_off16 v81) a + S1x128.size a ≤ S32000x128.size a)
instance k0_chk8.dec : ∀ (v81 : BitVec 32), Decidable (k0_chk8 v81) := fun v81 => decidable_of_iff' _ (Iff.of_eq (k0_chk8.eq_1 v81))
theorem k0_off16_inb : ∀ (v81 : BitVec 32) (k0_hw8 : k0_chk8 v81), ∀ a, (k0_off16 v81) a + S1x128.size a ≤ S32000x128.size a := fun v81 k0_hw8 => k0_hw8

def k0_off17 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c4_i32 : BitVec 32 := 4#32
  let v91 : BitVec 32 := Scalar.addi v2 c4_i32
  let v92 : BitVec 32 := Scalar.addi v0 v91
  let c2_i32_34 : BitVec 32 := 2#32
  let v93 : BitVec 32 := Scalar.muli v92 c2_i32_34
  let c0_i32_35 : BitVec 32 := 0#32
  let v94 : BitVec 32 := Scalar.addi v93 c0_i32_35
  let v95 : Index := Scalar.indexCast v94
  ![v95.toNat]
def k0_off18 (v96 : BitVec 32) : Fin 2 → Nat :=
  let v97 : Index := Scalar.indexCast v96
  let c0_36 : Index := 0#32
  ![v97.toNat, 0]

def k0_chk9 (v96 : BitVec 32) : Prop :=
  (∀ a, (k0_off18 v96) a + S1x128.size a ≤ S32000x128.size a)
instance k0_chk9.dec : ∀ (v96 : BitVec 32), Decidable (k0_chk9 v96) := fun v96 => decidable_of_iff' _ (Iff.of_eq (k0_chk9.eq_1 v96))
theorem k0_off18_inb : ∀ (v96 : BitVec 32) (k0_hw9 : k0_chk9 v96), ∀ a, (k0_off18 v96) a + S1x128.size a ≤ S32000x128.size a := fun v96 k0_hw9 => k0_hw9

def k0_off19 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c4_i32 : BitVec 32 := 4#32
  let v91 : BitVec 32 := Scalar.addi v2 c4_i32
  let v92 : BitVec 32 := Scalar.addi v0 v91
  let c2_i32_37 : BitVec 32 := 2#32
  let v100 : BitVec 32 := Scalar.muli v92 c2_i32_37
  let c1_i32_38 : BitVec 32 := 1#32
  let v101 : BitVec 32 := Scalar.addi v100 c1_i32_38
  let v102 : Index := Scalar.indexCast v101
  ![v102.toNat]
def k0_off20 (v103 : BitVec 32) : Fin 2 → Nat :=
  let v104 : Index := Scalar.indexCast v103
  let c0_39 : Index := 0#32
  ![v104.toNat, 0]

def k0_chk10 (v103 : BitVec 32) : Prop :=
  (∀ a, (k0_off20 v103) a + S1x128.size a ≤ S32000x128.size a)
instance k0_chk10.dec : ∀ (v103 : BitVec 32), Decidable (k0_chk10 v103) := fun v103 => decidable_of_iff' _ (Iff.of_eq (k0_chk10.eq_1 v103))
theorem k0_off20_inb : ∀ (v103 : BitVec 32) (k0_hw10 : k0_chk10 v103), ∀ a, (k0_off20 v103) a + S1x128.size a ≤ S32000x128.size a := fun v103 k0_hw10 => k0_hw10

def k0_off21 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c5_i32 : BitVec 32 := 5#32
  let v113 : BitVec 32 := Scalar.addi v2 c5_i32
  let v114 : BitVec 32 := Scalar.addi v0 v113
  let c2_i32_42 : BitVec 32 := 2#32
  let v115 : BitVec 32 := Scalar.muli v114 c2_i32_42
  let c0_i32_43 : BitVec 32 := 0#32
  let v116 : BitVec 32 := Scalar.addi v115 c0_i32_43
  let v117 : Index := Scalar.indexCast v116
  ![v117.toNat]
def k0_off22 (v118 : BitVec 32) : Fin 2 → Nat :=
  let v119 : Index := Scalar.indexCast v118
  let c0_44 : Index := 0#32
  ![v119.toNat, 0]

def k0_chk11 (v118 : BitVec 32) : Prop :=
  (∀ a, (k0_off22 v118) a + S1x128.size a ≤ S32000x128.size a)
instance k0_chk11.dec : ∀ (v118 : BitVec 32), Decidable (k0_chk11 v118) := fun v118 => decidable_of_iff' _ (Iff.of_eq (k0_chk11.eq_1 v118))
theorem k0_off22_inb : ∀ (v118 : BitVec 32) (k0_hw11 : k0_chk11 v118), ∀ a, (k0_off22 v118) a + S1x128.size a ≤ S32000x128.size a := fun v118 k0_hw11 => k0_hw11

def k0_off23 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c5_i32 : BitVec 32 := 5#32
  let v113 : BitVec 32 := Scalar.addi v2 c5_i32
  let v114 : BitVec 32 := Scalar.addi v0 v113
  let c2_i32_45 : BitVec 32 := 2#32
  let v122 : BitVec 32 := Scalar.muli v114 c2_i32_45
  let c1_i32_46 : BitVec 32 := 1#32
  let v123 : BitVec 32 := Scalar.addi v122 c1_i32_46
  let v124 : Index := Scalar.indexCast v123
  ![v124.toNat]
def k0_off24 (v125 : BitVec 32) : Fin 2 → Nat :=
  let v126 : Index := Scalar.indexCast v125
  let c0_47 : Index := 0#32
  ![v126.toNat, 0]

def k0_chk12 (v125 : BitVec 32) : Prop :=
  (∀ a, (k0_off24 v125) a + S1x128.size a ≤ S32000x128.size a)
instance k0_chk12.dec : ∀ (v125 : BitVec 32), Decidable (k0_chk12 v125) := fun v125 => decidable_of_iff' _ (Iff.of_eq (k0_chk12.eq_1 v125))
theorem k0_off24_inb : ∀ (v125 : BitVec 32) (k0_hw12 : k0_chk12 v125), ∀ a, (k0_off24 v125) a + S1x128.size a ≤ S32000x128.size a := fun v125 k0_hw12 => k0_hw12

def k0_off25 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c6_i32 : BitVec 32 := 6#32
  let v135 : BitVec 32 := Scalar.addi v2 c6_i32
  let v136 : BitVec 32 := Scalar.addi v0 v135
  let c2_i32_50 : BitVec 32 := 2#32
  let v137 : BitVec 32 := Scalar.muli v136 c2_i32_50
  let c0_i32_51 : BitVec 32 := 0#32
  let v138 : BitVec 32 := Scalar.addi v137 c0_i32_51
  let v139 : Index := Scalar.indexCast v138
  ![v139.toNat]
def k0_off26 (v140 : BitVec 32) : Fin 2 → Nat :=
  let v141 : Index := Scalar.indexCast v140
  let c0_52 : Index := 0#32
  ![v141.toNat, 0]

def k0_chk13 (v140 : BitVec 32) : Prop :=
  (∀ a, (k0_off26 v140) a + S1x128.size a ≤ S32000x128.size a)
instance k0_chk13.dec : ∀ (v140 : BitVec 32), Decidable (k0_chk13 v140) := fun v140 => decidable_of_iff' _ (Iff.of_eq (k0_chk13.eq_1 v140))
theorem k0_off26_inb : ∀ (v140 : BitVec 32) (k0_hw13 : k0_chk13 v140), ∀ a, (k0_off26 v140) a + S1x128.size a ≤ S32000x128.size a := fun v140 k0_hw13 => k0_hw13

def k0_off27 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c6_i32 : BitVec 32 := 6#32
  let v135 : BitVec 32 := Scalar.addi v2 c6_i32
  let v136 : BitVec 32 := Scalar.addi v0 v135
  let c2_i32_53 : BitVec 32 := 2#32
  let v144 : BitVec 32 := Scalar.muli v136 c2_i32_53
  let c1_i32_54 : BitVec 32 := 1#32
  let v145 : BitVec 32 := Scalar.addi v144 c1_i32_54
  let v146 : Index := Scalar.indexCast v145
  ![v146.toNat]
def k0_off28 (v147 : BitVec 32) : Fin 2 → Nat :=
  let v148 : Index := Scalar.indexCast v147
  let c0_55 : Index := 0#32
  ![v148.toNat, 0]

def k0_chk14 (v147 : BitVec 32) : Prop :=
  (∀ a, (k0_off28 v147) a + S1x128.size a ≤ S32000x128.size a)
instance k0_chk14.dec : ∀ (v147 : BitVec 32), Decidable (k0_chk14 v147) := fun v147 => decidable_of_iff' _ (Iff.of_eq (k0_chk14.eq_1 v147))
theorem k0_off28_inb : ∀ (v147 : BitVec 32) (k0_hw14 : k0_chk14 v147), ∀ a, (k0_off28 v147) a + S1x128.size a ≤ S32000x128.size a := fun v147 k0_hw14 => k0_hw14

def k0_off29 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c7_i32 : BitVec 32 := 7#32
  let v157 : BitVec 32 := Scalar.addi v2 c7_i32
  let v158 : BitVec 32 := Scalar.addi v0 v157
  let c2_i32_58 : BitVec 32 := 2#32
  let v159 : BitVec 32 := Scalar.muli v158 c2_i32_58
  let c0_i32_59 : BitVec 32 := 0#32
  let v160 : BitVec 32 := Scalar.addi v159 c0_i32_59
  let v161 : Index := Scalar.indexCast v160
  ![v161.toNat]
def k0_off30 (v162 : BitVec 32) : Fin 2 → Nat :=
  let v163 : Index := Scalar.indexCast v162
  let c0_60 : Index := 0#32
  ![v163.toNat, 0]

def k0_chk15 (v162 : BitVec 32) : Prop :=
  (∀ a, (k0_off30 v162) a + S1x128.size a ≤ S32000x128.size a)
instance k0_chk15.dec : ∀ (v162 : BitVec 32), Decidable (k0_chk15 v162) := fun v162 => decidable_of_iff' _ (Iff.of_eq (k0_chk15.eq_1 v162))
theorem k0_off30_inb : ∀ (v162 : BitVec 32) (k0_hw15 : k0_chk15 v162), ∀ a, (k0_off30 v162) a + S1x128.size a ≤ S32000x128.size a := fun v162 k0_hw15 => k0_hw15

def k0_off31 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let c7_i32 : BitVec 32 := 7#32
  let v157 : BitVec 32 := Scalar.addi v2 c7_i32
  let v158 : BitVec 32 := Scalar.addi v0 v157
  let c2_i32_61 : BitVec 32 := 2#32
  let v166 : BitVec 32 := Scalar.muli v158 c2_i32_61
  let c1_i32_62 : BitVec 32 := 1#32
  let v167 : BitVec 32 := Scalar.addi v166 c1_i32_62
  let v168 : Index := Scalar.indexCast v167
  ![v168.toNat]
def k0_off32 (v169 : BitVec 32) : Fin 2 → Nat :=
  let v170 : Index := Scalar.indexCast v169
  let c0_63 : Index := 0#32
  ![v170.toNat, 0]

def k0_chk16 (v169 : BitVec 32) : Prop :=
  (∀ a, (k0_off32 v169) a + S1x128.size a ≤ S32000x128.size a)
instance k0_chk16.dec : ∀ (v169 : BitVec 32), Decidable (k0_chk16 v169) := fun v169 => decidable_of_iff' _ (Iff.of_eq (k0_chk16.eq_1 v169))
theorem k0_off32_inb : ∀ (v169 : BitVec 32) (k0_hw16 : k0_chk16 v169), ∀ a, (k0_off32 v169) a + S1x128.size a ≤ S32000x128.size a := fun v169 k0_hw16 => k0_hw16

def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  v2
def k0_off33 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v2 : BitVec 32 := Scalar.muli arg5 c8_i32
  let v180 : BitVec 32 := v2
  let v181 : Index := Scalar.indexCast v180
  let c0_68 : Index := 0#32
  ![v181.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4096x2_S8192 : S4096x2.ShapeCasts S8192
  transposes_S128x32000_S32000x128_1_0 : S128x32000.Transposes [1, 0] S32000x128
  bitsLt_bf16_f32 : FTy.bits .bf16 < FTy.bits .f32
  numel1_S1 : S1.numel = 1
  h_S1x128 : 0 < S1x128.numel
  shapeCasts_S1x128_S128 : S1x128.ShapeCasts S128
  inb_S8x128_S1x128_0_0 : ∀ a, (![0, 0] : Fin 2 → Nat) a + S1x128.size a ≤ S8x128.size a
  shapeCasts_S128_S1x128 : S128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  inb_S8x128_S8x128_0_0 : ∀ a, (![0, 0] : Fin 2 → Nat) a + S8x128.size a ≤ S8x128.size a
  h_S8x128 : 0 < S8x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S512x3200_S512x3200_0_0 : ∀ a, (![0, 0] : Fin 2 → Nat) a + S512x3200.size a ≤ S512x3200.size a
  h_S512x3200 : 0 < S512x3200.numel
  dot_S512x128_S3200x128_S512x3200_1_1_0_0_n_n_wf : DotDims.WF S512x128 S3200x128 S512x3200 [1] [1] [0] [0] [] []
  hrank0 : 0 < grid0.rank
  k0_t1_ok : k0_t1_loop.OK
  k0_off1_inb : ∀ (i : grid0.Coords) (k0_t1 : Fin k0_t1_loop.trips), ∀ a, (k0_off1 i k0_t1) a + S1.size a ≤ S8192.size a
  k0_off3_inb : ∀ (i : grid0.Coords) (k0_t1 : Fin k0_t1_loop.trips), ∀ a, (k0_off3 i k0_t1) a + S1.size a ≤ S8192.size a
  k0_off5_inb : ∀ (i : grid0.Coords) (k0_t1 : Fin k0_t1_loop.trips), ∀ a, (k0_off5 i k0_t1) a + S1.size a ≤ S8192.size a
  k0_off7_inb : ∀ (i : grid0.Coords) (k0_t1 : Fin k0_t1_loop.trips), ∀ a, (k0_off7 i k0_t1) a + S1.size a ≤ S8192.size a
  k0_off9_inb : ∀ (i : grid0.Coords) (k0_t1 : Fin k0_t1_loop.trips), ∀ a, (k0_off9 i k0_t1) a + S1.size a ≤ S8192.size a
  k0_off11_inb : ∀ (i : grid0.Coords) (k0_t1 : Fin k0_t1_loop.trips), ∀ a, (k0_off11 i k0_t1) a + S1.size a ≤ S8192.size a
  k0_off13_inb : ∀ (i : grid0.Coords) (k0_t1 : Fin k0_t1_loop.trips), ∀ a, (k0_off13 i k0_t1) a + S1.size a ≤ S8192.size a
  k0_off15_inb : ∀ (i : grid0.Coords) (k0_t1 : Fin k0_t1_loop.trips), ∀ a, (k0_off15 i k0_t1) a + S1.size a ≤ S8192.size a
  k0_off17_inb : ∀ (i : grid0.Coords) (k0_t1 : Fin k0_t1_loop.trips), ∀ a, (k0_off17 i k0_t1) a + S1.size a ≤ S8192.size a
  k0_off19_inb : ∀ (i : grid0.Coords) (k0_t1 : Fin k0_t1_loop.trips), ∀ a, (k0_off19 i k0_t1) a + S1.size a ≤ S8192.size a
  k0_off21_inb : ∀ (i : grid0.Coords) (k0_t1 : Fin k0_t1_loop.trips), ∀ a, (k0_off21 i k0_t1) a + S1.size a ≤ S8192.size a
  k0_off23_inb : ∀ (i : grid0.Coords) (k0_t1 : Fin k0_t1_loop.trips), ∀ a, (k0_off23 i k0_t1) a + S1.size a ≤ S8192.size a
  k0_off25_inb : ∀ (i : grid0.Coords) (k0_t1 : Fin k0_t1_loop.trips), ∀ a, (k0_off25 i k0_t1) a + S1.size a ≤ S8192.size a
  k0_off27_inb : ∀ (i : grid0.Coords) (k0_t1 : Fin k0_t1_loop.trips), ∀ a, (k0_off27 i k0_t1) a + S1.size a ≤ S8192.size a
  k0_off29_inb : ∀ (i : grid0.Coords) (k0_t1 : Fin k0_t1_loop.trips), ∀ a, (k0_off29 i k0_t1) a + S1.size a ≤ S8192.size a
  k0_off31_inb : ∀ (i : grid0.Coords) (k0_t1 : Fin k0_t1_loop.trips), ∀ a, (k0_off31 i k0_t1) a + S1.size a ≤ S8192.size a
  k0_mult1_dvd : ∀ k0_t1 : Fin k0_t1_loop.trips, 8 ∣ (k0_mult1 k0_t1).toNat
  k0_off33_inb : ∀ k0_t1 : Fin k0_t1_loop.trips, ∀ a, (k0_off33 k0_t1) a + S8x128.size a ≤ S512x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32000x128.size a ≤ S32000x128.size a
  hwx0_0 : ∀ i : grid0.Coords, EltTy.bits .f32 = 32 ∨ (Rect.block (s := S32000x128) S32000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S32000x128.size a
  hwx1_1 : ∀ i : grid1.Coords, EltTy.bits .bf16 = 32 ∨ (Rect.block (s := S32000x128) S3200x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3200.size a ≤ S4096x32000.size a
  hwx1_2 : ∀ i : grid1.Coords, EltTy.bits .f32 = 32 ∨ (Rect.block (s := S4096x32000) S512x3200.size (cc1_transform_2 i) (hinb1_2 i)).WholeWords (EltTy.packing .f32)

variable [Facts₀]

def dot_S512x128_S3200x128_S512x3200_1_1_0_0_n_n : DotDims S512x128 S3200x128 S512x3200 where
  lhsContracting := [1]
  rhsContracting := [1]
  lhsNonContracting := [0]
  rhsNonContracting := [0]
  lhsBatch := []
  rhsBatch := []
  wf := dot_S512x128_S3200x128_S512x3200_1_1_0_0_n_n_wf

abbrev spec0_0 : Pipeline.WinSpec sig grid0.rank :=
  Pipeline.WinSpec.ofSpec (Memref.whole main_v1) S32000x128.size reads0_0 false true 1 stage0_0 sem0_0 nbuf0_0 hstage0_0

abbrev spec0_1 : Pipeline.WinSpec sig grid0.rank :=
  Pipeline.WinSpec.ofSpec (Memref.whole main_v3) S512x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev win1_0 : Pipeline.Window sig grid1 :=
  Pipeline.Window.ofSpec (Memref.whole main_v3) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x3200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  harr0 : ∀ w, (spec0 w).arr.IsWhole

variable [Facts]
-- ==== ReferenceIdeal.lean ====
abbrev S4096x2 : Shape := ⟨2, ![4096, 2]⟩
abbrev S128x32000 : Shape := ⟨2, ![128, 32000]⟩
abbrev S32000x128 : Shape := ⟨2, ![32000, 128]⟩
abbrev S_ : Shape := ⟨0, ![]⟩
abbrev S4096x2x1 : Shape := ⟨3, ![4096, 2, 1]⟩
abbrev S128x4096x2 : Shape := ⟨3, ![128, 4096, 2]⟩
abbrev S128x4096 : Shape := ⟨2, ![128, 4096]⟩
abbrev S32000x4096 : Shape := ⟨2, ![32000, 4096]⟩
abbrev S4096x32000 : Shape := ⟨2, ![4096, 32000]⟩

abbrev nBuf : Space → Nat
  | .hbm => 19
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S128x32000, .f32⟩
  | .hbm, ⟨2, _⟩ => ⟨S32000x128, .f32⟩
  | .hbm, ⟨3, _⟩ => ⟨S_, .i32⟩
  | .hbm, ⟨4, _⟩ => ⟨S4096x2, .i32⟩
  | .hbm, ⟨5, _⟩ => ⟨S4096x2, .i1⟩
  | .hbm, ⟨6, _⟩ => ⟨S_, .i32⟩
  | .hbm, ⟨7, _⟩ => ⟨S4096x2, .i32⟩
  | .hbm, ⟨8, _⟩ => ⟨S4096x2, .i32⟩
  | .hbm, ⟨9, _⟩ => ⟨S4096x2, .i32⟩
  | .hbm, ⟨10, _⟩ => ⟨S4096x2x1, .i32⟩
  | .hbm, ⟨11, _⟩ => ⟨S128x4096x2, .f32⟩
  | .hbm, ⟨12, _⟩ => ⟨S_, .f32⟩
  | .hbm, ⟨13, _⟩ => ⟨S128x4096, .f32⟩
  | .hbm, ⟨14, _⟩ => ⟨S_, .f32⟩
  | .hbm, ⟨15, _⟩ => ⟨S128x4096, .f32⟩
  | .hbm, ⟨16, _⟩ => ⟨S128x4096, .f32⟩
  | .hbm, ⟨17, _⟩ => ⟨S32000x4096, .f32⟩
  | .hbm, ⟨18, _⟩ => ⟨S4096x32000, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  reducesTo_S128x4096x2_S128x4096_d2 : S128x4096x2.ReducesTo [2] S128x4096
  h_S_ : 0 < S_.numel
  bcast_S_S128x4096 : S_.BroadcastsInDim S128x4096 (![] : Fin 0 → Fin S128x4096.rank)
  transposes_S32000x4096_S4096x32000_1_0 : S32000x4096.Transposes [1, 0] S4096x32000
  gather_S128x32000_S4096x2x1_S128x4096x2_0_1_n_n_1_2_1281_wf : GatherDims.WF S128x32000 S4096x2x1 S128x4096x2 [0] [1] [] [1] [] 2 ![128, 1]
  dot_S32000x128_S128x4096_S32000x4096_1_0_0_1_n_n_wf : DotDims.WF S32000x128 S128x4096 S32000x4096 [1] [0] [0] [1] [] []

variable [Facts₀]

def gather_S128x32000_S4096x2x1_S128x4096x2_0_1_n_n_1_2_1281 : GatherDims S128x32000 S4096x2x1 S128x4096x2 where
  offsetDims := [0]
  collapsedSliceDims := [1]
  operandBatchingDims := []
  startIndicesBatchingDims := []
  startIndexMap := [1]
  indexVectorDim := 2
  sliceSizes := ![128, 1]
  wf := gather_S128x32000_S4096x2x1_S128x4096x2_0_1_n_n_1_2_1281_wf
def dot_S32000x128_S128x4096_S32000x4096_1_0_0_1_n_n : DotDims S32000x128 S128x4096 S32000x4096 where
  lhsContracting := [1]
  rhsContracting := [0]
  lhsNonContracting := [0]
  rhsNonContracting := [1]
  lhsBatch := []
  rhsBatch := []
  wf := dot_S32000x128_S128x4096_S32000x4096_1_0_0_1_n_n_wf

class Facts : Prop extends Facts₀ where

variable [Facts]
-- ==== Proof.KB.Base.lean ====
/-
  The gather kernel's two operands that no window stages: the token table (a whole scalar-memory buffer the body reads
  word by word) and the 8 × 128 scratch tile (a whole vector-memory buffer the body fills row by row and reads back whole),
  as the pipeline hands them to the body; and the one fact the body needs of the table: every word names a row of the
  32000-row embedding table.
-/
import proofs.«403318_j74122545594780_3_alg».proof.Proof.Gen.Kernel.Launch
import proofs.«403318_j74122545594780_3_alg».proof.Proof.Gen.Kernel.Skeleton
import proofs.«403318_j74122545594780_3_alg».proof.Proof.Gen.Kernel.Loops
import proofs.«403318_j74122545594780_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The token table as the body is handed it: the whole buffer of the flattened token array. -/
abbrev tbM : Memref sig .tc .smem S8192 .i32 := Memref.whole main_v0
abbrev htbM : tbM.IsWhole := Memref.isWhole_whole _
/-- The scratch tile as the body is handed it. -/
abbrev scM : Memref sig .tc .vmem S8x128 .f32 := Memref.whole cc0_scratch0
abbrev hscM : scM.IsWhole := Memref.isWhole_whole _

/-- The table's contents on core `c`, and the table held whole at contents `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f
/-- The scratch tile held whole at some contents. -/
abbrev scPt (c : Dev nD) : sProp 𝕄 := iprop(∃ f : Buf (Elt F) (scM.view.loc (c : Thread nD τ)), scM.view.loc (c : Thread nD τ) ↦{fullShare} f)

/-- Every word of the table names a row of the embedding table. -/
def TokOk (c : Dev nD) (xt : TbBuf (F := F) c) : Prop := ∀ j, (xt j).toNat < 32000

end Cert.Kernel.Hand

end
-- ==== Proof.KB.GatherTrip.lean ====
/-
  One trip of the gather kernel's loop: the side conditions of the sixteen table words it reads follow from every
  word naming a row; the trip's resources; and the trip run at a symbolic trip number, leaving the scratch tile and
  the output block written by lists of pieces.
-/
import proofs.«403318_j74122545594780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### A word below 32000 names a row: the side condition of each of the sixteen words a trip reads -/

theorem chk1_of_lt (v : BitVec 32) (h : v.toNat < 32000) : k0_chk1 v := by
  intro a; fin_cases a
  · show v.toNat + 1 ≤ 32000; omega
  · show 0 + 128 ≤ 128; omega
theorem chk2_of_lt (v : BitVec 32) (h : v.toNat < 32000) : k0_chk2 v := by
  intro a; fin_cases a
  · show v.toNat + 1 ≤ 32000; omega
  · show 0 + 128 ≤ 128; omega
theorem chk3_of_lt (v : BitVec 32) (h : v.toNat < 32000) : k0_chk3 v := by
  intro a; fin_cases a
  · show v.toNat + 1 ≤ 32000; omega
  · show 0 + 128 ≤ 128; omega
theorem chk4_of_lt (v : BitVec 32) (h : v.toNat < 32000) : k0_chk4 v := by
  intro a; fin_cases a
  · show v.toNat + 1 ≤ 32000; omega
  · show 0 + 128 ≤ 128; omega
theorem chk5_of_lt (v : BitVec 32) (h : v.toNat < 32000) : k0_chk5 v := by
  intro a; fin_cases a
  · show v.toNat + 1 ≤ 32000; omega
  · show 0 + 128 ≤ 128; omega
theorem chk6_of_lt (v : BitVec 32) (h : v.toNat < 32000) : k0_chk6 v := by
  intro a; fin_cases a
  · show v.toNat + 1 ≤ 32000; omega
  · show 0 + 128 ≤ 128; omega
theorem chk7_of_lt (v : BitVec 32) (h : v.toNat < 32000) : k0_chk7 v := by
  intro a; fin_cases a
  · show v.toNat + 1 ≤ 32000; omega
  · show 0 + 128 ≤ 128; omega
theorem chk8_of_lt (v : BitVec 32) (h : v.toNat < 32000) : k0_chk8 v := by
  intro a; fin_cases a
  · show v.toNat + 1 ≤ 32000; omega
  · show 0 + 128 ≤ 128; omega
theorem chk9_of_lt (v : BitVec 32) (h : v.toNat < 32000) : k0_chk9 v := by
  intro a; fin_cases a
  · show v.toNat + 1 ≤ 32000; omega
  · show 0 + 128 ≤ 128; omega
theorem chk10_of_lt (v : BitVec 32) (h : v.toNat < 32000) : k0_chk10 v := by
  intro a; fin_cases a
  · show v.toNat + 1 ≤ 32000; omega
  · show 0 + 128 ≤ 128; omega
theorem chk11_of_lt (v : BitVec 32) (h : v.toNat < 32000) : k0_chk11 v := by
  intro a; fin_cases a
  · show v.toNat + 1 ≤ 32000; omega
  · show 0 + 128 ≤ 128; omega
theorem chk12_of_lt (v : BitVec 32) (h : v.toNat < 32000) : k0_chk12 v := by
  intro a; fin_cases a
  · show v.toNat + 1 ≤ 32000; omega
  · show 0 + 128 ≤ 128; omega
theorem chk13_of_lt (v : BitVec 32) (h : v.toNat < 32000) : k0_chk13 v := by
  intro a; fin_cases a
  · show v.toNat + 1 ≤ 32000; omega
  · show 0 + 128 ≤ 128; omega
theorem chk14_of_lt (v : BitVec 32) (h : v.toNat < 32000) : k0_chk14 v := by
  intro a; fin_cases a
  · show v.toNat + 1 ≤ 32000; omega
  · show 0 + 128 ≤ 128; omega
theorem chk15_of_lt (v : BitVec 32) (h : v.toNat < 32000) : k0_chk15 v := by
  intro a; fin_cases a
  · show v.toNat + 1 ≤ 32000; omega
  · show 0 + 128 ≤ 128; omega
theorem chk16_of_lt (v : BitVec 32) (h : v.toNat < 32000) : k0_chk16 v := by
  intro a; fin_cases a
  · show v.toNat + 1 ≤ 32000; omega
  · show 0 + 128 ≤ 128; omega

/-- Every word a load reads off the table names a row. -/
theorem tok_word (c : Dev nD) (xt : TbBuf (F := F) c) (hx : TokOk c xt) (R : LoadRect S8192) (x : R.shape.Idx) :
    BitVec.toNat (tbM.view.readAt (Elt F) R xt x) < 32000 :=
  hx _

/-! ### One trip -/

/-- One trip's resources: the table and the embedding block at their contents, the output block and the scratch tile at any. -/
abbrev Trip (c : Dev nD) (arg2 : Memref sig .tc .vmem S32000x128 .f32) (arg3 : Memref sig .tc .vmem S512x128 .f32)
    (xt : TbBuf (F := F) c) (X2 : BufTy.Contents (Elt F) arg2.view.ty)
    (f3 : BufTy.Contents (Elt F) arg3.view.ty) (f4 : Buf (Elt F) (scM.view.loc (c : Thread nD τ))) : sProp 𝕄 :=
  iprop(tbPt c xt ∗ (arg2.view.loc (c : Thread nD τ) ↦[arg2.view.set]{fullShare} X2)
    ∗ (arg3.view.loc (c : Thread nD τ) ↦[arg3.view.set]{fullShare} f3) ∗ (scM.view.loc (c : Thread nD τ) ↦{fullShare} f4))

set_option maxHeartbeats 4000000 in
/-- One trip at a symbolic trip number: the pieces it leaves in the scratch tile and in the output block. -/
@[irreducible] def trip (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    Σ' (L4 : List (View.Piece (Elt F) S8x128 .f32)), { L3 : List (View.Piece (Elt F) S512x128 .f32) //
      ∀ (f3 : BufTy.Contents (Elt F) arg3.view.ty) (f4 : Buf (Elt F) (scM.view.loc (c : Thread nD τ))),
      Trip (F := F) c arg2 arg3 xt X2 f3 f4
      ⊢ wp frame (wpE (defs₀ (F := F)) Variants.none (c : Thread nD τ) none) Set.univ
          (k0_t1_body (F := F) i tbM htbM arg2 harg2 arg3 harg3 scM hscM v0 k PUnit.unit)
          (fun _ => Trip (F := F) c arg2 arg3 xt X2 (arg3.view.writes (Elt F) f3 L3) (scM.view.writes (Elt F) f4 L4)) } := by
  refine ⟨?_, ?_, fun f3 f4 => ?run⟩
  case run =>
    unfold k0_t1_body
    simp only [k0_part1_eq_skeleton, k0_part2_eq_skeleton, k0_part3_eq_skeleton, k0_part4_eq_skeleton]
    iintro ⟨HT, H2, H3, H4⟩
    sl_exec (disch := first | exact chk1_of_lt _ (tok_word c xt hx _ _) | exact chk2_of_lt _ (tok_word c xt hx _ _) | exact chk3_of_lt _ (tok_word c xt hx _ _) | exact chk4_of_lt _ (tok_word c xt hx _ _) | exact chk5_of_lt _ (tok_word c xt hx _ _) | exact chk6_of_lt _ (tok_word c xt hx _ _) | exact chk7_of_lt _ (tok_word c xt hx _ _) | exact chk8_of_lt _ (tok_word c xt hx _ _) | exact chk9_of_lt _ (tok_word c xt hx _ _) | exact chk10_of_lt _ (tok_word c xt hx _ _) | exact chk11_of_lt _ (tok_word c xt hx _ _) | exact chk12_of_lt _ (tok_word c xt hx _ _) | exact chk13_of_lt _ (tok_word c xt hx _ _) | exact chk14_of_lt _ (tok_word c xt hx _ _) | exact chk15_of_lt _ (tok_word c xt hx _ _) | exact chk16_of_lt _ (tok_word c xt hx _ _))
    sl_step
    sl_close

/-- The trip's piece lists (plain projections). -/
abbrev tripL4 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    List (View.Piece (Elt F) S8x128 .f32) :=
  (trip (F := F) c i arg2 harg2 arg3 harg3 v0 xt hx X2 k).1

abbrev tripL3 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    List (View.Piece (Elt F) S512x128 .f32) :=
  (trip (F := F) c i arg2 harg2 arg3 harg3 v0 xt hx X2 k).2.1

end Cert.Kernel.Hand

end
-- ==== Proof.KB.GatherLoop.lean ====
/-
  The gather kernel's counted loop by its invariant: the pieces the trips before trip k have left in the scratch tile
  and in the output block (last first), by recursion over the trips; the invariant holding the table and the embedding
  block at their contents and the two written buffers at those pieces over their contents at loop entry; one trip takes
  the invariant to the next.
-/
import proofs.«403318_j74122545594780_3_alg».proof.Proof.KB.GatherTrip

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-! ### The pieces of the trips before trip k -/

/-- Trip k's pieces in front of those before it, in the output block; past the last trip, nothing more. -/
@[irreducible] def pb3Step (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : ℕ) (prev : List (View.Piece (Elt F) S512x128 .f32)) : List (View.Piece (Elt F) S512x128 .f32) :=
  if h : k < k0_t1_loop.trips then (tripL3 (F := F) c i arg2 harg2 arg3 harg3 v0 xt hx X2 ⟨k, h⟩) ++ prev else prev

/-- The pieces the trips before k left in the output block (last first). -/
def pb3 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) : ℕ → List (View.Piece (Elt F) S512x128 .f32)
  | 0 => []
  | k + 1 => pb3Step c i arg2 harg2 arg3 harg3 v0 xt hx X2 k (pb3 c i arg2 harg2 arg3 harg3 v0 xt hx X2 k)

theorem pb3_succ (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    pb3 (F := F) c i arg2 harg2 arg3 harg3 v0 xt hx X2 (k.val + 1) = (tripL3 (F := F) c i arg2 harg2 arg3 harg3 v0 xt hx X2 k) ++ (pb3 (F := F) c i arg2 harg2 arg3 harg3 v0 xt hx X2 k.val) := by
  rw [pb3.eq_2]; unfold pb3Step; exact dif_pos k.isLt

/-- Trip k's pieces in front of those before it, in the scratch tile. -/
@[irreducible] def pb4Step (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : ℕ) (prev : List (View.Piece (Elt F) S8x128 .f32)) : List (View.Piece (Elt F) S8x128 .f32) :=
  if h : k < k0_t1_loop.trips then (tripL4 (F := F) c i arg2 harg2 arg3 harg3 v0 xt hx X2 ⟨k, h⟩) ++ prev else prev

/-- The pieces the trips before k left in the scratch tile (last first). -/
def pb4 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) : ℕ → List (View.Piece (Elt F) S8x128 .f32)
  | 0 => []
  | k + 1 => pb4Step c i arg2 harg2 arg3 harg3 v0 xt hx X2 k (pb4 c i arg2 harg2 arg3 harg3 v0 xt hx X2 k)

theorem pb4_succ (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    pb4 (F := F) c i arg2 harg2 arg3 harg3 v0 xt hx X2 (k.val + 1) = (tripL4 (F := F) c i arg2 harg2 arg3 harg3 v0 xt hx X2 k) ++ (pb4 (F := F) c i arg2 harg2 arg3 harg3 v0 xt hx X2 k.val) := by
  rw [pb4.eq_2]; unfold pb4Step; exact dif_pos k.isLt

/-! ### The invariant -/

/-- Before trip k: the table and the embedding block at their contents; the output block and the scratch tile holding
    the pieces of the trips before k written over their contents at loop entry. -/
abbrev gatherInv (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty)
    (G3 : BufTy.Contents (Elt F) arg3.view.ty) (G4 : Buf (Elt F) (scM.view.loc (c : Thread nD τ))) (k : ℕ) (_u : PUnit) : sProp 𝕄 :=
  iprop(tbPt c xt ∗ (arg2.view.loc (c : Thread nD τ) ↦[arg2.view.set]{fullShare} X2)
    ∗ (∃ f, (arg3.view.loc (c : Thread nD τ) ↦[arg3.view.set]{fullShare} f) ∗ ⌜f = arg3.view.writes (Elt F) G3 (pb3 (F := F) c i arg2 harg2 arg3 harg3 v0 xt hx X2 k)⌝)
    ∗ (∃ f, (scM.view.loc (c : Thread nD τ) ↦{fullShare} f) ∗ ⌜f = scM.view.writes (Elt F) G4 (pb4 (F := F) c i arg2 harg2 arg3 harg3 v0 xt hx X2 k)⌝))

set_option warn.classDefReducibility false in
/-- The loop by its invariant. -/
@[sl_loop] def gatherLoopInv (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty)
    (G3 : BufTy.Contents (Elt F) arg3.view.ty) (G4 : Buf (Elt F) (scM.view.loc (c : Thread nD τ))) :
    Gen.LoopInvTy_k0_t1 (F := F) Unit ℕ (UR sig nD τ) ℕ Variants.none c none Set.univ i tbM htbM arg2 harg2 arg3 harg3 scM hscM v0 where
  inv := gatherInv (F := F) c i arg2 harg2 arg3 harg3 v0 xt hx X2 G3 G4
  step k acc := by
    iintro ⟨HT, H2, ⟨%f3, H3, %h3⟩, ⟨%f4, H4, %h4⟩⟩
    iapply (wp_wand_r Idealize.ShloMosaic.frame (wpE (defs₀ (F := F)) Variants.none (c : Thread nD τ) none) Set.univ)
    isplitl [HT H2 H3 H4]
    · iapply ((trip (F := F) c i arg2 harg2 arg3 harg3 v0 xt hx X2 k).2.2 f3 f4)
      isplitl [HT]; · iexact HT
      isplitl [H2]; · iexact H2
      isplitl [H3]; · iexact H3
      iexact H4
    · iintro %_ ⟨HT, H2, H3, H4⟩
      isplitl [HT]; · iexact HT
      isplitl [H2]; · iexact H2
      isplitl [H3]
      · rw [pb3_succ]
        iexists _; isplitl [H3]; · iexact H3
        ipureintro; rw [h3, ← View.writes_append]
      · rw [pb4_succ]
        iexists _; isplitl [H4]; · iexact H4
        ipureintro; rw [h4, ← View.writes_append]

end Cert.Kernel.Hand

end
-- ==== Proof.KB.GatherBody.lean ====
/-
  The gather kernel's body on whole staging memrefs: from the embedding block at contents `x0`, the token table at
  contents `xt` whose every word names a row, the output block and the scratch tile at anything, it runs to the end
  leaving the inputs as they were and the output block written by a list of pieces (64 trips, each one store of eight rows).
-/
import proofs.«403318_j74122545594780_3_alg».proof.Proof.KB.GatherLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body's stores leave in the output block, as pieces (last first), with the proof that the body runs. -/
noncomputable def gatherRun (c : Dev nD) (i : grid0.Coords) (arg2 : Memref sig .tc .vmem S32000x128 .f32) (harg2 : arg2.IsWhole)
    (arg3 : Memref sig .tc .vmem S512x128 .f32) (harg3 : arg3.IsWhole)
    (x0 : Vec F S32000x128 .f32) (xt : TbBuf (F := F) c) (hx : TokOk c xt) :
    { L3 : List (View.Piece (Elt F) S512x128 .f32) //
      ∀ (K : PUnit → sProp 𝕄),
        iprop(owns (c : Thread nD τ) arg2 fullShare x0 ∗ (∃ d, owns (c : Thread nD τ) arg3 fullShare d) ∗ tbPt c xt ∗ scPt c
            ∗ (iprop(owns (c : Thread nD τ) arg2 fullShare x0 ∗ (∃ f, arg3.view.loc (c : Thread nD τ) ↦[arg3.view.set]{fullShare} arg3.view.writes (Elt F) f L3) ∗ tbPt c xt ∗ scPt c) -∗ K ⟨⟩))
          ⊢ wp frame (wpE (defs₀ (F := F)) Variants.none c none) Set.univ (cc0__gather_kernel i tbM htbM arg2 harg2 arg3 harg3 scM hscM) K } := by
  refine ⟨?_, fun K => ?run⟩
  case run =>
    simp only [cc0__gather_kernel_eq_skeleton]; unfold cc0__gather_kernel_skel
    unfold owns
    iintro ⟨⟨%f2, %hf2, H2⟩, ⟨%d3, %f3, -, H3⟩, HT, ⟨%f4, H4⟩, Hk⟩
    obtain rfl := harg2.eq_unread hf2
    sl_exec
    sl_step
    iapply Hk
    isplitl [H2]
    · iexists _; isplitr; · ipureintro; exact harg2.read_unread _
      iexact H2
    isplitl [H3]; · iexists _; iexact H3
    isplitl [HT]; · iexact HT
    iexists _; iexact H4

/-! ### The pieces cover the output block -/

/-- The loop runs 64 trips. -/
theorem gather_trips : k0_t1_loop.trips = 64 := by decide

/-- A trip leaves one piece in the output block: a store at the trip's rectangle (rows 8k..8k+7, every column). -/
theorem tripL3_rect (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    ∃ w, tripL3 (F := F) c i arg2 harg2 arg3 harg3 v0 xt hx X2 k
      = [⟨Rect.unit (s := S512x128) (k0_off33 k) S8x128.size (k0_off33_inb k), w⟩] := by
  unfold tripL3 trip
  exact ⟨_, rfl⟩

/-- The pieces of the trips before n cover the rows below 8n. -/
theorem pb3_cover (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) :
    ∀ n, n ≤ 64 → ∀ y : S512x128.Idx, (y 0).val < 8 * n → ∃ pc ∈ pb3 (F := F) c i arg2 harg2 arg3 harg3 v0 xt hx X2 n, y ∈ pc.1.set
  | 0, _, y, h => absurd h (by omega)
  | n + 1, hn, y, h => by
    have hk : n < k0_t1_loop.trips := by rw [gather_trips]; omega
    rw [show n + 1 = (⟨n, hk⟩ : Fin k0_t1_loop.trips).val + 1 from rfl, pb3_succ]
    by_cases hy : (y 0).val < 8 * n
    · obtain ⟨pc, hpc, hmem⟩ := pb3_cover c i arg2 harg2 arg3 harg3 v0 xt hx X2 n (by omega) y hy
      exact ⟨pc, List.mem_append_right _ hpc, hmem⟩
    · obtain ⟨w, hw⟩ := tripL3_rect (F := F) c i arg2 harg2 arg3 harg3 v0 xt hx X2 ⟨n, hk⟩
      rw [hw]
      refine ⟨_, List.mem_append_left _ (List.mem_singleton_self _), ?_⟩
      rw [Rect.mem_set_unit, k0_off33_eq]
      have h1 : (y 1).val < 128 := (y 1).isLt
      intro a; fin_cases a
      · show 8 * n ≤ (y 0).val ∧ (y 0).val < 8 * n + 8; omega
      · show 0 ≤ (y 1).val ∧ (y 1).val < 0 + 128; omega

/-- The pieces cover the output block. -/
theorem gather_cover (c : Dev nD) (i : grid0.Coords) (arg2 : Memref sig .tc .vmem S32000x128 .f32) (harg2 : arg2.IsWhole)
    (arg3 : Memref sig .tc .vmem S512x128 .f32) (harg3 : arg3.IsWhole)
    (x0 : Vec F S32000x128 .f32) (xt : TbBuf (F := F) c) (hx : TokOk c xt) (y : S512x128.Idx) :
    ∃ pc ∈ (gatherRun c i arg2 harg2 arg3 harg3 x0 xt hx).1, y ∈ pc.1.set := by
  have hy : (y 0).val < 512 := (y 0).isLt
  have hrun : ∃ v0 X2, (gatherRun (F := F) c i arg2 harg2 arg3 harg3 x0 xt hx).1
      = pb3 (F := F) c i arg2 harg2 arg3 harg3 v0 xt hx X2 64 := ⟨_, _, rfl⟩
  obtain ⟨v0, X2, e⟩ := hrun
  rw [e]
  exact pb3_cover c i arg2 harg2 arg3 harg3 v0 xt hx X2 64 (Nat.le_refl _) y (by omega)

end Cert.Kernel.Hand

end
-- ==== Proof.KB.LogitsBody.lean ====
/-
  The logits kernel's body on whole staging memrefs: from the hidden block at contents `x0` and the class-weight block at
  contents `x1`, the output block at anything, it runs to the end leaving the inputs as they were and the output block at
  `logitsOut x0 x1`: its one store, of the matrix product of the two blocks into a zero accumulator.
-/
import proofs.«403318_j74122545594780_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The hidden block's one whole-block rectangle, the class-weight block's, and the output block's. -/
abbrev rHid : Rect S512x128 := Rect.unit (s := S512x128) ![0, 0] S512x128.size inb_S512x128_S512x128_0_0
abbrev rCls : Rect S3200x128 := Rect.unit (s := S3200x128) ![0, 0] S3200x128.size inb_S3200x128_S3200x128_0_0
abbrev rOut : Rect S512x3200 := Rect.unit (s := S512x3200) ![0, 0] S512x3200.size inb_S512x3200_S512x3200_0_0

/-- The output block after the body: its one store, of the payload of the two whole-block loads. -/
def logitsOut (x0 : Vec F S512x128 .f32) (x1 : Vec F S3200x128 .bf16) : Vec F S512x3200 .f32 :=
  View.canon [⟨rOut, k1_pay1 (View.ld x0 rHid) (View.ld x1 rCls)⟩]

/-- The one store tiles the output block, so it covers it. -/
theorem logits_cover (p0 : Vec F S512x3200 .f32) (y : S512x3200.Idx) :
    ∃ pc ∈ ([⟨rOut, p0⟩] : List (View.Piece (Elt F) S512x3200 .f32)), y ∈ pc.1.set :=
  View.cover_of_tiled [⟨rOut, p0⟩] S512x3200.size (by rfl) y

set_option maxHeartbeats 1000000 in
theorem logits_sound (c : Dev nD) (E : Set ℕ) (i : grid1.Coords) (arg2 : Memref sig .tc .vmem S512x128 .f32) (harg2 : arg2.IsWhole)
    (arg3 : Memref sig .tc .vmem S3200x128 .bf16) (harg3 : arg3.IsWhole) (arg4 : Memref sig .tc .vmem S512x3200 .f32) (harg4 : arg4.IsWhole)
    (x0 : Vec F S512x128 .f32) (x1 : Vec F S3200x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (logitsOut x0 x1)) -∗ K ⟨⟩))
      ⊢ wp frame (wpE (defs₀ (F := F)) Variants.none c none) E (cc1__logits_kernel i arg2 harg2 arg3 harg3 arg4 harg4) K := by
  simp only [cc1__logits_kernel_eq_skeleton]; unfold cc1__logits_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (logits_cover _)

end Cert.Kernel.Hand

end
-- ==== Proof.KB.Regions.lean ====
/-
  The two pallas_calls as regions of the host program: what each region's pipeline holds point by point (the proof data),
  that its kernel body meets the pipeline's obligation at every grid point, and the region's protocol around the state
  "every unscoped buffer whole at known contents".

  Region 0 (the gather): window 0 is the whole transposed embedding table, fetched once; window 1 is the block of 512 hidden
  rows the point writes; the token table is prefetched into scalar memory and held whole by the region's invariant beside the
  scratch tile. Region 1 (the logits): windows 0 and 1 are the hidden block and the class-weight block, window 2 the
  512 × 3200 block of logits the point writes.
-/
import proofs.«403318_j74122545594780_3_alg».proof.Proof.KB.GatherBody
import proofs.«403318_j74122545594780_3_alg».proof.Proof.KB.LogitsBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0: the gather -/

/-- The token table's contents when the region is entered (one device). -/
def tblOf : pre0.Contents (Elt F) := fun j => V (0 : Dev nD) (pre0.ref j)
theorem V_pre (c : Dev nD) (j : Fin 1) : V c (pre0.ref j) = tblOf V j := by
  obtain rfl : c = 0 := Subsingleton.elim _ _; rfl
/-- The table's contents are admissible whatever they are (no window's index map reads the table). -/
abbrev adm0 : (pcfg0 (F := F)).Adm := ⟨tblOf V, trivial⟩
abbrev cfgM : Pipeline.Cfg sig Λ₀ := cfg0 (adm0 V)

/-- Window `w`'s block at point `t`, read off its array as the region finds it. -/
def iblk0 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

/-- The embedding window's staging buffer holds the whole table at every point, fetched there or not. -/
theorem before0_0_of {c : Dev nD} (dat : Dat τ (Elt F) Unit ℕ (UR sig nD τ) ℕ (cfgM V) c) (hA : dat.A 0 = V c (Pipeline.arrRef spec0 0))
    (hafter : ∀ t, dat.after 0 t = iblk0 V c 0 t) (t : Fin (cfgM V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body. -/
abbrev ms0_0 (t : Fin (cfgM V).N) : Memref sig .tc .vmem S32000x128 .f32 := spec0_0.stage ((cfgM V).slots t 0)
abbrev hs0_0 (t : Fin (cfgM V).N) : (ms0_0 V t).IsWhole := hstage0_0 (((cfgM V).slots t 0).cast nbuf0_0)
abbrev ms0_1 (t : Fin (cfgM V).N) : Memref sig .tc .vmem S512x128 .f32 := spec0_1.stage ((cfgM V).slots t 1)
abbrev hs0_1 (t : Fin (cfgM V).N) : (ms0_1 V t).IsWhole := hstage0_1 (((cfgM V).slots t 1).cast nbuf0_1)
/-- The body as the pipeline calls it at point `t`. -/
abbrev bodyAt0 (t : Fin (cfgM V).N) : Prog (TpuEff nD τ sig (Elt F) Λ₀ .tc) PUnit :=
  cc0__gather_kernel (grid0.coords t) tbM htbM (ms0_0 V t) (hs0_0 V t) (ms0_1 V t) (hs0_1 V t) scM hscM

/-- Every word of the table as the region finds it names a row. -/
abbrev TblOk : Prop := ∀ c : Dev nD, TokOk (F := F) c (tblOf V 0)

/-- What the body leaves in the hidden block's staging buffer at point `t`: the run's pieces, the later over the earlier. -/
def out0 (hx : TblOk V) (c : Dev nD) (t : Fin (cfgM V).N) : Vec F S512x128 .f32 :=
  View.canon (gatherRun c (grid0.coords t) (ms0_0 V t) (hs0_0 V t) (ms0_1 V t) (hs0_1 V t) (iblk0 V c 0 t) (tblOf V 0) (hx c)).1

/-- The gather pipeline's proof data on core `c`. The invariant: the scoped buffers no window stages (the scratch tile
    among them), the generator register, and the token table held whole. -/
def dat0 (hx : TblOk V) (c : Dev nD) : Dat τ (Elt F) Unit ℕ (UR sig nD τ) ℕ (cfgM V) c where
  A w := V c (Pipeline.arrRef spec0 w)
  after w t := match w with
    | ⟨0, _⟩ => iblk0 V c 0 t
    | ⟨1, _⟩ => out0 V hx c t
  Φ _ := iprop(Pipeline.ΦA spec0 c ∗ Pipeline.prefHeld (Ix := Unit) (Name := ℕ) (U := UR sig nD τ) (Lvl := ℕ) pre0 c (fun _ => fullShare) (tblOf V))
  q _ := fullShare
  owed _ := 0

theorem A_eq0 (hx : TblOk V) (c : Dev nD) (w : Fin (cfgM V).W) : (dat0 V hx c).A w = V c (Pipeline.arrRef spec0 w) := by
  dsimp only [dat0]
theorem after0_0 (hx : TblOk V) (c : Dev nD) (t : Fin (cfgM V).N) : (dat0 V hx c).after 0 t = iblk0 V c 0 t := by dsimp only [dat0]; try rfl
theorem after0_1 (hx : TblOk V) (c : Dev nD) (t : Fin (cfgM V).N) : (dat0 V hx c).after 1 t = out0 V hx c t := by dsimp only [dat0]; try rfl
theorem before0_0 (hx : TblOk V) (c : Dev nD) (t : Fin (cfgM V).N) (d) : (dat0 V hx c).before 0 t d = iblk0 V c 0 t :=
  before0_0_of V (dat0 V hx c) (A_eq0 V hx c 0) (after0_0 V hx c) t d

/-- The table held whole, as the body takes it. -/
theorem prefHeld0_eq (c : Dev nD) :
    (Pipeline.prefHeld (Ix := Unit) (Name := ℕ) (U := UR sig nD τ) (Lvl := ℕ) pre0 c (fun _ => fullShare) (tblOf V) : sProp 𝕄) = tbPt c (tblOf V 0) := by
  unfold Pipeline.prefHeld
  rw [show (Finset.univ : Finset (Fin 1)) = {(0 : Fin 1)} from by decide, bigSep_singleton]
  rfl

def bodyPre0 (hx : TblOk V) (c : Dev nD) (t : Fin (cfgM V).N) : sProp 𝕄 :=
  iprop((dat0 V hx c).Φ t.castSucc ∗ (dat0 V hx c).owesAt () t.castSucc
    ∗ (∃ d, owns (c : Thread nD τ) (ms0_0 V t) fullShare ((dat0 V hx c).before 0 t d))
    ∗ (∃ d, owns (c : Thread nD τ) (ms0_1 V t) fullShare ((dat0 V hx c).before 1 t d)))
def bodyPost0 (hx : TblOk V) (c : Dev nD) (t : Fin (cfgM V).N) : sProp 𝕄 :=
  iprop((dat0 V hx c).Φ t.succ ∗ (dat0 V hx c).owesAt () t.succ
    ∗ owns (c : Thread nD τ) (ms0_0 V t) fullShare ((dat0 V hx c).after 0 t)
    ∗ owns (c : Thread nD τ) (ms0_1 V t) fullShare ((dat0 V hx c).after 1 t))

/-- The body at any point: the embedding window holds the whole table, the token table and the scratch tile come out of
    the invariant and go back into it, the hidden block ends at the run's pieces. -/
theorem sound_body0 (hx : TblOk V) (c : Dev nD) (t : Fin (cfgM V).N) :
    bodyPre0 V hx c t ⊢ wp frame (wpE (defs₀ (F := F)) Variants.none c none) Set.univ (bodyAt0 V t) (fun _ => bodyPost0 V hx c t) := by
  unfold bodyPre0 bodyPost0 bodyAt0
  simp only [before0_0]
  rw [show (dat0 V hx c).Φ t.succ = (dat0 V hx c).Φ t.castSucc from rfl,
    show (dat0 V hx c).owesAt () t.succ = (dat0 V hx c).owesAt () t.castSucc from rfl,
    after0_0, after0_1]
  rw [show (dat0 V hx c).Φ t.castSucc = iprop(Pipeline.ΦA spec0 c ∗ Pipeline.prefHeld (Ix := Unit) (Name := ℕ) (U := UR sig nD τ) (Lvl := ℕ) pre0 c (fun _ => fullShare) (tblOf V)) from rfl,
    prefHeld0_eq]
  unfold Pipeline.ΦA
  rw [scopedRest0_eq]
  unfold out0
  iintro ⟨⟨⟨⟨Hsc, Hrest⟩, Hpr⟩, HT⟩, Ho, ⟨%d0, H0⟩, ⟨%d1, H1⟩⟩
  iapply ((gatherRun c (grid0.coords t) (ms0_0 V t) (hs0_0 V t) (ms0_1 V t) (hs0_1 V t) (iblk0 V c 0 t) (tblOf V 0) (hx c)).2 _)
  isplitl [H0]; · iexact H0
  isplitl [H1]; · iexists _; iexact H1
  isplitl [HT]; · iexact HT
  isplitl [Hsc]; · iexact Hsc
  iintro ⟨H0, ⟨%e1, H1⟩, HT, Hsc⟩
  isplitl [Hsc Hrest Hpr HT]
  · isplitr [HT]
    · isplitr [Hpr]
      · isplitl [Hsc]; · iexact Hsc
        iexact Hrest
      · iexact Hpr
    · iexact HT
  isplitl [Ho]; · iexact Ho
  isplitl [H0]; · iexact H0
  unfold owns; iexists _; isplitr
  swap; · iexact H1
  ipureintro; exact View.read_writes_eq_canon _ _ _ (gather_cover c _ _ _ _ _ _ _ _)

theorem body_obligation0 (hx : TblOk V) (c : Dev nD) : BodyObligation (dat0 (F := F) V hx c) (defs₀ (F := F)) Variants.none () Set.univ := fun t => by
  rw [bigSep_W0, bigSep_W0]
  exact sound_body0 V hx c t

/-! # Region 1: the logits -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The class-weight window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The logits pipeline's proof data on core `c`: after the body each input's buffer at its block, the output's at the
    product of the two blocks; the invariant the scoped buffers no window stages and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => logitsOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = logitsOut (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input memrefs hold their blocks, the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (logits_sound c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KB.Run.lean ====
/-
  The host program's run, from the launch to the return: three host operations (the token array flattened, the embedding
  table transposed, the class weights converted), then the gather region, then the logits region. The buffers' contents at
  each boundary are a fold from the launch memory: after the host operations; after the gather, with its arrays at what
  its pipeline leaves; after the logits likewise. Every weakly fair execution terminates and every final memory holds each
  unscoped buffer at the last boundary's contents.
-/
import proofs.«403318_j74122545594780_3_alg».proof.Proof.KB.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the three host operations (the gather's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

variable (hx : TblOk (V1 m ρ))

/-- At the gather's exit: its arrays at what the pipeline leaves, every other buffer as entered. -/
def W2 (c : Dev nD) : Valuation τ sig (Elt F) :=
  Pipeline.withArrays spec0 c (W1 m ρ c) fun w => (dat0 (V1 m ρ) hx c).arrAt w (cfgM (V1 m ρ)).N
theorem W2_arr (c : Dev nD) (w : Fin (cfgM (V1 m ρ)).W) :
    W2 m ρ hx c (Proc.devRef .tc (Pipeline.arrRef spec0 w)) = (dat0 (V1 m ρ) hx c).arrAt w (cfgM (V1 m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ hx c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hx c b
theorem hF0 (c : Dev nD) (w : Fin (cfgM (V1 m ρ)).W) : (dat0 (V1 m ρ) hx c).arrAt w (cfgM (V1 m ρ)).N = V2 m ρ hx c (Pipeline.arrRef spec0 w) :=
  (W2_arr m ρ hx c w).symm
theorem hrest0 (c : Dev nD) : ∀ b, b ∉ Finset.univ.image (Pipeline.arrRef spec0) → V2 m ρ hx c b = V1 m ρ c b :=
  fun b hb => W2_of_ne m ρ hx c b fun w e => hb (Finset.mem_image.mpr ⟨w, Finset.mem_univ _, e⟩)

/-- At the logits' exit. -/
def W3 (c : Dev nD) : Valuation τ sig (Elt F) :=
  Pipeline.withArrays spec1 c (W2 m ρ hx c) fun w => (dat1 (V2 m ρ hx) c).arrAt w cfg1.N
theorem W3_arr (c : Dev nD) (w : Fin cfg1.W) :
    W3 m ρ hx c (Proc.devRef .tc (Pipeline.arrRef spec1 w)) = (dat1 (V2 m ρ hx) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m ρ hx c (Proc.devRef .tc b) = W2 m ρ hx c (Proc.devRef .tc b) := by
  unfold W3; exact Pipeline.withArrays_of_ne spec1 c _ _ b hb
abbrev V3 : (c : Dev nD) → (b : Ref sig .tc) → Buf (Elt F) ((c : Thread nD τ).loc b) := fun c b => W3 m ρ hx c b
theorem hF1 (c : Dev nD) (w : Fin cfg1.W) : (dat1 (V2 m ρ hx) c).arrAt w cfg1.N = V3 m ρ hx c (Pipeline.arrRef spec1 w) :=
  (W3_arr m ρ hx c w).symm
theorem hrest1 (c : Dev nD) : ∀ b, b ∉ Finset.univ.image (Pipeline.arrRef spec1) → V3 m ρ hx c b = V2 m ρ hx c b :=
  fun b hb => W3_of_ne m ρ hx c b fun w e => hb (Finset.mem_image.mpr ⟨w, Finset.mem_univ _, e⟩)

/-! ## The proof data family and the thread state -/

/-- The token table's admissible contents for the gather; the logits pipeline has no table. -/
abbrev adm : (p : Fin 2) → (pcfgs (F := F) p).Adm := fun
  | ⟨0, _⟩ => adm0 (V1 m ρ)
  | ⟨1, _⟩ => cfg1.toPCfg_adm
/-- Each pipeline's proof data at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) hx c
  | ⟨1, _⟩ => fun c => dat1 (V2 m ρ hx) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ hx c) ∗ ∃ r, prngReg c r)

/-- The table's contents under the entry valuation, word for word. -/
theorem tbl_fun (c : Dev nD) : (fun k => V1 m ρ c ((pcfgs (F := F) 0).pre.ref k)) = tblOf (V1 m ρ) := funext fun k => V_pre (V1 m ρ) c k

/-! ## The regions as segments -/

set_option backward.isDefEq.respectTransparency.types false in
/-- The gather region: entered from every unscoped buffer at `W1`, left at `W2`. Its arrays and the token table are split
    out of the unscoped buffers at entry; the table rides in the invariant and comes back at the end. -/
def reg0 : Pipeline.RegionSeg (pcfgs (F := F)) (adm m ρ) (pdats m ρ hx) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) hx c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hx c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tblOf (V1 m ρ)))
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m ρ) (pdats m ρ hx) (launch0 (F := F)).win (launch0 (F := F)).arr_whole c
      ((pdats m ρ hx 0 c).share_full fun _ => rfl) (V1 m ρ c) fun _ => rfl
    rw [Pipeline.unscopedBufs_held, Pipeline.unscopedRest_split (launch0 (F := F)).pre c (V1 m ρ c), tbl_fun] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hx 0 c).Φ 0 = iprop(Pipeline.ΦA spec0 c ∗ Pipeline.prefHeld (Ix := Unit) (Name := ℕ) (U := UR sig nD τ) (Lvl := ℕ) pre0 c (fun _ => fullShare) (tblOf (V1 m ρ))) from rfl]
    unfold Pipeline.ΦA
    iintro ⟨Hp, Ht, Hr⟩
    isplitr [Ht]
    · isplitl [Hr]; · iexact Hr
      iexact Hp
    iexact Ht
  hout c := by
    rw [Pipeline.ownSems0_none, show (pdats m ρ hx 0 c).Φ (Fin.last _) = iprop(Pipeline.ΦA spec0 c ∗ Pipeline.prefHeld (Ix := Unit) (Name := ℕ) (U := UR sig nD τ) (Lvl := ℕ) pre0 c (fun _ => fullShare) (tblOf (V1 m ρ))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ hx) ((pdats m ρ hx 0 c).share_full fun _ => rfl)
      (V1 m ρ c) (V2 m ρ hx c) ((pdats m ρ hx 0 c).arrAt · (cfgM (V1 m ρ)).N) (hF0 m ρ hx c) (hrest0 m ρ hx c)
    rw [Pipeline.unscopedBufs_held, Pipeline.unscopedRest_split (launch0 (F := F)).pre c (V1 m ρ c), tbl_fun] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The logits region: entered from every unscoped buffer at `W2`, left at `W3`. -/
def reg1 : Pipeline.RegionSeg (pcfgs (F := F)) (adm m ρ) (pdats m ρ hx) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ hx) c).loose
  hwaits := Pipeline.hwaits_of_owed_zero _ _ _ _ L lv 1 fun _ _ => rfl
  pre c := iprop(StableHlo.held (c : Thread nD τ) (Pipeline.ucRefs τ sig) (W2 m ρ hx c) ∗ R c)
  post c := iprop(Tₙ m ρ hx c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ hx c)
  hentry c := by
    rw [Pipeline.ownSems0_none]
    have hsplit := Pipeline.arrays_of_unscopedBufs (p := 1) (pcfgs (F := F)) (adm m ρ) (pdats m ρ hx) (launch1 (F := F)).win (launch1 (F := F)).arr_whole c
      ((pdats m ρ hx 1 c).share_full fun _ => rfl) (V2 m ρ hx c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hx 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hx 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ hx) ((pdats m ρ hx 1 c).share_full fun _ => rfl)
      (V2 m ρ hx c) (V3 m ρ hx c) ((pdats m ρ hx 1 c).arrAt · cfg1.N) (hF1 m ρ hx c) (hrest1 m ρ hx c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The host program as segments, and the launch -/

abbrev segs : List (Pipeline.Seg (pcfgs (F := F)) (adm m ρ) (pdats m ρ hx) () defs₀ 𝒱₀ L lv) :=
  [ .host (hseg hostOps0 hostOps0_sub hostOps0_fresh' (W0 m ρ)),
    .region (reg0 m ρ hx),
    .region (reg1 m ρ hx) ]
theorem main_run (c : Dev nD) : main (F := F) c = Pipeline.Seg.run (segs m ρ hx) := (main_chain c).trans (by chain_rfl)

set_option backward.isDefEq.respectTransparency.types false in
/-- THE RUN: from any memory with zero counters whose token table names rows only, every weakly fair execution of the host
    program terminates, nothing faulting, and every final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ hx c b) :=
  Pipeline.θ_run_regions_kit (pcfgs (F := F)) (adm m ρ) (pdats m ρ hx) () (cellOf_inj (adm m ρ)) emb₁ defs₀ 𝒱₀ L lv m ρ main (segs m ρ hx)
    (fun c Q => by rw [main_run m ρ hx c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hx)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ hx c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ hx c) s')
      isplitl [Hh] <;> iassumption)
    (hQ := fun s h c => h c)

end Cert.Kernel.Hand

end
-- ==== Proof.KB.TableOk.lean ====
/-
  The token table at the gather's entry is the token array flattened row-major: position `p` holds token `p % 2` of example
  `p / 2`. So if every token word names a row of the embedding table, every word of the table does.
-/
import proofs.«403318_j74122545594780_3_alg».proof.Proof.KB.Run
import Idealize.ShloMosaic.Lib.StableHlo.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the first host operation leaves: the token array read row-major. -/
theorem V1_v0 (c : Dev nD) :
    (V1 m ρ c main_v0 : S8192.Idx → BitVec 32) = shapeCast S8192 (m ((c : Thread nD τ).loc main_arg0)) shapeCasts_S4096x2_S8192 := by
  show StableHlo.after hostOps0 _ (Proc.devRef .tc main_v0) = _
  after_results
  rfl

/-- Position `p` of the flattened table is token `p % 2` of example `p / 2`. -/
theorem V1_v0_apply (c : Dev nD) (p : S8192.Idx) :
    (V1 m ρ c main_v0 : S8192.Idx → BitVec 32) p
      = m ((c : Thread nD τ).loc main_arg0) (ix2 (⟨(p 0).val / 2, by have h : (p 0).val < 8192 := (p 0).isLt; omega⟩ : Fin 4096) (⟨(p 0).val % 2, Nat.mod_lt _ (by decide)⟩ : Fin 2)) := by
  rw [V1_v0]
  refine shapeCast_apply _ _ _ _ ?_
  show ((⟨2, ![4096, 2]⟩ : Shape).rowMajor (ix2 (⟨(p 0).val / 2, _⟩ : Fin 4096) (⟨(p 0).val % 2, _⟩ : Fin 2))).val = ((⟨1, ![8192]⟩ : Shape).rowMajor p).val
  rw [Shape.rowMajor_val_two, Shape.rowMajor_val_one]
  show (p 0).val / 2 * 2 + (p 0).val % 2 = (p 0).val
  omega

/-- Every word of the table names a row when every token word does. -/
theorem tbl_ok (hm : ∀ (c : Dev nD) j, (m ((c.tc : Thread nD τ).loc main_arg0) j).toNat < 32000) : TblOk (V1 m ρ) := by
  intro c j
  show ((V1 m ρ (0 : Dev nD) main_v0 : S8192.Idx → BitVec 32) j).toNat < 32000
  rw [V1_v0_apply]
  exact hm 0 _

end Cert.Kernel.Hand

end
-- ==== Proof.KB.Frame.lean ====
/-
  The frame: from any memory whose token words all name rows of the embedding table, the host program runs to the end,
  nothing faulting, and its three argument arrays end as launched.
-/
import proofs.«403318_j74122545594780_3_alg».proof.Proof.KB.TableOk

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hx : TblOk (V1 m ρ))

/-- `main_arg0` ends as launched: no host operation writes it and it is no array of either region. -/
theorem W3_main_arg0 (c : Dev nD) : W3 m ρ hx c (Proc.devRef .tc main_arg0) = m ((c : Thread nD τ).loc main_arg0) :=
  calc W3 m ρ hx c (Proc.devRef .tc main_arg0)
    _ = W2 m ρ hx c (Proc.devRef .tc main_arg0) := W3_of_ne m ρ hx c main_arg0 (by decide)
    _ = W1 m ρ c (Proc.devRef .tc main_arg0) := W2_of_ne m ρ hx c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and it is no array of either region. -/
theorem W3_main_arg1 (c : Dev nD) : W3 m ρ hx c (Proc.devRef .tc main_arg1) = m ((c : Thread nD τ).loc main_arg1) :=
  calc W3 m ρ hx c (Proc.devRef .tc main_arg1)
    _ = W2 m ρ hx c (Proc.devRef .tc main_arg1) := W3_of_ne m ρ hx c main_arg1 (by decide)
    _ = W1 m ρ c (Proc.devRef .tc main_arg1) := W2_of_ne m ρ hx c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and it is no array of either region. -/
theorem W3_main_arg2 (c : Dev nD) : W3 m ρ hx c (Proc.devRef .tc main_arg2) = m ((c : Thread nD τ).loc main_arg2) :=
  calc W3 m ρ hx c (Proc.devRef .tc main_arg2)
    _ = W2 m ρ hx c (Proc.devRef .tc main_arg2) := W3_of_ne m ρ hx c main_arg2 (by decide)
    _ = W1 m ρ c (Proc.devRef .tc main_arg2) := W2_of_ne m ρ hx c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The frame claim's post from the run's. -/
theorem frame (hm : ∀ (c : Dev nD) j, (m ((c.tc : Thread nD τ).loc main_arg0) j).toNat < 32000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c _ (mem_uc main_arg0 (by decide))).trans (W3_main_arg0 m ρ (tbl_ok m ρ hm) c),
       (h c _ (mem_uc main_arg1 (by decide))).trans (W3_main_arg1 m ρ (tbl_ok m ρ hm) c),
       (h c _ (mem_uc main_arg2 (by decide))).trans (W3_main_arg2 m ρ (tbl_ok m ρ hm) c)⟩)
    (run_main m ρ (tbl_ok m ρ hm))

end Cert.Kernel.Hand

end
-- ==== Proof.KI.Base.lean ====
/-
  The gather kernel's two operands that no window stages: the token table (a whole scalar-memory buffer the body reads
  word by word) and the 8 × 128 scratch tile (a whole vector-memory buffer the body fills row by row and reads back whole),
  as the pipeline hands them to the body; and the one fact the body needs of the table: every word names a row of the
  32000-row embedding table.
-/
import proofs.«403318_j74122545594780_3_alg».proof.Proof.Gen.KernelIdeal.Launch
import proofs.«403318_j74122545594780_3_alg».proof.Proof.Gen.KernelIdeal.Skeleton
import proofs.«403318_j74122545594780_3_alg».proof.Proof.Gen.KernelIdeal.Loops
import proofs.«403318_j74122545594780_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The token table as the body is handed it: the whole buffer of the flattened token array. -/
abbrev tbM : Memref sig .tc .smem S8192 .i32 := Memref.whole main_v0
abbrev htbM : tbM.IsWhole := Memref.isWhole_whole _
/-- The scratch tile as the body is handed it. -/
abbrev scM : Memref sig .tc .vmem S8x128 .f32 := Memref.whole cc0_scratch0
abbrev hscM : scM.IsWhole := Memref.isWhole_whole _

/-- The table's contents on core `c`, and the table held whole at contents `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f
/-- The scratch tile held whole at some contents. -/
abbrev scPt (c : Dev nD) : sProp 𝕄 := iprop(∃ f : Buf (Elt F) (scM.view.loc (c : Thread nD τ)), scM.view.loc (c : Thread nD τ) ↦{fullShare} f)

/-- Every word of the table names a row of the embedding table. -/
def TokOk (c : Dev nD) (xt : TbBuf (F := F) c) : Prop := ∀ j, (xt j).toNat < 32000

end Cert.KernelIdeal.Hand

end
-- ==== Proof.KI.GatherTrip.lean ====
/-
  One trip of the gather kernel's loop: the side conditions of the sixteen table words it reads follow from every
  word naming a row; the trip's resources; and the trip run at a symbolic trip number, leaving the scratch tile and
  the output block written by lists of pieces.
-/
import proofs.«403318_j74122545594780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### A word below 32000 names a row: the side condition of each of the sixteen words a trip reads -/

theorem chk1_of_lt (v : BitVec 32) (h : v.toNat < 32000) : k0_chk1 v := by
  intro a; fin_cases a
  · show v.toNat + 1 ≤ 32000; omega
  · show 0 + 128 ≤ 128; omega
theorem chk2_of_lt (v : BitVec 32) (h : v.toNat < 32000) : k0_chk2 v := by
  intro a; fin_cases a
  · show v.toNat + 1 ≤ 32000; omega
  · show 0 + 128 ≤ 128; omega
theorem chk3_of_lt (v : BitVec 32) (h : v.toNat < 32000) : k0_chk3 v := by
  intro a; fin_cases a
  · show v.toNat + 1 ≤ 32000; omega
  · show 0 + 128 ≤ 128; omega
theorem chk4_of_lt (v : BitVec 32) (h : v.toNat < 32000) : k0_chk4 v := by
  intro a; fin_cases a
  · show v.toNat + 1 ≤ 32000; omega
  · show 0 + 128 ≤ 128; omega
theorem chk5_of_lt (v : BitVec 32) (h : v.toNat < 32000) : k0_chk5 v := by
  intro a; fin_cases a
  · show v.toNat + 1 ≤ 32000; omega
  · show 0 + 128 ≤ 128; omega
theorem chk6_of_lt (v : BitVec 32) (h : v.toNat < 32000) : k0_chk6 v := by
  intro a; fin_cases a
  · show v.toNat + 1 ≤ 32000; omega
  · show 0 + 128 ≤ 128; omega
theorem chk7_of_lt (v : BitVec 32) (h : v.toNat < 32000) : k0_chk7 v := by
  intro a; fin_cases a
  · show v.toNat + 1 ≤ 32000; omega
  · show 0 + 128 ≤ 128; omega
theorem chk8_of_lt (v : BitVec 32) (h : v.toNat < 32000) : k0_chk8 v := by
  intro a; fin_cases a
  · show v.toNat + 1 ≤ 32000; omega
  · show 0 + 128 ≤ 128; omega
theorem chk9_of_lt (v : BitVec 32) (h : v.toNat < 32000) : k0_chk9 v := by
  intro a; fin_cases a
  · show v.toNat + 1 ≤ 32000; omega
  · show 0 + 128 ≤ 128; omega
theorem chk10_of_lt (v : BitVec 32) (h : v.toNat < 32000) : k0_chk10 v := by
  intro a; fin_cases a
  · show v.toNat + 1 ≤ 32000; omega
  · show 0 + 128 ≤ 128; omega
theorem chk11_of_lt (v : BitVec 32) (h : v.toNat < 32000) : k0_chk11 v := by
  intro a; fin_cases a
  · show v.toNat + 1 ≤ 32000; omega
  · show 0 + 128 ≤ 128; omega
theorem chk12_of_lt (v : BitVec 32) (h : v.toNat < 32000) : k0_chk12 v := by
  intro a; fin_cases a
  · show v.toNat + 1 ≤ 32000; omega
  · show 0 + 128 ≤ 128; omega
theorem chk13_of_lt (v : BitVec 32) (h : v.toNat < 32000) : k0_chk13 v := by
  intro a; fin_cases a
  · show v.toNat + 1 ≤ 32000; omega
  · show 0 + 128 ≤ 128; omega
theorem chk14_of_lt (v : BitVec 32) (h : v.toNat < 32000) : k0_chk14 v := by
  intro a; fin_cases a
  · show v.toNat + 1 ≤ 32000; omega
  · show 0 + 128 ≤ 128; omega
theorem chk15_of_lt (v : BitVec 32) (h : v.toNat < 32000) : k0_chk15 v := by
  intro a; fin_cases a
  · show v.toNat + 1 ≤ 32000; omega
  · show 0 + 128 ≤ 128; omega
theorem chk16_of_lt (v : BitVec 32) (h : v.toNat < 32000) : k0_chk16 v := by
  intro a; fin_cases a
  · show v.toNat + 1 ≤ 32000; omega
  · show 0 + 128 ≤ 128; omega

/-- Every word a load reads off the table names a row. -/
theorem tok_word (c : Dev nD) (xt : TbBuf (F := F) c) (hx : TokOk c xt) (R : LoadRect S8192) (x : R.shape.Idx) :
    BitVec.toNat (tbM.view.readAt (Elt F) R xt x) < 32000 :=
  hx _

/-! ### One trip -/

/-- One trip's resources: the table and the embedding block at their contents, the output block and the scratch tile at any. -/
abbrev Trip (c : Dev nD) (arg2 : Memref sig .tc .vmem S32000x128 .f32) (arg3 : Memref sig .tc .vmem S512x128 .f32)
    (xt : TbBuf (F := F) c) (X2 : BufTy.Contents (Elt F) arg2.view.ty)
    (f3 : BufTy.Contents (Elt F) arg3.view.ty) (f4 : Buf (Elt F) (scM.view.loc (c : Thread nD τ))) : sProp 𝕄 :=
  iprop(tbPt c xt ∗ (arg2.view.loc (c : Thread nD τ) ↦[arg2.view.set]{fullShare} X2)
    ∗ (arg3.view.loc (c : Thread nD τ) ↦[arg3.view.set]{fullShare} f3) ∗ (scM.view.loc (c : Thread nD τ) ↦{fullShare} f4))

set_option maxHeartbeats 4000000 in
/-- One trip at a symbolic trip number: the pieces it leaves in the scratch tile and in the output block. -/
@[irreducible] def trip (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    Σ' (L4 : List (View.Piece (Elt F) S8x128 .f32)), { L3 : List (View.Piece (Elt F) S512x128 .f32) //
      ∀ (f3 : BufTy.Contents (Elt F) arg3.view.ty) (f4 : Buf (Elt F) (scM.view.loc (c : Thread nD τ))),
      Trip (F := F) c arg2 arg3 xt X2 f3 f4
      ⊢ wp frame (wpE (defs₀ (F := F)) Variants.none (c : Thread nD τ) none) Set.univ
          (k0_t1_body (F := F) i tbM htbM arg2 harg2 arg3 harg3 scM hscM v0 k PUnit.unit)
          (fun _ => Trip (F := F) c arg2 arg3 xt X2 (arg3.view.writes (Elt F) f3 L3) (scM.view.writes (Elt F) f4 L4)) } := by
  refine ⟨?_, ?_, fun f3 f4 => ?run⟩
  case run =>
    unfold k0_t1_body
    simp only [k0_part1_eq_skeleton, k0_part2_eq_skeleton, k0_part3_eq_skeleton, k0_part4_eq_skeleton]
    iintro ⟨HT, H2, H3, H4⟩
    sl_exec (disch := first | exact chk1_of_lt _ (tok_word c xt hx _ _) | exact chk2_of_lt _ (tok_word c xt hx _ _) | exact chk3_of_lt _ (tok_word c xt hx _ _) | exact chk4_of_lt _ (tok_word c xt hx _ _) | exact chk5_of_lt _ (tok_word c xt hx _ _) | exact chk6_of_lt _ (tok_word c xt hx _ _) | exact chk7_of_lt _ (tok_word c xt hx _ _) | exact chk8_of_lt _ (tok_word c xt hx _ _) | exact chk9_of_lt _ (tok_word c xt hx _ _) | exact chk10_of_lt _ (tok_word c xt hx _ _) | exact chk11_of_lt _ (tok_word c xt hx _ _) | exact chk12_of_lt _ (tok_word c xt hx _ _) | exact chk13_of_lt _ (tok_word c xt hx _ _) | exact chk14_of_lt _ (tok_word c xt hx _ _) | exact chk15_of_lt _ (tok_word c xt hx _ _) | exact chk16_of_lt _ (tok_word c xt hx _ _))
    sl_step
    sl_close

/-- The trip's piece lists (plain projections). -/
abbrev tripL4 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    List (View.Piece (Elt F) S8x128 .f32) :=
  (trip (F := F) c i arg2 harg2 arg3 harg3 v0 xt hx X2 k).1

abbrev tripL3 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    List (View.Piece (Elt F) S512x128 .f32) :=
  (trip (F := F) c i arg2 harg2 arg3 harg3 v0 xt hx X2 k).2.1

end Cert.KernelIdeal.Hand

end
-- ==== Proof.KI.GatherLoop.lean ====
/-
  The gather kernel's counted loop by its invariant: the pieces the trips before trip k have left in the scratch tile
  and in the output block (last first), by recursion over the trips; the invariant holding the table and the embedding
  block at their contents and the two written buffers at those pieces over their contents at loop entry; one trip takes
  the invariant to the next.
-/
import proofs.«403318_j74122545594780_3_alg».proof.Proof.KI.GatherTrip

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-! ### The pieces of the trips before trip k -/

/-- Trip k's pieces in front of those before it, in the output block; past the last trip, nothing more. -/
@[irreducible] def pb3Step (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : ℕ) (prev : List (View.Piece (Elt F) S512x128 .f32)) : List (View.Piece (Elt F) S512x128 .f32) :=
  if h : k < k0_t1_loop.trips then (tripL3 (F := F) c i arg2 harg2 arg3 harg3 v0 xt hx X2 ⟨k, h⟩) ++ prev else prev

/-- The pieces the trips before k left in the output block (last first). -/
def pb3 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) : ℕ → List (View.Piece (Elt F) S512x128 .f32)
  | 0 => []
  | k + 1 => pb3Step c i arg2 harg2 arg3 harg3 v0 xt hx X2 k (pb3 c i arg2 harg2 arg3 harg3 v0 xt hx X2 k)

theorem pb3_succ (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    pb3 (F := F) c i arg2 harg2 arg3 harg3 v0 xt hx X2 (k.val + 1) = (tripL3 (F := F) c i arg2 harg2 arg3 harg3 v0 xt hx X2 k) ++ (pb3 (F := F) c i arg2 harg2 arg3 harg3 v0 xt hx X2 k.val) := by
  rw [pb3.eq_2]; unfold pb3Step; exact dif_pos k.isLt

/-- Trip k's pieces in front of those before it, in the scratch tile. -/
@[irreducible] def pb4Step (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : ℕ) (prev : List (View.Piece (Elt F) S8x128 .f32)) : List (View.Piece (Elt F) S8x128 .f32) :=
  if h : k < k0_t1_loop.trips then (tripL4 (F := F) c i arg2 harg2 arg3 harg3 v0 xt hx X2 ⟨k, h⟩) ++ prev else prev

/-- The pieces the trips before k left in the scratch tile (last first). -/
def pb4 (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) : ℕ → List (View.Piece (Elt F) S8x128 .f32)
  | 0 => []
  | k + 1 => pb4Step c i arg2 harg2 arg3 harg3 v0 xt hx X2 k (pb4 c i arg2 harg2 arg3 harg3 v0 xt hx X2 k)

theorem pb4_succ (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    pb4 (F := F) c i arg2 harg2 arg3 harg3 v0 xt hx X2 (k.val + 1) = (tripL4 (F := F) c i arg2 harg2 arg3 harg3 v0 xt hx X2 k) ++ (pb4 (F := F) c i arg2 harg2 arg3 harg3 v0 xt hx X2 k.val) := by
  rw [pb4.eq_2]; unfold pb4Step; exact dif_pos k.isLt

/-! ### The invariant -/

/-- Before trip k: the table and the embedding block at their contents; the output block and the scratch tile holding
    the pieces of the trips before k written over their contents at loop entry. -/
abbrev gatherInv (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty)
    (G3 : BufTy.Contents (Elt F) arg3.view.ty) (G4 : Buf (Elt F) (scM.view.loc (c : Thread nD τ))) (k : ℕ) (_u : PUnit) : sProp 𝕄 :=
  iprop(tbPt c xt ∗ (arg2.view.loc (c : Thread nD τ) ↦[arg2.view.set]{fullShare} X2)
    ∗ (∃ f, (arg3.view.loc (c : Thread nD τ) ↦[arg3.view.set]{fullShare} f) ∗ ⌜f = arg3.view.writes (Elt F) G3 (pb3 (F := F) c i arg2 harg2 arg3 harg3 v0 xt hx X2 k)⌝)
    ∗ (∃ f, (scM.view.loc (c : Thread nD τ) ↦{fullShare} f) ∗ ⌜f = scM.view.writes (Elt F) G4 (pb4 (F := F) c i arg2 harg2 arg3 harg3 v0 xt hx X2 k)⌝))

set_option warn.classDefReducibility false in
/-- The loop by its invariant. -/
@[sl_loop] def gatherLoopInv (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty)
    (G3 : BufTy.Contents (Elt F) arg3.view.ty) (G4 : Buf (Elt F) (scM.view.loc (c : Thread nD τ))) :
    Gen.LoopInvTy_k0_t1 (F := F) Unit ℕ (UR sig nD τ) ℕ Variants.none c none Set.univ i tbM htbM arg2 harg2 arg3 harg3 scM hscM v0 where
  inv := gatherInv (F := F) c i arg2 harg2 arg3 harg3 v0 xt hx X2 G3 G4
  step k acc := by
    iintro ⟨HT, H2, ⟨%f3, H3, %h3⟩, ⟨%f4, H4, %h4⟩⟩
    iapply (wp_wand_r Idealize.ShloMosaic.frame (wpE (defs₀ (F := F)) Variants.none (c : Thread nD τ) none) Set.univ)
    isplitl [HT H2 H3 H4]
    · iapply ((trip (F := F) c i arg2 harg2 arg3 harg3 v0 xt hx X2 k).2.2 f3 f4)
      isplitl [HT]; · iexact HT
      isplitl [H2]; · iexact H2
      isplitl [H3]; · iexact H3
      iexact H4
    · iintro %_ ⟨HT, H2, H3, H4⟩
      isplitl [HT]; · iexact HT
      isplitl [H2]; · iexact H2
      isplitl [H3]
      · rw [pb3_succ]
        iexists _; isplitl [H3]; · iexact H3
        ipureintro; rw [h3, ← View.writes_append]
      · rw [pb4_succ]
        iexists _; isplitl [H4]; · iexact H4
        ipureintro; rw [h4, ← View.writes_append]

end Cert.KernelIdeal.Hand

end
-- ==== Proof.KI.GatherBody.lean ====
/-
  The gather kernel's body on whole staging memrefs: from the embedding block at contents `x0`, the token table at
  contents `xt` whose every word names a row, the output block and the scratch tile at anything, it runs to the end
  leaving the inputs as they were and the output block written by a list of pieces (64 trips, each one store of eight rows).
-/
import proofs.«403318_j74122545594780_3_alg».proof.Proof.KI.GatherLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body's stores leave in the output block, as pieces (last first), with the proof that the body runs. -/
noncomputable def gatherRun (c : Dev nD) (i : grid0.Coords) (arg2 : Memref sig .tc .vmem S32000x128 .f32) (harg2 : arg2.IsWhole)
    (arg3 : Memref sig .tc .vmem S512x128 .f32) (harg3 : arg3.IsWhole)
    (x0 : Vec F S32000x128 .f32) (xt : TbBuf (F := F) c) (hx : TokOk c xt) :
    { L3 : List (View.Piece (Elt F) S512x128 .f32) //
      ∀ (K : PUnit → sProp 𝕄),
        iprop(owns (c : Thread nD τ) arg2 fullShare x0 ∗ (∃ d, owns (c : Thread nD τ) arg3 fullShare d) ∗ tbPt c xt ∗ scPt c
            ∗ (iprop(owns (c : Thread nD τ) arg2 fullShare x0 ∗ (∃ f, arg3.view.loc (c : Thread nD τ) ↦[arg3.view.set]{fullShare} arg3.view.writes (Elt F) f L3) ∗ tbPt c xt ∗ scPt c) -∗ K ⟨⟩))
          ⊢ wp frame (wpE (defs₀ (F := F)) Variants.none c none) Set.univ (cc0__gather_kernel i tbM htbM arg2 harg2 arg3 harg3 scM hscM) K } := by
  refine ⟨?_, fun K => ?run⟩
  case run =>
    simp only [cc0__gather_kernel_eq_skeleton]; unfold cc0__gather_kernel_skel
    unfold owns
    iintro ⟨⟨%f2, %hf2, H2⟩, ⟨%d3, %f3, -, H3⟩, HT, ⟨%f4, H4⟩, Hk⟩
    obtain rfl := harg2.eq_unread hf2
    sl_exec
    sl_step
    iapply Hk
    isplitl [H2]
    · iexists _; isplitr; · ipureintro; exact harg2.read_unread _
      iexact H2
    isplitl [H3]; · iexists _; iexact H3
    isplitl [HT]; · iexact HT
    iexists _; iexact H4

/-! ### The pieces cover the output block -/

/-- The loop runs 64 trips. -/
theorem gather_trips : k0_t1_loop.trips = 64 := by decide

/-- A trip leaves one piece in the output block: a store at the trip's rectangle (rows 8k..8k+7, every column). -/
theorem tripL3_rect (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) (k : Fin k0_t1_loop.trips) :
    ∃ w, tripL3 (F := F) c i arg2 harg2 arg3 harg3 v0 xt hx X2 k
      = [⟨Rect.unit (s := S512x128) (k0_off33 k) S8x128.size (k0_off33_inb k), w⟩] := by
  unfold tripL3 trip
  exact ⟨_, rfl⟩

/-- The pieces of the trips before n cover the rows below 8n. -/
theorem pb3_cover (c : Dev nD) (i : grid0.Coords) (arg2 : Memref sig .tc .vmem S32000x128 .f32) (harg2 : arg2.IsWhole)
    (arg3 : Memref sig .tc .vmem S512x128 .f32) (harg3 : arg3.IsWhole) (v0 : BitVec 32)
    (xt : TbBuf (F := F) c) (hx : TokOk c xt) (X2 : BufTy.Contents (Elt F) arg2.view.ty) :
    ∀ n, n ≤ 64 → ∀ y : S512x128.Idx, (y 0).val < 8 * n → ∃ pc ∈ pb3 (F := F) c i arg2 harg2 arg3 harg3 v0 xt hx X2 n, y ∈ pc.1.set
  | 0, _, y, h => absurd h (by omega)
  | n + 1, hn, y, h => by
    have hk : n < k0_t1_loop.trips := by rw [gather_trips]; omega
    rw [show n + 1 = (⟨n, hk⟩ : Fin k0_t1_loop.trips).val + 1 from rfl, pb3_succ]
    by_cases hy : (y 0).val < 8 * n
    · obtain ⟨pc, hpc, hmem⟩ := pb3_cover c i arg2 harg2 arg3 harg3 v0 xt hx X2 n (by omega) y hy
      exact ⟨pc, List.mem_append_right _ hpc, hmem⟩
    · obtain ⟨w, hw⟩ := tripL3_rect (F := F) c i arg2 harg2 arg3 harg3 v0 xt hx X2 ⟨n, hk⟩
      rw [hw]
      refine ⟨_, List.mem_append_left _ (List.mem_singleton_self _), ?_⟩
      rw [Rect.mem_set_unit, k0_off33_eq]
      have h1 : (y 1).val < 128 := (y 1).isLt
      intro a; fin_cases a
      · show 8 * n ≤ (y 0).val ∧ (y 0).val < 8 * n + 8; omega
      · show 0 ≤ (y 1).val ∧ (y 1).val < 0 + 128; omega

/-- The pieces cover the output block. -/
theorem gather_cover (c : Dev nD) (i : grid0.Coords) (arg2 : Memref sig .tc .vmem S32000x128 .f32) (harg2 : arg2.IsWhole)
    (arg3 : Memref sig .tc .vmem S512x128 .f32) (harg3 : arg3.IsWhole)
    (x0 : Vec F S32000x128 .f32) (xt : TbBuf (F := F) c) (hx : TokOk c xt) (y : S512x128.Idx) :
    ∃ pc ∈ (gatherRun c i arg2 harg2 arg3 harg3 x0 xt hx).1, y ∈ pc.1.set := by
  have hy : (y 0).val < 512 := (y 0).isLt
  have hrun : ∃ v0 X2, (gatherRun (F := F) c i arg2 harg2 arg3 harg3 x0 xt hx).1
      = pb3 (F := F) c i arg2 harg2 arg3 harg3 v0 xt hx X2 64 := ⟨_, _, rfl⟩
  obtain ⟨v0, X2, e⟩ := hrun
  rw [e]
  exact pb3_cover c i arg2 harg2 arg3 harg3 v0 xt hx X2 64 (Nat.le_refl _) y (by omega)

end Cert.KernelIdeal.Hand

end
-- ==== Proof.KI.LogitsBody.lean ====
/-
  The logits kernel's body on whole staging memrefs: from the hidden block at contents `x0` and the class-weight block at
  contents `x1`, the output block at anything, it runs to the end leaving the inputs as they were and the output block at
  `logitsOut x0 x1`: its one store, of the matrix product of the two blocks into a zero accumulator.
-/
import proofs.«403318_j74122545594780_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The hidden block's one whole-block rectangle, the class-weight block's, and the output block's. -/
abbrev rHid : Rect S512x128 := Rect.unit (s := S512x128) ![0, 0] S512x128.size inb_S512x128_S512x128_0_0
abbrev rCls : Rect S3200x128 := Rect.unit (s := S3200x128) ![0, 0] S3200x128.size inb_S3200x128_S3200x128_0_0
abbrev rOut : Rect S512x3200 := Rect.unit (s := S512x3200) ![0, 0] S512x3200.size inb_S512x3200_S512x3200_0_0

/-- The output block after the body: its one store, of the payload of the two whole-block loads. -/
def logitsOut (x0 : Vec F S512x128 .f32) (x1 : Vec F S3200x128 .bf16) : Vec F S512x3200 .f32 :=
  View.canon [⟨rOut, k1_pay1 (View.ld x0 rHid) (View.ld x1 rCls)⟩]

/-- The one store tiles the output block, so it covers it. -/
theorem logits_cover (p0 : Vec F S512x3200 .f32) (y : S512x3200.Idx) :
    ∃ pc ∈ ([⟨rOut, p0⟩] : List (View.Piece (Elt F) S512x3200 .f32)), y ∈ pc.1.set :=
  View.cover_of_tiled [⟨rOut, p0⟩] S512x3200.size (by rfl) y

set_option maxHeartbeats 1000000 in
theorem logits_sound (c : Dev nD) (E : Set ℕ) (i : grid1.Coords) (arg2 : Memref sig .tc .vmem S512x128 .f32) (harg2 : arg2.IsWhole)
    (arg3 : Memref sig .tc .vmem S3200x128 .bf16) (harg3 : arg3.IsWhole) (arg4 : Memref sig .tc .vmem S512x3200 .f32) (harg4 : arg4.IsWhole)
    (x0 : Vec F S512x128 .f32) (x1 : Vec F S3200x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (logitsOut x0 x1)) -∗ K ⟨⟩))
      ⊢ wp frame (wpE (defs₀ (F := F)) Variants.none c none) E (cc1__logits_kernel i arg2 harg2 arg3 harg3 arg4 harg4) K := by
  simp only [cc1__logits_kernel_eq_skeleton]; unfold cc1__logits_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (logits_cover _)

end Cert.KernelIdeal.Hand

end
-- ==== Proof.KI.Regions.lean ====
/-
  The two pallas_calls as regions of the host program: what each region's pipeline holds point by point (the proof data),
  that its kernel body meets the pipeline's obligation at every grid point, and the region's protocol around the state
  "every unscoped buffer whole at known contents".

  Region 0 (the gather): window 0 is the whole transposed embedding table, fetched once; window 1 is the block of 512 hidden
  rows the point writes; the token table is prefetched into scalar memory and held whole by the region's invariant beside the
  scratch tile. Region 1 (the logits): windows 0 and 1 are the hidden block and the class-weight block, window 2 the
  512 × 3200 block of logits the point writes.
-/
import proofs.«403318_j74122545594780_3_alg».proof.Proof.KI.GatherBody
import proofs.«403318_j74122545594780_3_alg».proof.Proof.KI.LogitsBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0: the gather -/

/-- The token table's contents when the region is entered (one device). -/
def tblOf : pre0.Contents (Elt F) := fun j => V (0 : Dev nD) (pre0.ref j)
theorem V_pre (c : Dev nD) (j : Fin 1) : V c (pre0.ref j) = tblOf V j := by
  obtain rfl : c = 0 := Subsingleton.elim _ _; rfl
/-- The table's contents are admissible whatever they are (no window's index map reads the table). -/
abbrev adm0 : (pcfg0 (F := F)).Adm := ⟨tblOf V, trivial⟩
abbrev cfgM : Pipeline.Cfg sig Λ₀ := cfg0 (adm0 V)

/-- Window `w`'s block at point `t`, read off its array as the region finds it. -/
def iblk0 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

/-- The embedding window's staging buffer holds the whole table at every point, fetched there or not. -/
theorem before0_0_of {c : Dev nD} (dat : Dat τ (Elt F) Unit ℕ (UR sig nD τ) ℕ (cfgM V) c) (hA : dat.A 0 = V c (Pipeline.arrRef spec0 0))
    (hafter : ∀ t, dat.after 0 t = iblk0 V c 0 t) (t : Fin (cfgM V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body. -/
abbrev ms0_0 (t : Fin (cfgM V).N) : Memref sig .tc .vmem S32000x128 .f32 := spec0_0.stage ((cfgM V).slots t 0)
abbrev hs0_0 (t : Fin (cfgM V).N) : (ms0_0 V t).IsWhole := hstage0_0 (((cfgM V).slots t 0).cast nbuf0_0)
abbrev ms0_1 (t : Fin (cfgM V).N) : Memref sig .tc .vmem S512x128 .f32 := spec0_1.stage ((cfgM V).slots t 1)
abbrev hs0_1 (t : Fin (cfgM V).N) : (ms0_1 V t).IsWhole := hstage0_1 (((cfgM V).slots t 1).cast nbuf0_1)
/-- The body as the pipeline calls it at point `t`. -/
abbrev bodyAt0 (t : Fin (cfgM V).N) : Prog (TpuEff nD τ sig (Elt F) Λ₀ .tc) PUnit :=
  cc0__gather_kernel (grid0.coords t) tbM htbM (ms0_0 V t) (hs0_0 V t) (ms0_1 V t) (hs0_1 V t) scM hscM

/-- Every word of the table as the region finds it names a row. -/
abbrev TblOk : Prop := ∀ c : Dev nD, TokOk (F := F) c (tblOf V 0)

/-- What the body leaves in the hidden block's staging buffer at point `t`: the run's pieces, the later over the earlier. -/
def out0 (hx : TblOk V) (c : Dev nD) (t : Fin (cfgM V).N) : Vec F S512x128 .f32 :=
  View.canon (gatherRun c (grid0.coords t) (ms0_0 V t) (hs0_0 V t) (ms0_1 V t) (hs0_1 V t) (iblk0 V c 0 t) (tblOf V 0) (hx c)).1

/-- The gather pipeline's proof data on core `c`. The invariant: the scoped buffers no window stages (the scratch tile
    among them), the generator register, and the token table held whole. -/
def dat0 (hx : TblOk V) (c : Dev nD) : Dat τ (Elt F) Unit ℕ (UR sig nD τ) ℕ (cfgM V) c where
  A w := V c (Pipeline.arrRef spec0 w)
  after w t := match w with
    | ⟨0, _⟩ => iblk0 V c 0 t
    | ⟨1, _⟩ => out0 V hx c t
  Φ _ := iprop(Pipeline.ΦA spec0 c ∗ Pipeline.prefHeld (Ix := Unit) (Name := ℕ) (U := UR sig nD τ) (Lvl := ℕ) pre0 c (fun _ => fullShare) (tblOf V))
  q _ := fullShare
  owed _ := 0

theorem A_eq0 (hx : TblOk V) (c : Dev nD) (w : Fin (cfgM V).W) : (dat0 V hx c).A w = V c (Pipeline.arrRef spec0 w) := by
  dsimp only [dat0]
theorem after0_0 (hx : TblOk V) (c : Dev nD) (t : Fin (cfgM V).N) : (dat0 V hx c).after 0 t = iblk0 V c 0 t := by dsimp only [dat0]; try rfl
theorem after0_1 (hx : TblOk V) (c : Dev nD) (t : Fin (cfgM V).N) : (dat0 V hx c).after 1 t = out0 V hx c t := by dsimp only [dat0]; try rfl
theorem before0_0 (hx : TblOk V) (c : Dev nD) (t : Fin (cfgM V).N) (d) : (dat0 V hx c).before 0 t d = iblk0 V c 0 t :=
  before0_0_of V (dat0 V hx c) (A_eq0 V hx c 0) (after0_0 V hx c) t d

/-- The table held whole, as the body takes it. -/
theorem prefHeld0_eq (c : Dev nD) :
    (Pipeline.prefHeld (Ix := Unit) (Name := ℕ) (U := UR sig nD τ) (Lvl := ℕ) pre0 c (fun _ => fullShare) (tblOf V) : sProp 𝕄) = tbPt c (tblOf V 0) := by
  unfold Pipeline.prefHeld
  rw [show (Finset.univ : Finset (Fin 1)) = {(0 : Fin 1)} from by decide, bigSep_singleton]
  rfl

def bodyPre0 (hx : TblOk V) (c : Dev nD) (t : Fin (cfgM V).N) : sProp 𝕄 :=
  iprop((dat0 V hx c).Φ t.castSucc ∗ (dat0 V hx c).owesAt () t.castSucc
    ∗ (∃ d, owns (c : Thread nD τ) (ms0_0 V t) fullShare ((dat0 V hx c).before 0 t d))
    ∗ (∃ d, owns (c : Thread nD τ) (ms0_1 V t) fullShare ((dat0 V hx c).before 1 t d)))
def bodyPost0 (hx : TblOk V) (c : Dev nD) (t : Fin (cfgM V).N) : sProp 𝕄 :=
  iprop((dat0 V hx c).Φ t.succ ∗ (dat0 V hx c).owesAt () t.succ
    ∗ owns (c : Thread nD τ) (ms0_0 V t) fullShare ((dat0 V hx c).after 0 t)
    ∗ owns (c : Thread nD τ) (ms0_1 V t) fullShare ((dat0 V hx c).after 1 t))

/-- The body at any point: the embedding window holds the whole table, the token table and the scratch tile come out of
    the invariant and go back into it, the hidden block ends at the run's pieces. -/
theorem sound_body0 (hx : TblOk V) (c : Dev nD) (t : Fin (cfgM V).N) :
    bodyPre0 V hx c t ⊢ wp frame (wpE (defs₀ (F := F)) Variants.none c none) Set.univ (bodyAt0 V t) (fun _ => bodyPost0 V hx c t) := by
  unfold bodyPre0 bodyPost0 bodyAt0
  simp only [before0_0]
  rw [show (dat0 V hx c).Φ t.succ = (dat0 V hx c).Φ t.castSucc from rfl,
    show (dat0 V hx c).owesAt () t.succ = (dat0 V hx c).owesAt () t.castSucc from rfl,
    after0_0, after0_1]
  rw [show (dat0 V hx c).Φ t.castSucc = iprop(Pipeline.ΦA spec0 c ∗ Pipeline.prefHeld (Ix := Unit) (Name := ℕ) (U := UR sig nD τ) (Lvl := ℕ) pre0 c (fun _ => fullShare) (tblOf V)) from rfl,
    prefHeld0_eq]
  unfold Pipeline.ΦA
  rw [scopedRest0_eq]
  unfold out0
  iintro ⟨⟨⟨⟨Hsc, Hrest⟩, Hpr⟩, HT⟩, Ho, ⟨%d0, H0⟩, ⟨%d1, H1⟩⟩
  iapply ((gatherRun c (grid0.coords t) (ms0_0 V t) (hs0_0 V t) (ms0_1 V t) (hs0_1 V t) (iblk0 V c 0 t) (tblOf V 0) (hx c)).2 _)
  isplitl [H0]; · iexact H0
  isplitl [H1]; · iexists _; iexact H1
  isplitl [HT]; · iexact HT
  isplitl [Hsc]; · iexact Hsc
  iintro ⟨H0, ⟨%e1, H1⟩, HT, Hsc⟩
  isplitl [Hsc Hrest Hpr HT]
  · isplitr [HT]
    · isplitr [Hpr]
      · isplitl [Hsc]; · iexact Hsc
        iexact Hrest
      · iexact Hpr
    · iexact HT
  isplitl [Ho]; · iexact Ho
  isplitl [H0]; · iexact H0
  unfold owns; iexists _; isplitr
  swap; · iexact H1
  ipureintro; exact View.read_writes_eq_canon _ _ _ (gather_cover c _ _ _ _ _ _ _ _)

theorem body_obligation0 (hx : TblOk V) (c : Dev nD) : BodyObligation (dat0 (F := F) V hx c) (defs₀ (F := F)) Variants.none () Set.univ := fun t => by
  rw [bigSep_W0, bigSep_W0]
  exact sound_body0 V hx c t

/-! # Region 1: the logits -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The class-weight window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The logits pipeline's proof data on core `c`: after the body each input's buffer at its block, the output's at the
    product of the two blocks; the invariant the scoped buffers no window stages and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => logitsOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = logitsOut (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input memrefs hold their blocks, the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (logits_sound c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The host program's run, from the launch to the return: three host operations (the token array flattened, the embedding
  table transposed, the class weights converted), then the gather region, then the logits region. The buffers' contents at
  each boundary are a fold from the launch memory: after the host operations; after the gather, with its arrays at what
  its pipeline leaves; after the logits likewise. Every weakly fair execution terminates and every final memory holds each
  unscoped buffer at the last boundary's contents.
-/
import proofs.«403318_j74122545594780_3_alg».proof.Proof.KI.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the three host operations (the gather's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

variable (hx : TblOk (V1 m ρ))

/-- At the gather's exit: its arrays at what the pipeline leaves, every other buffer as entered. -/
def W2 (c : Dev nD) : Valuation τ sig (Elt F) :=
  Pipeline.withArrays spec0 c (W1 m ρ c) fun w => (dat0 (V1 m ρ) hx c).arrAt w (cfgM (V1 m ρ)).N
theorem W2_arr (c : Dev nD) (w : Fin (cfgM (V1 m ρ)).W) :
    W2 m ρ hx c (Proc.devRef .tc (Pipeline.arrRef spec0 w)) = (dat0 (V1 m ρ) hx c).arrAt w (cfgM (V1 m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ hx c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hx c b
theorem hF0 (c : Dev nD) (w : Fin (cfgM (V1 m ρ)).W) : (dat0 (V1 m ρ) hx c).arrAt w (cfgM (V1 m ρ)).N = V2 m ρ hx c (Pipeline.arrRef spec0 w) :=
  (W2_arr m ρ hx c w).symm
theorem hrest0 (c : Dev nD) : ∀ b, b ∉ Finset.univ.image (Pipeline.arrRef spec0) → V2 m ρ hx c b = V1 m ρ c b :=
  fun b hb => W2_of_ne m ρ hx c b fun w e => hb (Finset.mem_image.mpr ⟨w, Finset.mem_univ _, e⟩)

/-- At the logits' exit. -/
def W3 (c : Dev nD) : Valuation τ sig (Elt F) :=
  Pipeline.withArrays spec1 c (W2 m ρ hx c) fun w => (dat1 (V2 m ρ hx) c).arrAt w cfg1.N
theorem W3_arr (c : Dev nD) (w : Fin cfg1.W) :
    W3 m ρ hx c (Proc.devRef .tc (Pipeline.arrRef spec1 w)) = (dat1 (V2 m ρ hx) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m ρ hx c (Proc.devRef .tc b) = W2 m ρ hx c (Proc.devRef .tc b) := by
  unfold W3; exact Pipeline.withArrays_of_ne spec1 c _ _ b hb
abbrev V3 : (c : Dev nD) → (b : Ref sig .tc) → Buf (Elt F) ((c : Thread nD τ).loc b) := fun c b => W3 m ρ hx c b
theorem hF1 (c : Dev nD) (w : Fin cfg1.W) : (dat1 (V2 m ρ hx) c).arrAt w cfg1.N = V3 m ρ hx c (Pipeline.arrRef spec1 w) :=
  (W3_arr m ρ hx c w).symm
theorem hrest1 (c : Dev nD) : ∀ b, b ∉ Finset.univ.image (Pipeline.arrRef spec1) → V3 m ρ hx c b = V2 m ρ hx c b :=
  fun b hb => W3_of_ne m ρ hx c b fun w e => hb (Finset.mem_image.mpr ⟨w, Finset.mem_univ _, e⟩)

/-! ## The proof data family and the thread state -/

/-- The token table's admissible contents for the gather; the logits pipeline has no table. -/
abbrev adm : (p : Fin 2) → (pcfgs (F := F) p).Adm := fun
  | ⟨0, _⟩ => adm0 (V1 m ρ)
  | ⟨1, _⟩ => cfg1.toPCfg_adm
/-- Each pipeline's proof data at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) hx c
  | ⟨1, _⟩ => fun c => dat1 (V2 m ρ hx) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ hx c) ∗ ∃ r, prngReg c r)

/-- The table's contents under the entry valuation, word for word. -/
theorem tbl_fun (c : Dev nD) : (fun k => V1 m ρ c ((pcfgs (F := F) 0).pre.ref k)) = tblOf (V1 m ρ) := funext fun k => V_pre (V1 m ρ) c k

/-! ## The regions as segments -/

set_option backward.isDefEq.respectTransparency.types false in
/-- The gather region: entered from every unscoped buffer at `W1`, left at `W2`. Its arrays and the token table are split
    out of the unscoped buffers at entry; the table rides in the invariant and comes back at the end. -/
def reg0 : Pipeline.RegionSeg (pcfgs (F := F)) (adm m ρ) (pdats m ρ hx) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) hx c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hx c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tblOf (V1 m ρ)))
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m ρ) (pdats m ρ hx) (launch0 (F := F)).win (launch0 (F := F)).arr_whole c
      ((pdats m ρ hx 0 c).share_full fun _ => rfl) (V1 m ρ c) fun _ => rfl
    rw [Pipeline.unscopedBufs_held, Pipeline.unscopedRest_split (launch0 (F := F)).pre c (V1 m ρ c), tbl_fun] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hx 0 c).Φ 0 = iprop(Pipeline.ΦA spec0 c ∗ Pipeline.prefHeld (Ix := Unit) (Name := ℕ) (U := UR sig nD τ) (Lvl := ℕ) pre0 c (fun _ => fullShare) (tblOf (V1 m ρ))) from rfl]
    unfold Pipeline.ΦA
    iintro ⟨Hp, Ht, Hr⟩
    isplitr [Ht]
    · isplitl [Hr]; · iexact Hr
      iexact Hp
    iexact Ht
  hout c := by
    rw [Pipeline.ownSems0_none, show (pdats m ρ hx 0 c).Φ (Fin.last _) = iprop(Pipeline.ΦA spec0 c ∗ Pipeline.prefHeld (Ix := Unit) (Name := ℕ) (U := UR sig nD τ) (Lvl := ℕ) pre0 c (fun _ => fullShare) (tblOf (V1 m ρ))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ hx) ((pdats m ρ hx 0 c).share_full fun _ => rfl)
      (V1 m ρ c) (V2 m ρ hx c) ((pdats m ρ hx 0 c).arrAt · (cfgM (V1 m ρ)).N) (hF0 m ρ hx c) (hrest0 m ρ hx c)
    rw [Pipeline.unscopedBufs_held, Pipeline.unscopedRest_split (launch0 (F := F)).pre c (V1 m ρ c), tbl_fun] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- The logits region: entered from every unscoped buffer at `W2`, left at `W3`. -/
def reg1 : Pipeline.RegionSeg (pcfgs (F := F)) (adm m ρ) (pdats m ρ hx) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ hx) c).loose
  hwaits := Pipeline.hwaits_of_owed_zero _ _ _ _ L lv 1 fun _ _ => rfl
  pre c := iprop(StableHlo.held (c : Thread nD τ) (Pipeline.ucRefs τ sig) (W2 m ρ hx c) ∗ R c)
  post c := iprop(Tₙ m ρ hx c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ hx c)
  hentry c := by
    rw [Pipeline.ownSems0_none]
    have hsplit := Pipeline.arrays_of_unscopedBufs (p := 1) (pcfgs (F := F)) (adm m ρ) (pdats m ρ hx) (launch1 (F := F)).win (launch1 (F := F)).arr_whole c
      ((pdats m ρ hx 1 c).share_full fun _ => rfl) (V2 m ρ hx c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hx 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hx 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ hx) ((pdats m ρ hx 1 c).share_full fun _ => rfl)
      (V2 m ρ hx c) (V3 m ρ hx c) ((pdats m ρ hx 1 c).arrAt · cfg1.N) (hF1 m ρ hx c) (hrest1 m ρ hx c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The host program as segments, and the launch -/

abbrev segs : List (Pipeline.Seg (pcfgs (F := F)) (adm m ρ) (pdats m ρ hx) () defs₀ 𝒱₀ L lv) :=
  [ .host (hseg hostOps0 hostOps0_sub hostOps0_fresh' (W0 m ρ)),
    .region (reg0 m ρ hx),
    .region (reg1 m ρ hx) ]
theorem main_run (c : Dev nD) : main (F := F) c = Pipeline.Seg.run (segs m ρ hx) := (main_chain c).trans (by chain_rfl)

set_option backward.isDefEq.respectTransparency.types false in
/-- THE RUN: from any memory with zero counters whose token table names rows only, every weakly fair execution of the host
    program terminates, nothing faulting, and every final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ hx c b) :=
  Pipeline.θ_run_regions_kit (pcfgs (F := F)) (adm m ρ) (pdats m ρ hx) () (cellOf_inj (adm m ρ)) emb₁ defs₀ 𝒱₀ L lv m ρ main (segs m ρ hx)
    (fun c Q => by rw [main_run m ρ hx c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hx)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ hx c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ hx c) s')
      isplitl [Hh] <;> iassumption)
    (hQ := fun s h c => h c)

end Cert.KernelIdeal.Hand

end
-- ==== Proof.KI.TableOk.lean ====
/-
  The token table at the gather's entry is the token array flattened row-major: position `p` holds token `p % 2` of example
  `p / 2`. So if every token word names a row of the embedding table, every word of the table does.
-/
import proofs.«403318_j74122545594780_3_alg».proof.Proof.KI.Run
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the first host operation leaves: the token array read row-major. -/
theorem V1_v0 (c : Dev nD) :
    (V1 m ρ c main_v0 : S8192.Idx → BitVec 32) = shapeCast S8192 (m ((c : Thread nD τ).loc main_arg0)) shapeCasts_S4096x2_S8192 := by
  show StableHlo.after hostOps0 _ (Proc.devRef .tc main_v0) = _
  after_results
  rfl

/-- Position `p` of the flattened table is token `p % 2` of example `p / 2`. -/
theorem V1_v0_apply (c : Dev nD) (p : S8192.Idx) :
    (V1 m ρ c main_v0 : S8192.Idx → BitVec 32) p
      = m ((c : Thread nD τ).loc main_arg0) (ix2 (⟨(p 0).val / 2, by have h : (p 0).val < 8192 := (p 0).isLt; omega⟩ : Fin 4096) (⟨(p 0).val % 2, Nat.mod_lt _ (by decide)⟩ : Fin 2)) := by
  rw [V1_v0]
  refine shapeCast_apply _ _ _ _ ?_
  show ((⟨2, ![4096, 2]⟩ : Shape).rowMajor (ix2 (⟨(p 0).val / 2, _⟩ : Fin 4096) (⟨(p 0).val % 2, _⟩ : Fin 2))).val = ((⟨1, ![8192]⟩ : Shape).rowMajor p).val
  rw [Shape.rowMajor_val_two, Shape.rowMajor_val_one]
  show (p 0).val / 2 * 2 + (p 0).val % 2 = (p 0).val
  omega

/-- Every word of the table names a row when every token word does. -/
theorem tbl_ok (hm : ∀ (c : Dev nD) j, (m ((c.tc : Thread nD τ).loc main_arg0) j).toNat < 32000) : TblOk (V1 m ρ) := by
  intro c j
  show ((V1 m ρ (0 : Dev nD) main_v0 : S8192.Idx → BitVec 32) j).toNat < 32000
  rw [V1_v0_apply]
  exact hm 0 _

end Cert.KernelIdeal.Hand

end
-- ==== Proof.KI.Frame.lean ====
/-
  The frame: from any memory whose token words all name rows of the embedding table, the host program runs to the end,
  nothing faulting, and its three argument arrays end as launched.
-/
import proofs.«403318_j74122545594780_3_alg».proof.Proof.KI.TableOk

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hx : TblOk (V1 m ρ))

/-- `main_arg0` ends as launched: no host operation writes it and it is no array of either region. -/
theorem W3_main_arg0 (c : Dev nD) : W3 m ρ hx c (Proc.devRef .tc main_arg0) = m ((c : Thread nD τ).loc main_arg0) :=
  calc W3 m ρ hx c (Proc.devRef .tc main_arg0)
    _ = W2 m ρ hx c (Proc.devRef .tc main_arg0) := W3_of_ne m ρ hx c main_arg0 (by decide)
    _ = W1 m ρ c (Proc.devRef .tc main_arg0) := W2_of_ne m ρ hx c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and it is no array of either region. -/
theorem W3_main_arg1 (c : Dev nD) : W3 m ρ hx c (Proc.devRef .tc main_arg1) = m ((c : Thread nD τ).loc main_arg1) :=
  calc W3 m ρ hx c (Proc.devRef .tc main_arg1)
    _ = W2 m ρ hx c (Proc.devRef .tc main_arg1) := W3_of_ne m ρ hx c main_arg1 (by decide)
    _ = W1 m ρ c (Proc.devRef .tc main_arg1) := W2_of_ne m ρ hx c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and it is no array of either region. -/
theorem W3_main_arg2 (c : Dev nD) : W3 m ρ hx c (Proc.devRef .tc main_arg2) = m ((c : Thread nD τ).loc main_arg2) :=
  calc W3 m ρ hx c (Proc.devRef .tc main_arg2)
    _ = W2 m ρ hx c (Proc.devRef .tc main_arg2) := W3_of_ne m ρ hx c main_arg2 (by decide)
    _ = W1 m ρ c (Proc.devRef .tc main_arg2) := W2_of_ne m ρ hx c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The frame claim's post from the run's. -/
theorem frame (hm : ∀ (c : Dev nD) j, (m ((c.tc : Thread nD τ).loc main_arg0) j).toNat < 32000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c _ (mem_uc main_arg0 (by decide))).trans (W3_main_arg0 m ρ (tbl_ok m ρ hm) c),
       (h c _ (mem_uc main_arg1 (by decide))).trans (W3_main_arg1 m ρ (tbl_ok m ρ hm) c),
       (h c _ (mem_uc main_arg2 (by decide))).trans (W3_main_arg2 m ρ (tbl_ok m ρ hm) c)⟩)
    (run_main m ρ (tbl_ok m ρ hm))

end Cert.KernelIdeal.Hand

end
-- ==== Proof.Spec.lean ====
/-
  The function both programs compute, over the extended reals.

  A token word `w` below 32000 names row `w` of the embedding table; example `b` has two tokens `x[b,0]`, `x[b,1]`.
  Its hidden activation at feature `d` is the sum of the two tokens' columns of `W` (`W[d, ·]`), clipped below at zero,
  and its logit for class `p` is the inner product over the 128 features of the hidden activation with row `p` of `V`.
-/
import Idealize.ShloMosaic.PureOps.Ideal
import Idealize.ShloMosaic.Lib.ValueIdx

noncomputable section

open scoped BigOperators

namespace Cert.Proof.Spec

open Idealize.ShloMosaic Idealize.ShloMosaic.ValueIdx

/-- The table row a token word names: a word below 32000 names itself. -/
def tok (w : BitVec 32) : Fin 32000 := ⟨w.toNat % 32000, Nat.mod_lt _ (by decide)⟩

theorem tok_val {w : BitVec 32} (h : w.toNat < 32000) : (tok w).val = w.toNat := Nat.mod_eq_of_lt h

/-- The hidden activation of example `b` at feature `d`: `max (W[d, x[b,0]] + W[d, x[b,1]]) 0`. -/
def hidden (x : IVec ⟨2, ![4096, 2]⟩ 32) (W : FVec Ideal ⟨2, ![128, 32000]⟩ .f32) (b : Fin 4096) (d : Fin 128) : EReal :=
  max (W (ix2 d (tok (x (ix2 b (0 : Fin 2))))) + W (ix2 d (tok (x (ix2 b (1 : Fin 2)))))) 0

/-- The logits: `logits[b, p] = ∑ d, hidden[b, d] · V[p, d]`. -/
def logits (x : IVec ⟨2, ![4096, 2]⟩ 32) (W : FVec Ideal ⟨2, ![128, 32000]⟩ .f32) (V : FVec Ideal ⟨2, ![32000, 128]⟩ .f32) :
    FVec Ideal ⟨2, ![4096, 32000]⟩ .f32 :=
  fun i => ∑ d : Fin 128, hidden x W (i 0) d * V (ix2 (i 1) d)

end Cert.Proof.Spec

end
-- ==== Proof.SpecBlocks.lean ====
/-
  The hidden activations as the gather region produces them, block by block: from the FLATTENED token array (entry
  `2 b + j` is token `j` of example `b`) and the TRANSPOSED embedding table (row `p` is column `p` of `W`).
  Block `i₀` holds examples `512 i₀ … 512 i₀ + 511`.
-/
import proofs.«403318_j74122545594780_3_alg».proof.Proof.Spec

noncomputable section

namespace Cert.Proof.Spec

open Idealize.ShloMosaic Idealize.ShloMosaic.ValueIdx

/-- Where token `j` of the `r`-th example of block `i₀` sits in the flattened token array. -/
def tokPos (i₀ : Nat) (r : Fin 512) (j : Fin 2) : Fin 8192 := ⟨(2 * (512 * i₀ + r.val) + j.val) % 8192, Nat.mod_lt _ (by decide)⟩

theorem tokPos_val {i₀ : Nat} (h : i₀ < 8) (r : Fin 512) (j : Fin 2) : (tokPos i₀ r j).val = 2 * (512 * i₀ + r.val) + j.val := by
  have := r.isLt; have := j.isLt
  exact Nat.mod_eq_of_lt (by omega)

/-- Row `r` of hidden block `i₀` at feature `d`: the two token rows of the transposed table added, clipped below at zero. -/
def hiddenBlk (xt : IVec ⟨1, ![8192]⟩ 32) (wt : FVec Ideal ⟨2, ![32000, 128]⟩ .f32) (i₀ : Nat) (r : Fin 512) (d : Fin 128) : EReal :=
  max (wt (ix2 (tok (xt (ix1 (tokPos i₀ r 0)))) d) + wt (ix2 (tok (xt (ix1 (tokPos i₀ r 1)))) d)) 0

/-- The whole hidden array: example `b` is row `b % 512` of block `b / 512`. -/
def hiddenArr (xt : IVec ⟨1, ![8192]⟩ 32) (wt : FVec Ideal ⟨2, ![32000, 128]⟩ .f32) : FVec Ideal ⟨2, ![4096, 128]⟩ .f32 :=
  fun i => hiddenBlk xt wt ((i 0).val / 512) ⟨(i 0).val % 512, Nat.mod_lt _ (by decide)⟩ (i 1)

/-- The logits from the hidden array and the class weights. -/
def logitsOf (h : FVec Ideal ⟨2, ![4096, 128]⟩ .f32) (v : FVec Ideal ⟨2, ![32000, 128]⟩ .bf16) : FVec Ideal ⟨2, ![4096, 32000]⟩ .f32 :=
  fun i => ∑ k : Fin 128, h (ix2 (i 0) k) * v (ix2 (i 1) k)

end Cert.Proof.Spec

end
-- ==== Proof.GatherValue.lean ====
/-
  The gather body's pieces read at an index, over the extended reals: row `r` of the block the body leaves at grid point
  `i` is, at feature `d`, the sum of the two embedding rows that the two tokens of example `512 i + r` name, clipped below
  at zero.
-/
import proofs.«403318_j74122545594780_3_alg».proof.Proof.KI.GatherBody
import proofs.«403318_j74122545594780_3_alg».proof.Proof.SpecBlocks
import Idealize.ShloMosaic.PureOps.Ideal.Laws
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.KernelIdeal.Hand Cert.Proof.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ### Rows, words and row loads -/

/-- Row `a` of trip `k`'s eight rows, as a row of the 512-row block. -/
def row (k : Fin k0_t1_loop.trips) (a : Fin 8) : Fin 512 :=
  ⟨8 * k.val + a.val, by have h : k.val < 64 := lt_of_lt_of_eq k.isLt gather_trips; omega⟩

theorem row_val (k : Fin k0_t1_loop.trips) (a : Fin 8) : (row k a).val = 8 * k.val + a.val := rfl

/-- The function every piece is a block of. -/
abbrev G3 (i : grid0.Coords) (x0 : Vec Ideal S32000x128 .f32) {c : Dev nD} (xt : TbBuf (F := Ideal) c) (y : S512x128.Idx) : EReal :=
  hiddenBlk xt x0 (i 0).val (y 0) (y 1)

/-- One row's payload at an index: the two loaded rows added there, clipped below at zero. -/
theorem pay_apply (A B : Vec Ideal S1x128 .f32) (u : Fin 1) (dd : Fin 128) :
    k0_pay3 A B (ix2 u dd) = max (A (ix2 (0 : Fin 1) dd) + B (ix2 (0 : Fin 1) dd)) 0 := by
  unfold k0_pay3
  rw [shapeCast_a_1a_apply, maximumf_apply, addf_apply, broadcast_apply, shapeCast_1a_a_apply, shapeCast_1a_a_apply]
  have hz : (FloatOps.ofBits FTy.f32 0#32 : Ideal .f32) = 0 := Ideal.ofBits_zero_f32
  rw [hz]

/-- A table word read at offset `p` is the table's entry `p`. -/
theorem word_read {c : Dev nD} (xt : TbBuf (F := Ideal) c) (off : Fin 1 → ℕ) (inb : ∀ a, off a + S1.size a ≤ S8192.size a) (p : Fin 8192)
    (e : off = ![p.val]) (z : (Rect.unit (s := S8192) off S1.size inb).toLoadRect.shape.Idx) :
    View.readAt (Elt Ideal) tbM.view (Rect.unit (s := S8192) off S1.size inb).toLoadRect xt z
      = (xt : IVec ⟨1, ![8192]⟩ 32) (ix1 p) := by
  subst e
  have hz : (z 0).val < 1 := (z 0).isLt
  show (xt : IVec ⟨1, ![8192]⟩ 32) _ = (xt : IVec ⟨1, ![8192]⟩ 32) _
  congr 1
  funext a
  match a with
  | ⟨0, _⟩ => exact Fin.ext (by show p.val + 1 * (z 0).val = p.val; omega)

/-- A row load at the row a word below 32000 names reads that row of the embedding block. -/
theorem row_load (arg2 : Memref sig .tc .vmem S32000x128 .f32) (harg2 : arg2.IsWhole) (x0 : Vec Ideal S32000x128 .f32)
    (w : BitVec 32) (hw : w.toNat < 32000) (off : Fin 2 → ℕ) (inb : ∀ a, off a + S1x128.size a ≤ S32000x128.size a)
    (e : off = ![w.toNat, 0]) (dd : Fin 128) :
    View.readAt (Elt Ideal) arg2.view (Rect.unit (s := S32000x128) off S1x128.size inb).toLoadRect (harg2.unread x0) (ix2 (0 : Fin 1) dd)
      = x0 (ix2 (tok w) dd) := by
  subst e
  refine (congrFun (harg2.read_unread x0) _).trans ?_
  congr 1
  exact Shape.idx_ext₂ (by show w.toNat + 1 * 0 = (tok w).val; rw [tok_val hw]; omega) (by show 0 + 1 * dd.val = dd.val; omega)

/-- One row of a trip: the payload of the two row loads at the two words of row `j`, read at a feature, is the
    hidden block's entry. The offsets are taken with their closed forms, so every row's store is an instance. -/
theorem row_value (c : Dev nD) (i : grid0.Coords) (arg2 : Memref sig .tc .vmem S32000x128 .f32) (harg2 : arg2.IsWhole)
    (x0 : Vec Ideal S32000x128 .f32) (xt : TbBuf (F := Ideal) c) (hx : TokOk c xt) (k : Fin k0_t1_loop.trips) (j : Fin 8)
    (offA offB : Fin 1 → ℕ) (inbA : ∀ a, offA a + S1.size a ≤ S8192.size a) (inbB : ∀ a, offB a + S1.size a ≤ S8192.size a)
    (eA : offA = ![1024 * (i 0).val + 16 * k.val + 2 * j.val]) (eB : offB = ![1024 * (i 0).val + 16 * k.val + 2 * j.val + 1])
    (zA : (Rect.unit (s := S8192) offA S1.size inbA).toLoadRect.shape.Idx) (zB : (Rect.unit (s := S8192) offB S1.size inbB).toLoadRect.shape.Idx)
    (off2A off2B : Fin 2 → ℕ) (inb2A : ∀ a, off2A a + S1x128.size a ≤ S32000x128.size a) (inb2B : ∀ a, off2B a + S1x128.size a ≤ S32000x128.size a)
    (e2A : off2A = ![BitVec.toNat (View.readAt (Elt Ideal) tbM.view (Rect.unit (s := S8192) offA S1.size inbA).toLoadRect xt zA), 0])
    (e2B : off2B = ![BitVec.toNat (View.readAt (Elt Ideal) tbM.view (Rect.unit (s := S8192) offB S1.size inbB).toLoadRect xt zB), 0])
    (u : Fin 1) (dd : Fin 128) (rr : Fin 512) (hr : rr.val = 8 * k.val + j.val) (dd' : Fin 128) (hd : dd'.val = dd.val) :
    k0_pay3 (View.readAt (Elt Ideal) arg2.view (Rect.unit (s := S32000x128) off2A S1x128.size inb2A).toLoadRect (harg2.unread x0))
        (View.readAt (Elt Ideal) arg2.view (Rect.unit (s := S32000x128) off2B S1x128.size inb2B).toLoadRect (harg2.unread x0)) (ix2 u dd)
      = hiddenBlk xt x0 (i 0).val rr dd' := by
  have hi : (i 0).val < 8 := (i 0).isLt
  have hk : k.val < 64 := lt_of_lt_of_eq k.isLt gather_trips
  obtain rfl : dd' = dd := Fin.ext hd
  have pA : (tokPos (i 0).val rr 0).val = 1024 * (i 0).val + 16 * k.val + 2 * j.val := by
    rw [tokPos_val hi]; show 2 * (512 * (i 0).val + rr.val) + 0 = _; omega
  have pB : (tokPos (i 0).val rr 1).val = 1024 * (i 0).val + 16 * k.val + 2 * j.val + 1 := by
    rw [tokPos_val hi]; show 2 * (512 * (i 0).val + rr.val) + 1 = _; omega
  have wA := word_read xt offA inbA (tokPos (i 0).val rr 0) (by rw [eA, pA]) zA
  have wB := word_read xt offB inbB (tokPos (i 0).val rr 1) (by rw [eB, pB]) zB
  rw [pay_apply,
    row_load arg2 harg2 x0 _ (tok_word c xt hx _ zA) off2A inb2A e2A dd',
    row_load arg2 harg2 x0 _ (tok_word c xt hx _ zB) off2B inb2B e2B dd', wA, wB]
  rfl

/-! ### One trip's piece at an index -/

/-- Trip `k`'s eight rows as one function of the scratch tile's index. -/
abbrev Gk (i : grid0.Coords) (x0 : Vec Ideal S32000x128 .f32) {c : Dev nD} (xt : TbBuf (F := Ideal) c) (k : Fin k0_t1_loop.trips)
    (y : S8x128.Idx) : EReal :=
  hiddenBlk xt x0 (i 0).val (row k (y 0)) (y 1)

/-- The trip's one piece in the output block: the whole scratch tile, loaded after the eight row stores, stored at the
    trip's rectangle. -/
theorem tripL3_eq (c : Dev nD) (i : grid0.Coords) (arg2 : Memref sig .tc .vmem S32000x128 .f32) (harg2 : arg2.IsWhole)
    (arg3 : Memref sig .tc .vmem S512x128 .f32) (harg3 : arg3.IsWhole)
    (v0 : BitVec 32) (xt : TbBuf (F := Ideal) c) (hx : TokOk c xt) (X2 : BufTy.Contents (Elt Ideal) arg2.view.ty) (k : Fin k0_t1_loop.trips) :
    tripL3 (F := Ideal) c i arg2 harg2 arg3 harg3 v0 xt hx X2 k
      = [⟨Rect.unit (s := S512x128) (k0_off33 k) S8x128.size (k0_off33_inb k), trip.sl.v179 c i arg2 xt hx X2 k⟩] := by
  unfold tripL3 trip
  rfl

set_option maxHeartbeats 1000000 in
/-- The scratch tile as the trip's last load finds it, at row `j` and feature `d`: the hidden block's row `8k + j`. -/
theorem trip_value (c : Dev nD) (i : grid0.Coords) (arg2 : Memref sig .tc .vmem S32000x128 .f32) (harg2 : arg2.IsWhole)
    (x0 : Vec Ideal S32000x128 .f32) (xt : TbBuf (F := Ideal) c) (hx : TokOk c xt) (k : Fin k0_t1_loop.trips) (j : Fin 8) (d : Fin 128) :
    trip.sl.v179 c i arg2 xt hx (harg2.unread x0) k (ix2 j d) = hiddenBlk xt x0 (i 0).val (row k j) d := by
  unfold trip.sl.v179
  rw [View.readCov_eq_canon']
  have hidx : (Rect.unit (s := S8x128) ![0, 0] ![8, 128] inb_S8x128_S8x128_0_0).toLoadRect.idx (ix2 j d) = ix2 j d :=
    Shape.idx_ext₂ (by show 0 + 1 * j.val = j.val; omega) (by show 0 + 1 * d.val = d.val; omega)
  show View.canon _ ((Rect.unit (s := S8x128) ![0, 0] ![8, 128] inb_S8x128_S8x128_0_0).toLoadRect.idx (ix2 j d)) = _
  rw [hidx]
  refine (View.canon_apply_of_pieces (Gk i x0 xt k) _ ?pieces (ix2 j d) ?cover).trans rfl
  case cover =>
    exact View.cover_of_tiledL _ ![1, 128] (by unfold trip.sl.H4_8; rfl) _
  case pieces =>
    unfold trip.sl.H4_8
    intro p hp
    simp only [List.mem_cons, List.not_mem_nil, or_false] at hp
    rcases hp with rfl | rfl | rfl | rfl | rfl | rfl | rfl | rfl
    all_goals (intro x; obtain ⟨u, dd, rfl⟩ : ∃ (u : Fin 1) (dd : Fin 128), x = ix2 u dd := ⟨x 0, x 1, eq_ix2 x⟩)
    · exact row_value c i arg2 harg2 x0 xt hx k 7 (k0_off29 i k) (k0_off31 i k) _ _ (k0_off29_eq i k) (k0_off31_eq i k) _ _ _ _ _ _ rfl rfl u dd _
        (by show 8 * k.val + (7 + 1 * u.val) = 8 * k.val + 7; omega) _ (by show 0 + 1 * dd.val = dd.val; omega)
    · exact row_value c i arg2 harg2 x0 xt hx k 6 (k0_off25 i k) (k0_off27 i k) _ _ (k0_off25_eq i k) (k0_off27_eq i k) _ _ _ _ _ _ rfl rfl u dd _
        (by show 8 * k.val + (6 + 1 * u.val) = 8 * k.val + 6; omega) _ (by show 0 + 1 * dd.val = dd.val; omega)
    · exact row_value c i arg2 harg2 x0 xt hx k 5 (k0_off21 i k) (k0_off23 i k) _ _ (k0_off21_eq i k) (k0_off23_eq i k) _ _ _ _ _ _ rfl rfl u dd _
        (by show 8 * k.val + (5 + 1 * u.val) = 8 * k.val + 5; omega) _ (by show 0 + 1 * dd.val = dd.val; omega)
    · exact row_value c i arg2 harg2 x0 xt hx k 4 (k0_off17 i k) (k0_off19 i k) _ _ (k0_off17_eq i k) (k0_off19_eq i k) _ _ _ _ _ _ rfl rfl u dd _
        (by show 8 * k.val + (4 + 1 * u.val) = 8 * k.val + 4; omega) _ (by show 0 + 1 * dd.val = dd.val; omega)
    · exact row_value c i arg2 harg2 x0 xt hx k 3 (k0_off13 i k) (k0_off15 i k) _ _ (k0_off13_eq i k) (k0_off15_eq i k) _ _ _ _ _ _ rfl rfl u dd _
        (by show 8 * k.val + (3 + 1 * u.val) = 8 * k.val + 3; omega) _ (by show 0 + 1 * dd.val = dd.val; omega)
    · exact row_value c i arg2 harg2 x0 xt hx k 2 (k0_off9 i k) (k0_off11 i k) _ _ (k0_off9_eq i k) (k0_off11_eq i k) _ _ _ _ _ _ rfl rfl u dd _
        (by show 8 * k.val + (2 + 1 * u.val) = 8 * k.val + 2; omega) _ (by show 0 + 1 * dd.val = dd.val; omega)
    · exact row_value c i arg2 harg2 x0 xt hx k 1 (k0_off5 i k) (k0_off7 i k) _ _ (k0_off5_eq i k) (k0_off7_eq i k) _ _ _ _ _ _ rfl rfl u dd _
        (by show 8 * k.val + (1 + 1 * u.val) = 8 * k.val + 1; omega) _ (by show 0 + 1 * dd.val = dd.val; omega)
    · exact row_value c i arg2 harg2 x0 xt hx k 0 (k0_off1 i k) (k0_off3 i k) _ _ (k0_off1_eq i k) (k0_off3_eq i k) _ _ _ _ _ _ rfl rfl u dd _
        (by show 8 * k.val + (0 + 1 * u.val) = 8 * k.val + 0; omega) _ (by show 0 + 1 * dd.val = dd.val; omega)

/-! ### Every piece is a block of the hidden block -/

/-- Every piece the trips before `n` leave is the hidden block read on the piece's rectangle. -/
theorem pb3_pieces (c : Dev nD) (i : grid0.Coords) (arg2 : Memref sig .tc .vmem S32000x128 .f32) (harg2 : arg2.IsWhole)
    (arg3 : Memref sig .tc .vmem S512x128 .f32) (harg3 : arg3.IsWhole)
    (x0 : Vec Ideal S32000x128 .f32) (xt : TbBuf (F := Ideal) c) (hx : TokOk c xt) (v0 : BitVec 32) :
    ∀ n, n ≤ 64 → ∀ p ∈ pb3 (F := Ideal) c i arg2 harg2 arg3 harg3 v0 xt hx (harg2.unread x0) n,
      ∀ x : p.1.shape.Idx, p.2 x = G3 i x0 xt (p.1.emb x)
  | 0, _, p, hp => by rw [pb3] at hp; exact absurd hp List.not_mem_nil
  | n + 1, hn, p, hp => by
    have hk : n < k0_t1_loop.trips := by rw [gather_trips]; omega
    rw [show n + 1 = (⟨n, hk⟩ : Fin k0_t1_loop.trips).val + 1 from rfl, pb3_succ, List.mem_append] at hp
    rcases hp with hp | hp
    · rw [tripL3_eq, List.mem_singleton] at hp
      subst hp
      intro x
      obtain ⟨a, b, rfl⟩ : ∃ (a : Fin 8) (b : Fin 128), x = ix2 a b := ⟨x 0, x 1, eq_ix2 x⟩
      refine (trip_value c i arg2 harg2 x0 xt hx ⟨n, hk⟩ a b).trans ?_
      have e0 : row ⟨n, hk⟩ a = ((Rect.unit (s := S512x128) (k0_off33 ⟨n, hk⟩) S8x128.size (k0_off33_inb ⟨n, hk⟩)).emb (ix2 a b)) 0 :=
        Fin.ext (by
          show 8 * n + a.val = k0_off33 ⟨n, hk⟩ 0 + 1 * a.val
          rw [k0_off33_eq]; show _ = 8 * n + 1 * a.val; omega)
      have e1 : b = ((Rect.unit (s := S512x128) (k0_off33 ⟨n, hk⟩) S8x128.size (k0_off33_inb ⟨n, hk⟩)).emb (ix2 a b)) 1 :=
        Fin.ext (by
          show b.val = k0_off33 ⟨n, hk⟩ 1 + 1 * b.val
          rw [k0_off33_eq]; show _ = 0 + 1 * b.val; omega)
      show hiddenBlk xt x0 (i 0).val (row ⟨n, hk⟩ a) b = hiddenBlk xt x0 (i 0).val _ _
      rw [← e0, ← e1]
    · exact pb3_pieces c i arg2 harg2 arg3 harg3 x0 xt hx v0 n (by omega) p hp

/-- The run's pieces, the later over the earlier, at row `r` and feature `d`. -/
theorem gather_value (c : Dev nD) (i : grid0.Coords) (arg2 : Memref sig .tc .vmem S32000x128 .f32) (harg2 : arg2.IsWhole)
    (arg3 : Memref sig .tc .vmem S512x128 .f32) (harg3 : arg3.IsWhole)
    (x0 : Vec Ideal S32000x128 .f32) (xt : TbBuf (F := Ideal) c) (hx : TokOk c xt) (r : Fin 512) (d : Fin 128) :
    View.canon (gatherRun (F := Ideal) c i arg2 harg2 arg3 harg3 x0 xt hx).1 (ix2 r d) = hiddenBlk xt x0 (i 0).val r d := by
  have hr : r.val < 512 := r.isLt
  have e : (gatherRun (F := Ideal) c i arg2 harg2 arg3 harg3 x0 xt hx).1
      = pb3 (F := Ideal) c i arg2 harg2 arg3 harg3 _ xt hx (harg2.unread x0) 64 := rfl
  rw [e]
  exact View.canon_apply_of_pieces (G3 i x0 xt) _ (pb3_pieces c i arg2 harg2 arg3 harg3 x0 xt hx _ 64 (Nat.le_refl _)) (ix2 r d)
    (pb3_cover c i arg2 harg2 arg3 harg3 _ xt hx _ 64 (Nat.le_refl _) (ix2 r d) (by show r.val < 8 * 64; omega))

end Cert.KernelIdeal.HandValue

end
-- ==== Proof.HiddenArr.lean ====
/-
  The gather region's output array after all its write-backs, over the extended reals: point `i` of the 8-point grid
  writes block `i` (rows `512 i … 512 i + 511`) of the 4096 × 128 hidden array; the 8 blocks tile it, so the array is the
  specification's hidden array of the token table and the transposed embedding table the region is entered with.
-/
import proofs.«403318_j74122545594780_3_alg».proof.Proof.KI.Regions
import proofs.«403318_j74122545594780_3_alg».proof.Proof.GatherValue
import proofs.«403318_j74122545594780_3_alg».proof.Proof.SpecBlocks
import Idealize.ShloMosaic.Lib.Pipeline.Value

set_option maxRecDepth 16384

noncomputable section

namespace Cert.KernelIdeal.HandValue

open Cert.KernelIdeal Cert.KernelIdeal.Gen Cert.KernelIdeal.Hand Cert.Proof.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The grid has one axis of extent 8: the coordinate of point `t` is `t`. -/
theorem coord_val : ∀ t : Fin grid0.N, ((grid0.coords t) 0).val = t.val := by decide +kernel

/-- The hidden window's block index at point `t` is `(t, 0)`. -/
theorem hid_index : ∀ t : Fin grid0.N, cc0_transform_1 (grid0.coords t) (0 : Fin 2) = t.val ∧ cc0_transform_1 (grid0.coords t) (1 : Fin 2) = 0 := by decide +kernel

/-- The hidden window's index map is the same whatever the token table holds. -/
theorem hid_index_cfg (a : (pcfg0 (F := Ideal)).Adm) (t : Fin (cfg0 a).N) : ((cfg0 a).win 1).index t = cc0_transform_1 (grid0.coords t) := rfl

/-- The hidden block's index changes from every point to the next, and point 7 is the last. -/
theorem hid_flush_aux : ∀ t : Fin grid0.N, (decide (t.val + 1 = grid0.N) || decide (∃ h : t.val + 1 < grid0.N, cc0_transform_1 (grid0.coords ⟨t.val + 1, h⟩) ≠ cc0_transform_1 (grid0.coords t))) = true := by decide +kernel

/-- So every point writes its hidden block back, whatever the token table holds. -/
theorem hid_flush (a : (pcfg0 (F := Ideal)).Adm) (t : Fin (cfg0 a).N) : ((cfg0 a).win 1).flush t = true := by
  have := hid_flush_aux t
  exact this

/-- The embedding window's block index is `(0, 0)` at every point. -/
theorem emb_index : ∀ t : Fin grid0.N, cc0_transform_0 (grid0.coords t) (0 : Fin 2) = 0 ∧ cc0_transform_0 (grid0.coords t) (1 : Fin 2) = 0 := by decide +kernel

/-- The embedding window's index map is the same whatever the token table holds. -/
theorem emb_index_cfg (a : (pcfg0 (F := Ideal)).Adm) (t : Fin (cfg0 a).N) : ((cfg0 a).win 0).index t = cc0_transform_0 (grid0.coords t) := rfl

variable (V : (c : Dev nD) → (b : Ref sig .tc) → Buf (Elt Ideal) ((c : Thread nD τ).loc b))

/-- Row `j 0` of the block the body leaves at the point of coordinate `i 0` is row `512 (i 0) + j 0` of the hidden array. -/
theorem out_at (c : Dev nD) (i : grid0.Coords) (arg2 : Memref sig .tc .vmem S32000x128 .f32) (harg2 : arg2.IsWhole)
    (arg3 : Memref sig .tc .vmem S512x128 .f32) (harg3 : arg3.IsWhole)
    (x0 wt : Vec Ideal S32000x128 .f32) (xt : TbBuf (F := Ideal) c) (hx : TokOk c xt) (hw : x0 = wt)
    (j : S512x128.Idx) (k : S4096x128.Idx)
    (hk0 : (k 0).val = (i 0).val * 512 + (j 0).val) (hk1 : (k 1).val = (j 1).val) :
    View.canon (gatherRun (F := Ideal) c i arg2 harg2 arg3 harg3 x0 xt hx).1 j = hiddenArr xt wt k := by
  subst hw
  obtain ⟨r, d, rfl⟩ : ∃ (r : Fin 512) (d : Fin 128), j = ix2 r d := ⟨j 0, j 1, eq_ix2 j⟩
  rw [gather_value]
  have hr : (r : Nat) < 512 := r.isLt
  have e0 : (k 0).val / 512 = (i 0).val := by
    have : (k 0).val = (i 0).val * 512 + r.val := hk0
    omega
  have e1 : (⟨(k 0).val % 512, Nat.mod_lt _ (by decide)⟩ : Fin 512) = r := by
    apply Fin.ext
    have : (k 0).val = (i 0).val * 512 + r.val := hk0
    show (k 0).val % 512 = r.val
    omega
  have e2 : k 1 = d := Fin.ext hk1
  show _ = hiddenBlk xt x0 ((k 0).val / 512) ⟨(k 0).val % 512, _⟩ (k 1)
  rw [e0, e1, e2]

/-- The embedding window's block at any point is the whole transposed table. -/
theorem emb_block (c : Dev nD) (t : Fin (cfgM V).N) : (iblk0 V c 0 t : Vec Ideal S32000x128 .f32) = V c main_v1 := by
  refine funext fun (y : S32000x128.Idx) => ?_
  unfold iblk0
  show V c main_v1 ((((cfgM V).win 0).blk t).view.emb y) = V c main_v1 y
  congr 1
  funext a
  apply Fin.ext
  match a with
  | ⟨0, _⟩ =>
    show ((cfgM V).win 0).index t (0 : Fin 2) * 32000 + 1 * (y 0).val = (y 0).val
    rw [emb_index_cfg, (emb_index t).1]; omega
  | ⟨1, _⟩ =>
    show ((cfgM V).win 0).index t (1 : Fin 2) * 128 + 1 * (y 1).val = (y 1).val
    rw [emb_index_cfg, (emb_index t).2]; omega

/-- What point `t` writes back is block `t` (rows `512 t … 512 t + 511`) of the hidden array. -/
theorem hid_flushed (hx : TblOk (F := Ideal) V) (c : Dev nD) (t : Fin (cfgM V).N) :
    (dat0 (F := Ideal) V hx c).flushed 1 t = (((cfgM V).win 1).blk t).view.read (Elt Ideal) (hiddenArr (tblOf V 0) (V c main_v1)) := by
  show ((cfgM V).win 1).cut ((cfgM V).grid.coords t) ((dat0 V hx c).after 1 t) = _
  rw [after0_1]
  refine funext fun (j : S512x128.Idx) => ?_
  show out0 V hx c t (((cfgM V).win 1).xinj ((cfgM V).grid.coords t) j) = hiddenArr (tblOf V 0) (V c main_v1) ((((cfgM V).win 1).blk t).view.emb j)
  unfold out0
  refine out_at c (grid0.coords t) _ _ _ _ _ _ _ (hx c) (emb_block V c t) _ _ ?_ ?_
  · show ((cfgM V).win 1).index t (0 : Fin 2) * 512 + 1 * (j 0).val = ((grid0.coords t) 0).val * 512 + (j 0).val
    rw [hid_index_cfg, (hid_index t).1, coord_val t]; omega
  · show ((cfgM V).win 1).index t (1 : Fin 2) * 128 + 1 * (j 1).val = (j 1).val
    rw [hid_index_cfg, (hid_index t).2]; omega

set_option backward.isDefEq.respectTransparency.types false in
/-- An index of the hidden array is in point `t`'s block iff each coordinate is in the block's range on its axis. -/
theorem mem_hid_blk (t : Fin (cfgM V).N) (i : S4096x128.Idx) :
    i ∈ (((cfgM V).win 1).blk t).view.set ↔ ∀ a : Fin 2, ((cfgM V).win 1).index t a * S512x128.size a ≤ (i a).val ∧ (i a).val < ((cfgM V).win 1).index t a * S512x128.size a + S512x128.size a := by
  show i ∈ ((View.whole main_v3).slice (((cfgM V).win 1).rect t)).set ↔ _
  rw [View.set_slice_whole]
  exact Rect.mem_set_unit

/-- Row `r` of the hidden array is in the block of point `r / 512`, which is written back. -/
theorem hid_cover (i : S4096x128.Idx) : ∃ t : Fin (cfgM V).N, ((cfgM V).win 1).flush t = true ∧ i ∈ (((cfgM V).win 1).blk t).view.set := by
  have hi0 : (i 0).val < 4096 := (i 0).isLt
  have hi1 : (i 1).val < 128 := (i 1).isLt
  have hN : (cfgM V).N = 8 := N_0
  refine ⟨⟨(i 0).val / 512, by rw [hN]; omega⟩, hid_flush _ _, ?_⟩
  rw [mem_hid_blk]
  intro a
  match a with
  | ⟨0, _⟩ =>
    show ((cfgM V).win 1).index _ (0 : Fin 2) * 512 ≤ (i 0).val ∧ (i 0).val < ((cfgM V).win 1).index _ (0 : Fin 2) * 512 + 512
    rw [hid_index_cfg, (hid_index _).1]
    show (i 0).val / 512 * 512 ≤ (i 0).val ∧ (i 0).val < (i 0).val / 512 * 512 + 512
    omega
  | ⟨1, _⟩ =>
    show ((cfgM V).win 1).index _ (1 : Fin 2) * 128 ≤ (i 1).val ∧ (i 1).val < ((cfgM V).win 1).index _ (1 : Fin 2) * 128 + 128
    rw [hid_index_cfg, (hid_index _).2]
    omega

/-- The hidden array the region leaves, as one function of the token table and the transposed embedding table. -/
theorem hidden_arr (hx : TblOk (F := Ideal) V) (c : Dev nD) :
    (dat0 (F := Ideal) V hx c).arrAt 1 (cfgM V).N = hiddenArr (tblOf V 0) (V c main_v1) :=
  (dat0 (F := Ideal) V hx c).arrAt_eq_of_cover 1 (hiddenArr (tblOf V 0) (V c main_v1)) (fun t _ => hid_flushed V hx c t) (hid_cover V)

end Cert.KernelIdeal.HandValue

end
-- ==== Proof.LogitsValue.lean ====
/-
  The logits kernel's stored block at an index, at the ideal instance (a float is an extended real, a narrowing format
  change is the identity): entry (p, q) of the stored block is the sum over the 128 hidden coordinates k of the hidden
  block's entry (p, k) times the class-weight block's entry (q, k) — the product of the hidden block with the transpose of
  the class-weight block, into a zero accumulator.
-/
import proofs.«403318_j74122545594780_3_alg».proof.Proof.KI.LogitsBody
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen Idealize.ShloMosaic Idealize.ShloMosaic.TcCoe Idealize.SL.Sem

/-- The zero offsets of a whole-block rectangle of rank 2, however spelt. -/
theorem zeroOff2 : (![0, 0] : Fin 2 → Nat) = fun _ => 0 := funext fun a => by fin_cases a <;> rfl

/-! ## The operand indices of the product, axis by axis

  The product contracts axis 1 of both operands: at output index `i` and contraction index `q` the left operand is read at
  (i 0, q) and the right operand at (i 1, q). -/

theorem lhs_logits_0 (i : S512x3200.Idx) (q : dot_S512x128_S3200x128_S512x3200_1_1_0_0_n_n.contr.Idx) :
    (dot_S512x128_S3200x128_S512x3200_1_1_0_0_n_n.lhsIdx i q 0).val = (i 0).val := by
  unfold DotDims.lhsIdx
  rw [dif_neg (show ¬(0 : Fin S512x128.rank) ∈ dot_S512x128_S3200x128_S512x3200_1_1_0_0_n_n.lhsBatch by decide), dif_pos (show (0 : Fin S512x128.rank) ∈ dot_S512x128_S3200x128_S512x3200_1_1_0_0_n_n.lhsNonContracting by decide)]
  rfl
theorem lhs_logits_1 (i : S512x3200.Idx) (q : dot_S512x128_S3200x128_S512x3200_1_1_0_0_n_n.contr.Idx) :
    (dot_S512x128_S3200x128_S512x3200_1_1_0_0_n_n.lhsIdx i q 1).val = (q ⟨0, by decide⟩).val :=
  dot_S512x128_S3200x128_S512x3200_1_1_0_0_n_n.lhsIdx_val_of_single rfl i q
theorem rhs_logits_0 (i : S512x3200.Idx) (q : dot_S512x128_S3200x128_S512x3200_1_1_0_0_n_n.contr.Idx) :
    (dot_S512x128_S3200x128_S512x3200_1_1_0_0_n_n.rhsIdx i q 0).val = (i 1).val := by
  unfold DotDims.rhsIdx
  rw [dif_neg (show ¬(0 : Fin S3200x128.rank) ∈ dot_S512x128_S3200x128_S512x3200_1_1_0_0_n_n.rhsBatch by decide), dif_pos (show (0 : Fin S3200x128.rank) ∈ dot_S512x128_S3200x128_S512x3200_1_1_0_0_n_n.rhsNonContracting by decide)]
  rfl
theorem rhs_logits_1 (i : S512x3200.Idx) (q : dot_S512x128_S3200x128_S512x3200_1_1_0_0_n_n.contr.Idx) :
    (dot_S512x128_S3200x128_S512x3200_1_1_0_0_n_n.rhsIdx i q 1).val = (q ⟨0, by decide⟩).val :=
  dot_S512x128_S3200x128_S512x3200_1_1_0_0_n_n.rhsIdx_val_of_single rfl i q

/-- The product of two blocks into the zero accumulator, at an index: the plain sum over the contracted coordinate. -/
theorem matmul_logits_apply (l : FVec Ideal S512x128 .bf16) (r : FVec Ideal S3200x128 .bf16) (p : Fin 512) (q : Fin 3200) :
    matmul (F := Ideal) dot_S512x128_S3200x128_S512x3200_1_1_0_0_n_n none l r (constant (F := Ideal) S512x3200 .f32 0x00000000#32) (ValueIdx.ix2 p q)
      = ∑ k : Fin 128, l (ValueIdx.ix2 p k) * r (ValueIdx.ix2 q k) := by
  show FloatOps.matmul dot_S512x128_S3200x128_S512x3200_1_1_0_0_n_n none l r (constant (F := Ideal) S512x3200 .f32 0x00000000#32) (ValueIdx.ix2 p q) = _
  rw [Ideal.matmul_constant_zero_apply, ← Equiv.sum_comp (ValueIdx.contrEquiv1 dot_S512x128_S3200x128_S512x3200_1_1_0_0_n_n 128 rfl rfl).symm]
  refine Finset.sum_congr rfl fun k _ => ?_
  have hk := ValueIdx.contrEquiv1_symm_val dot_S512x128_S3200x128_S512x3200_1_1_0_0_n_n 128 rfl rfl k
  have el : dot_S512x128_S3200x128_S512x3200_1_1_0_0_n_n.lhsIdx (ValueIdx.ix2 p q) ((ValueIdx.contrEquiv1 dot_S512x128_S3200x128_S512x3200_1_1_0_0_n_n 128 rfl rfl).symm k) = ValueIdx.ix2 p k := funext fun a => Fin.ext (by
    match a with
    | ⟨0, _⟩ => exact lhs_logits_0 _ _
    | ⟨1, _⟩ => exact (lhs_logits_1 _ _).trans hk)
  have er : dot_S512x128_S3200x128_S512x3200_1_1_0_0_n_n.rhsIdx (ValueIdx.ix2 p q) ((ValueIdx.contrEquiv1 dot_S512x128_S3200x128_S512x3200_1_1_0_0_n_n 128 rfl rfl).symm k) = ValueIdx.ix2 q k := funext fun a => Fin.ext (by
    match a with
    | ⟨0, _⟩ => exact rhs_logits_0 _ _
    | ⟨1, _⟩ => exact (rhs_logits_1 _ _).trans hk)
  rw [el, er]

/-- The stored block at an index. -/
theorem logitsOut_apply (x0 : Vec Ideal S512x128 .f32) (x1 : Vec Ideal S3200x128 .bf16) (p : Fin 512) (q : Fin 3200) :
    Cert.KernelIdeal.Hand.logitsOut (F := Ideal) x0 x1 (ValueIdx.ix2 p q) = ∑ k : Fin 128, x0 (ValueIdx.ix2 p k) * x1 (ValueIdx.ix2 q k) := by
  unfold Cert.KernelIdeal.Hand.logitsOut
  rw [View.canon_unit_zero zeroOff2]
  rw [View.ld_unit_zero (S := S512x128) zeroOff2, View.ld_unit_zero (S := S3200x128) zeroOff2]
  unfold k1_pay1
  simp only [shapeCast_self]
  rw [matmul_logits_apply]
  rfl

end Cert.KernelIdeal.HandValue

end
-- ==== Proof.LogitsArr.lean ====
/-
  The logits region's output array after all its write-backs, over the extended reals: point `(p, b)` of the 10 × 8 grid
  writes block `(b, p)` of the 4096 × 32000 array, the product of hidden block `b` (512 rows) with class-weight block `p`
  (3200 rows); the 80 blocks tile the array, so the array is the product of the whole hidden array with the whole weights.
-/
import proofs.«403318_j74122545594780_3_alg».proof.Proof.KI.Regions
import proofs.«403318_j74122545594780_3_alg».proof.Proof.LogitsValue
import proofs.«403318_j74122545594780_3_alg».proof.Proof.SpecBlocks
import Idealize.ShloMosaic.Lib.Pipeline.Value

set_option maxRecDepth 16384

noncomputable section

namespace Cert.KernelIdeal.HandValue

open Cert.KernelIdeal Cert.KernelIdeal.Gen Cert.KernelIdeal.Hand Cert.Proof.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The three block index maps over the grid: the hidden window follows the output's row block, the class-weight window
    the output's column block, both at column block 0; the output's block indices stay in their ranges. -/
theorem logits_idx : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 9 :=
  (by decide +kernel : ∀ t : Fin grid1.N, _)

/-- Every block of the 8 × 10 block grid is some point's. -/
theorem logits_idx_onto : ∀ (q0 : Fin 8) (q1 : Fin 10), ∃ t : Fin cfg1.N, win1_2.index t = ![q0.val, q1.val] :=
  (by decide +kernel : ∀ (q0 : Fin 8) (q1 : Fin 10), ∃ t : Fin grid1.N, win1_2.index t = ![q0.val, q1.val])

/-- An entry of a stored block is the array product's entry wherever the rows of the two blocks are the arrays' rows. -/
theorem logitsOut_entry (x0 : Vec Ideal S512x128 .f32) (x1 : Vec Ideal S3200x128 .bf16)
    (h : FVec Ideal ⟨2, ![4096, 128]⟩ .f32) (v : FVec Ideal ⟨2, ![32000, 128]⟩ .bf16)
    (p : Fin 512) (q : Fin 3200) (r : Fin 4096) (s : Fin 32000)
    (h0 : ∀ k : Fin 128, x0 (ix2 p k) = h (ix2 r k))
    (h1 : ∀ k : Fin 128, x1 (ix2 q k) = v (ix2 s k)) :
    logitsOut (F := Ideal) x0 x1 (ix2 p q) = logitsOf h v (ix2 r s) := by
  rw [logitsOut_apply]
  unfold logitsOf
  exact Finset.sum_congr rfl fun k _ => by rw [h0 k, h1 k]

/-- Point t's hidden block is rows (row block) × 512 … of the hidden array. -/
theorem hidden_block_entry (c : Dev nD) (t : Fin cfg1.N) (p : Fin 512) (k : Fin 128) (r : Fin 4096)
    (e : r.val = win1_2.index t (0 : Fin 2) * 512 + p.val) :
    (iblk1 V c 0 t : Vec Ideal S512x128 .f32) (ix2 p k) = (V c main_v3 : S4096x128.Idx → Elt Ideal .f32) (ix2 r k) := by
  obtain ⟨a0, a1, a2, a3, a4, a5⟩ := logits_idx t
  unfold iblk1
  rw [View.read_apply]
  show V c main_v3 (((cfg1.win 0).blk t).view.emb (ix2 p k)) = V c main_v3 (ix2 r k)
  congr 1
  funext a; apply Fin.ext
  match a with
  | ⟨0, _⟩ => show win1_0.index t (0 : Fin 2) * 512 + 1 * p.val = r.val; omega
  | ⟨1, _⟩ => show win1_0.index t (1 : Fin 2) * 128 + 1 * k.val = k.val; omega

/-- Point t's class-weight block is rows (column block) × 3200 … of the class-weight array. -/
theorem weight_block_entry (c : Dev nD) (t : Fin cfg1.N) (q : Fin 3200) (k : Fin 128) (s : Fin 32000)
    (e : s.val = win1_2.index t (1 : Fin 2) * 3200 + q.val) :
    (iblk1 V c 1 t : Vec Ideal S3200x128 .bf16) (ix2 q k) = (V c main_v2 : S32000x128.Idx → Elt Ideal .bf16) (ix2 s k) := by
  obtain ⟨a0, a1, a2, a3, a4, a5⟩ := logits_idx t
  unfold iblk1
  rw [View.read_apply]
  show V c main_v2 (((cfg1.win 1).blk t).view.emb (ix2 q k)) = V c main_v2 (ix2 s k)
  congr 1
  funext a; apply Fin.ext
  match a with
  | ⟨0, _⟩ => show win1_1.index t (0 : Fin 2) * 3200 + 1 * q.val = s.val; omega
  | ⟨1, _⟩ => show win1_1.index t (1 : Fin 2) * 128 + 1 * k.val = k.val; omega

/-- Where entry (p, q) of point t's output block sits in the logits array. -/
theorem out_block_emb (t : Fin cfg1.N) (p : Fin 512) (q : Fin 3200) (r : Fin 4096) (s : Fin 32000)
    (er : r.val = win1_2.index t (0 : Fin 2) * 512 + p.val) (es : s.val = win1_2.index t (1 : Fin 2) * 3200 + q.val) :
    ((cfg1.win 2).blk t).view.emb (ix2 p q) = (ix2 r s : S4096x32000.Idx) := by
  funext a; apply Fin.ext
  match a with
  | ⟨0, _⟩ => show win1_2.index t (0 : Fin 2) * 512 + 1 * p.val = r.val; omega
  | ⟨1, _⟩ => show win1_2.index t (1 : Fin 2) * 3200 + 1 * q.val = s.val; omega

/-- What point t leaves in the output's buffer, entry by entry, is the array product read through the point's block. -/
theorem logits_block_entry (c : Dev nD) (t : Fin cfg1.N) (j : S512x3200.Idx) :
    logitsOut (F := Ideal) (iblk1 V c 0 t) (iblk1 V c 1 t) j
      = logitsOf (V c main_v3) (V c main_v2) (((cfg1.win 2).blk t).view.emb j) := by
  obtain ⟨p, q, rfl⟩ : ∃ (p : Fin 512) (q : Fin 3200), j = ix2 p q := ⟨j 0, j 1, eq_ix2 j⟩
  obtain ⟨a0, a1, a2, a3, a4, a5⟩ := logits_idx t
  have hr : win1_2.index t (0 : Fin 2) * 512 + p.val < 4096 := by have := p.isLt; omega
  have hs : win1_2.index t (1 : Fin 2) * 3200 + q.val < 32000 := by have := q.isLt; omega
  rw [out_block_emb t p q ⟨_, hr⟩ ⟨_, hs⟩ rfl rfl]
  exact logitsOut_entry _ _ _ _ p q _ _ (fun k => hidden_block_entry V c t p k _ rfl) (fun k => weight_block_entry V c t q k _ rfl)

/-- What point t writes back is its block of the array product of the two arrays the region is entered with. -/
theorem logits_flushed (c : Dev nD) (t : Fin cfg1.N) :
    (dat1 (F := Ideal) V c).flushed 2 t = ((cfg1.win 2).blk t).view.read (Elt Ideal) (logitsOf (V c main_v3) (V c main_v2)) := by
  show (cfg1.win 2).cut (cfg1.grid.coords t) ((dat1 (F := Ideal) V c).after 2 t) = _
  rw [after1_2]
  funext j
  rw [View.read_apply]
  exact logits_block_entry V c t j

/-- An index of the logits array is in point t's block iff each coordinate is in the block's range on its axis. -/
theorem mem_out_block (t : Fin cfg1.N) (i : S4096x32000.Idx) :
    i ∈ ((cfg1.win 2).blk t).view.set ↔ ∀ a : Fin 2, win1_2.index t a * S512x3200.size a ≤ (i a).val ∧ (i a).val < win1_2.index t a * S512x3200.size a + S512x3200.size a := by
  show i ∈ ((View.whole main_v4).slice (win1_2.rect t)).set ↔ _
  rw [View.set_slice_whole, Rect.mem_set_unit]
  exact Iff.rfl

/-- The 80 blocks tile the array: entry (r, s) is in the block of the point at row block r / 512, column block s / 3200,
    and every point writes its block back. -/
theorem logits_cover (i : S4096x32000.Idx) :
    ∃ t : Fin cfg1.N, (cfg1.win 2).flush t = true ∧ i ∈ ((cfg1.win 2).blk t).view.set := by
  have hi0 : (i 0).val < 4096 := (i 0).isLt
  have hi1 : (i 1).val < 32000 := (i 1).isLt
  obtain ⟨t, ht⟩ := logits_idx_onto ⟨(i 0).val / 512, by omega⟩ ⟨(i 1).val / 3200, by omega⟩
  have q0 : win1_2.index t (0 : Fin 2) = (i 0).val / 512 := congrFun ht 0
  have q1 : win1_2.index t (1 : Fin 2) = (i 1).val / 3200 := congrFun ht 1
  refine ⟨t, flush1_2 t, ?_⟩
  rw [mem_out_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 3200 ≤ (i 1).val ∧ (i 1).val < win1_2.index t (1 : Fin 2) * 3200 + 3200; omega

/-- The logits array the region leaves, as one function of the two arrays it is entered with. -/
theorem logits_arr (c : Dev nD) :
    (dat1 (F := Ideal) V c).arrAt 2 cfg1.N = logitsOf (V c main_v3) (V c main_v2) := by
  exact (dat1 (F := Ideal) V c).arrAt_eq_of_cover 2 (logitsOf (V c main_v3) (V c main_v2))
    (fun t _ => logits_flushed V c t) logits_cover

end Cert.KernelIdeal.HandValue

end
-- ==== Proof.KernelValue.lean ====
/-
  The kernel program's result over the extended reals: the logits region's array is the product of the gather region's
  array with the class weights; the gather region's array is the hidden array of the flattened tokens and the transposed
  embedding table; flattening and transposing only rename indices (position `2 b + j` is token `j` of example `b`; row `p`
  of the transposed table is column `p` of `W`); the conversion of the class weights is the identity on extended reals. So
  the result is the specification's logits of the three arguments.
-/
import proofs.«403318_j74122545594780_3_alg».proof.Proof.KI.Frame
import proofs.«403318_j74122545594780_3_alg».proof.Proof.HiddenArr
import proofs.«403318_j74122545594780_3_alg».proof.Proof.LogitsArr
import proofs.«403318_j74122545594780_3_alg».proof.Proof.SpecBlocks
import Idealize.ShloMosaic.Lib.StableHlo.Run
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.Proof.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Renaming indices -/

/-- In the flattened token array, token `j` of example `b` sits where the block-wise position says. -/
theorem flat_tok (x : IVec ⟨2, ![4096, 2]⟩ 32) (xt : IVec ⟨1, ![8192]⟩ 32)
    (hxt : ∀ p : (⟨1, ![8192]⟩ : Shape).Idx, xt p = x (ix2 (⟨(p 0).val / 2, by have h : (p 0).val < 8192 := (p 0).isLt; omega⟩ : Fin 4096) (⟨(p 0).val % 2, Nat.mod_lt _ (by decide)⟩ : Fin 2)))
    (b : Fin 4096) (j : Fin 2) :
    xt (ix1 (tokPos (b.val / 512) ⟨b.val % 512, Nat.mod_lt _ (by decide)⟩ j)) = x (ix2 b j) := by
  rw [hxt]
  have hv : (tokPos (b.val / 512) ⟨b.val % 512, Nat.mod_lt _ (by decide)⟩ j).val = 2 * b.val + j.val := by
    rw [tokPos_val (by have := b.isLt; omega)]
    show 2 * (512 * (b.val / 512) + b.val % 512) + j.val = _
    omega
  refine congrArg x (funext fun a => ?_)
  match a with
  | ⟨0, _⟩ => exact Fin.ext (by show (tokPos _ _ j).val / 2 = b.val; rw [hv]; have := j.isLt; omega)
  | ⟨1, _⟩ => exact Fin.ext (by show (tokPos _ _ j).val % 2 = j.val; rw [hv]; have := j.isLt; omega)

/-- The hidden array of the flattened tokens and the transposed table is the specification's hidden activation. -/
theorem hiddenArr_eq (x : IVec ⟨2, ![4096, 2]⟩ 32) (W : FVec Ideal ⟨2, ![128, 32000]⟩ .f32)
    (xt : IVec ⟨1, ![8192]⟩ 32) (wt : FVec Ideal ⟨2, ![32000, 128]⟩ .f32)
    (hxt : ∀ p : (⟨1, ![8192]⟩ : Shape).Idx, xt p = x (ix2 (⟨(p 0).val / 2, by have h : (p 0).val < 8192 := (p 0).isLt; omega⟩ : Fin 4096) (⟨(p 0).val % 2, Nat.mod_lt _ (by decide)⟩ : Fin 2)))
    (hwt : ∀ (p : Fin 32000) (d : Fin 128), wt (ix2 p d) = W (ix2 d p)) (b : Fin 4096) (d : Fin 128) :
    hiddenArr xt wt (ix2 b d) = Cert.Proof.Spec.hidden x W b d := by
  unfold hiddenArr hiddenBlk Cert.Proof.Spec.hidden
  show max (wt (ix2 (tok (xt (ix1 (tokPos (b.val / 512) ⟨b.val % 512, _⟩ 0)))) d) + wt (ix2 (tok (xt (ix1 (tokPos (b.val / 512) ⟨b.val % 512, _⟩ 1)))) d)) 0 = _
  rw [flat_tok x xt hxt b 0, flat_tok x xt hxt b 1, hwt, hwt]

/-- The product of that hidden array with the class weights is the specification's logits. -/
theorem logitsOf_eq (x : IVec ⟨2, ![4096, 2]⟩ 32) (W : FVec Ideal ⟨2, ![128, 32000]⟩ .f32) (V : FVec Ideal ⟨2, ![32000, 128]⟩ .f32)
    (xt : IVec ⟨1, ![8192]⟩ 32) (wt : FVec Ideal ⟨2, ![32000, 128]⟩ .f32)
    (hxt : ∀ p : (⟨1, ![8192]⟩ : Shape).Idx, xt p = x (ix2 (⟨(p 0).val / 2, by have h : (p 0).val < 8192 := (p 0).isLt; omega⟩ : Fin 4096) (⟨(p 0).val % 2, Nat.mod_lt _ (by decide)⟩ : Fin 2)))
    (hwt : ∀ (p : Fin 32000) (d : Fin 128), wt (ix2 p d) = W (ix2 d p)) :
    logitsOf (hiddenArr xt wt) V = logits x W V := by
  funext i
  unfold logitsOf logits
  exact Finset.sum_congr rfl fun k _ => congrArg (· * V (ix2 (i 1) k)) (hiddenArr_eq x W xt wt hxt hwt (i 0) k)

/-! ## The host operations -/

variable (m : (ℓ : Loc nD τ sig) → Buf (Elt Ideal) ℓ) (ρ : Dev nD → PrngReg)

/-- The second host operation leaves the embedding table transposed. -/
theorem V1_v1 (c : Dev nD) :
    (V1 m ρ c main_v1 : S32000x128.Idx → EReal) = transpose S32000x128 [1, 0] (m ((c : Thread nD τ).loc main_arg1)) transposes_S128x32000_S32000x128_1_0 := by
  show StableHlo.after hostOps0 _ (Proc.devRef .tc main_v1) = _
  after_results
/-- The third leaves the class weights as they are (a change of float format is the identity on extended reals). -/
theorem V1_v2 (c : Dev nD) :
    (V1 m ρ c main_v2 : S32000x128.Idx → EReal) = m ((c : Thread nD τ).loc main_arg2) := by
  show StableHlo.after hostOps0 _ (Proc.devRef .tc main_v2) = _
  after_results
  rfl

/-! ## The result -/

/-- The last boundary's contents of the result buffer are the specification's logits of the arguments. -/
theorem kernel_value (hm : ∀ (c : Dev nD) j, (m ((c.tc : Thread nD τ).loc main_arg0) j).toNat < 32000) (c : Dev nD) :
    (W3 m ρ (tbl_ok m ρ hm) c (Proc.devRef .tc main_v4) : S4096x32000.Idx → EReal)
      = logits (m ((c : Thread nD τ).loc main_arg0)) (m ((c : Thread nD τ).loc main_arg1)) (m ((c : Thread nD τ).loc main_arg2)) := by
  obtain rfl : c = 0 := Subsingleton.elim _ _
  have h1 : W3 m ρ (tbl_ok m ρ hm) 0 (Proc.devRef .tc main_v4) = (dat1 (V2 m ρ (tbl_ok m ρ hm)) 0).arrAt 2 cfg1.N := W3_arr m ρ (tbl_ok m ρ hm) 0 2
  have h3 : V2 m ρ (tbl_ok m ρ hm) 0 main_v3 = (dat0 (V1 m ρ) (tbl_ok m ρ hm) 0).arrAt 1 (cfgM (V1 m ρ)).N := W2_arr m ρ (tbl_ok m ρ hm) 0 1
  have h5 : V2 m ρ (tbl_ok m ρ hm) 0 main_v2 = V1 m ρ 0 main_v2 := W2_of_ne m ρ (tbl_ok m ρ hm) 0 main_v2 (by decide)
  refine h1.trans ((logits_arr (V2 m ρ (tbl_ok m ρ hm)) 0).trans ?_)
  rw [h3, hidden_arr (V1 m ρ) (tbl_ok m ρ hm) 0, h5, V1_v2 m ρ 0]
  refine logitsOf_eq _ _ _ _ _ (fun p => V1_v0_apply m ρ 0 p) (fun p d => ?_)
  rw [V1_v1 m ρ 0]
  exact transpose_ix2_apply _ _ p d

end Cert.KernelIdeal.HandValue

end
-- ==== Proof.RefImports.lean ====
/- The reference program's run and its stage-by-stage reading, brought in for the value bridge. -/
import proofs.«403318_j74122545594780_3_alg».proof.Proof.Gen.ReferenceIdeal.Run
import proofs.«403318_j74122545594780_3_alg».proof.Proof.Gen.ReferenceIdeal.Read
-- ==== Proof.LibGatherAxis.lean ====
/-
  A two-axis table gathered along ONE of its axes by a rectangle of start indices, read at an index.

  `jnp.take(x, idx, axis = 0)` of `x : [N, B]` at `idx : [R, C]` lowers to a gather whose result `[R, C, B]` has
  one offset axis (the last, running over the table's second axis) and whose first operand axis is collapsed and
  indexed by the start index; `x[:, idx]` of `x : [B, N]` lowers to the mirror image, result `[B, R, C]`. In both the
  result element is the table's element whose indexed coordinate is the start index `idx[r, c, 0]`, read as a signed
  integer and clamped into `[0, N - 1]`, and whose other coordinate is the result's offset coordinate.
-/
import Idealize.ShloMosaic.Lib.ValueIdx

noncomputable section

namespace Idealize.ShloMosaic.GatherAxis

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-! ## Rows: operand `[N, B]`, start indices `[R, C, 1]`, result `[R, C, B]` -/

/-- The dimension numbers of a take of whole rows. -/
abbrev rowsDims (N B R C : Nat)
    (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- On the indexed axis the operand index is the clamped start index. -/
theorem rows_axis0 {N B R C w : Nat}
    (wf : GatherDims.WF ⟨2, ![N, B]⟩ ⟨3, ![R, C, 1]⟩ ⟨3, ![R, C, B]⟩ [2] [0] [] [0] [] 2 ![1, B])
    (idx : IVec ⟨3, ![R, C, 1]⟩ w) (j : (⟨3, ![R, C, B]⟩ : Shape).Idx) :
    ((rowsDims N B R C wf).operandIdx j idx 0).val
      = min (idx (ix3 (j 0) (j 1) (0 : Fin 1))).toInt.toNat (N - 1) := by
  show (rowsDims N B R C wf).start j idx 0 + (rowsDims N B R C wf).batchCoord j 0 + (rowsDims N B R C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N B R C wf).startIndexMap from List.mem_singleton.mpr rfl)]
  have hsi : (rowsDims N B R C wf).siIdx j ⟨List.idxOf (0 : Fin 2) (rowsDims N B R C wf).startIndexMap,
      List.idxOf_lt_length_iff.2 (List.mem_singleton.mpr rfl)⟩ = ix3 (j 0) (j 1) (0 : Fin 1) := by
    funext b; refine Fin.ext ?_
    match b with
    | ⟨0, _⟩ => rfl
    | ⟨1, _⟩ => rfl
    | ⟨2, _⟩ => rfl
  rw [hsi]
  rfl

/-- On the other axis it is the result's offset coordinate. -/
theorem rows_axis1 {N B R C w : Nat}
    (wf : GatherDims.WF ⟨2, ![N, B]⟩ ⟨3, ![R, C, 1]⟩ ⟨3, ![R, C, B]⟩ [2] [0] [] [0] [] 2 ![1, B])
    (idx : IVec ⟨3, ![R, C, 1]⟩ w) (j : (⟨3, ![R, C, B]⟩ : Shape).Idx) :
    ((rowsDims N B R C wf).operandIdx j idx 1).val = (j 2).val := by
  show (rowsDims N B R C wf).start j idx 1 + (rowsDims N B R C wf).batchCoord j 1 + (rowsDims N B R C wf).offCoord j 1 = _
  rw [GatherDims.batchCoord_eq_zero _ _ _ List.not_mem_nil]
  unfold GatherDims.start
  rw [dif_neg (show ¬ (1 : Fin 2) ∈ (rowsDims N B R C wf).startIndexMap from
    fun h => absurd (List.mem_singleton.mp h) (by decide : ¬ (1 : Fin 2) = 0))]
  unfold GatherDims.offCoord
  rw [dif_pos (show (1 : Fin 2) ∈ (rowsDims N B R C wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, c, b)`: the table at row `idx[r, c, 0]` (signed, clamped) and column `b`. -/
theorem gather_rows_apply {N B R C w : Nat} (hN : 0 < N)
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ w) (j : (⟨3, ![R, C, B]⟩ : Shape).Idx) :
    Host.gather (rowsDims N B R C wf) x idx j
      = x (ix2 (clampPos N hN (idx (ix3 (j 0) (j 1) (0 : Fin 1)))) (j 2)) := by
  unfold Host.gather
  refine congrArg x (funext fun a => Fin.ext ?_)
  match a with
  | ⟨0, _⟩ => exact rows_axis0 wf idx j
  | ⟨1, _⟩ => exact rows_axis1 wf idx j

/-! ## Columns: operand `[B, N]`, start indices `[R, C, 1]`, result `[B, R, C]` -/

/-- The dimension numbers of a take of whole columns. -/
abbrev colsDims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- On the offset axis the operand index is the result's first coordinate. -/
theorem cols_axis0 {B N R C w : Nat}
    (wf : GatherDims.WF ⟨2, ![B, N]⟩ ⟨3, ![R, C, 1]⟩ ⟨3, ![B, R, C]⟩ [0] [1] [] [1] [] 2 ![B, 1])
    (idx : IVec ⟨3, ![R, C, 1]⟩ w) (j : (⟨3, ![B, R, C]⟩ : Shape).Idx) :
    ((colsDims B N R C wf).operandIdx j idx 0).val = (j 0).val := by
  show (colsDims B N R C wf).start j idx 0 + (colsDims B N R C wf).batchCoord j 0 + (colsDims B N R C wf).offCoord j 0 = _
  rw [GatherDims.batchCoord_eq_zero _ _ _ List.not_mem_nil]
  unfold GatherDims.start
  rw [dif_neg (show ¬ (0 : Fin 2) ∈ (colsDims B N R C wf).startIndexMap from
    fun h => absurd (List.mem_singleton.mp h) (by decide : ¬ (0 : Fin 2) = 1))]
  unfold GatherDims.offCoord
  rw [dif_pos (show (0 : Fin 2) ∈ (colsDims B N R C wf).sKept from
    (GatherDims.mem_sKept _ _).mpr ⟨fun h => absurd (List.mem_singleton.mp h) (by decide : ¬ (0 : Fin 2) = 1), List.not_mem_nil⟩)]
  simp only [Nat.zero_add, Nat.add_zero]
  rfl

/-- On the indexed axis it is the clamped start index. -/
theorem cols_axis1 {B N R C w : Nat}
    (wf : GatherDims.WF ⟨2, ![B, N]⟩ ⟨3, ![R, C, 1]⟩ ⟨3, ![B, R, C]⟩ [0] [1] [] [1] [] 2 ![B, 1])
    (idx : IVec ⟨3, ![R, C, 1]⟩ w) (j : (⟨3, ![B, R, C]⟩ : Shape).Idx) :
    ((colsDims B N R C wf).operandIdx j idx 1).val
      = min (idx (ix3 (j 1) (j 2) (0 : Fin 1))).toInt.toNat (N - 1) := by
  show (colsDims B N R C wf).start j idx 1 + (colsDims B N R C wf).batchCoord j 1 + (colsDims B N R C wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colsDims B N R C wf).startIndexMap from List.mem_singleton.mpr rfl)]
  have hsi : (colsDims B N R C wf).siIdx j ⟨List.idxOf (1 : Fin 2) (colsDims B N R C wf).startIndexMap,
      List.idxOf_lt_length_iff.2 (List.mem_singleton.mpr rfl)⟩ = ix3 (j 1) (j 2) (0 : Fin 1) := by
    funext b; refine Fin.ext ?_
    match b with
    | ⟨0, _⟩ => rfl
    | ⟨1, _⟩ => rfl
    | ⟨2, _⟩ => rfl
  rw [hsi]
  rfl

/-- THE TAKE OF COLUMNS AT `(b, r, c)`: the table at row `b` and column `idx[r, c, 0]` (signed, clamped). -/
theorem gather_cols_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (j : (⟨3, ![B, R, C]⟩ : Shape).Idx) :
    Host.gather (colsDims B N R C wf) x idx j
      = x (ix2 (j 0) (clampPos N hN (idx (ix3 (j 1) (j 2) (0 : Fin 1))))) := by
  unfold Host.gather
  refine congrArg x (funext fun a => Fin.ext ?_)
  match a with
  | ⟨0, _⟩ => exact cols_axis0 wf idx j
  | ⟨1, _⟩ => exact cols_axis1 wf idx j

end Idealize.ShloMosaic.GatherAxis

end
-- ==== Proof.RefValue.lean ====
/-
  The reference's run ends with the logits of the specification: the gather reads column `x[b,m]` of `W` (a word below
  32000 is neither wrapped nor clamped), the sum over the two tokens starts from zero, the clip is `max · 0`, the
  matrix product contracts the 128 features, and the transpose swaps the two result axes; the product's factors commute.
-/
import proofs.«403318_j74122545594780_3_alg».proof.Proof.RefImports
import proofs.«403318_j74122545594780_3_alg».proof.Proof.Spec
import proofs.«403318_j74122545594780_3_alg».proof.Proof.LibGatherAxis
import Idealize.ShloMosaic.PureOps.Ideal.Laws
import Idealize.ShloMosaic.Lib.Pipeline.Value
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
open Idealize.ShloMosaic.ValueIdx Idealize.ShloMosaic.GatherAxis Cert.ReferenceIdeal.Read
open scoped BigOperators

/-! ## Token words -/

/-- A word below 32000 reads the same signed and unsigned. -/
theorem toInt_of_lt {w : BitVec 32} (h : w.toNat < 32000) : w.toInt = w.toNat :=
  StableHlo.Predicate.toInt_eq_toNat_of_lt (by omega)

/-- A word below 32000 is not negative: the signed test `w < 0` fails. -/
theorem slt_zero_of_lt {w : BitVec 32} (h : w.toNat < 32000) : IntOp.cmpi .slt w 0#32 = 0#1 := by
  have hs : w.slt 0#32 = false := by
    simp only [BitVec.slt, toInt_of_lt h, BitVec.toInt_zero, decide_eq_false_iff_not]
    omega
  unfold IntOp.cmpi
  rw [hs]
  rfl

/-- So the wrap `select (w < 0) (w + 32000) w` keeps the word. -/
theorem wrap_of_lt {w : BitVec 32} (h : w.toNat < 32000) :
    Scalar.select (IntOp.cmpi .slt w 0#32) (IntOp.addi w 32000#32) w = w := by
  rw [slt_zero_of_lt h]
  exact if_neg (by decide)

/-- The clamp of a word below 32000 into `[0, 31999]` is the table row the word names. -/
theorem clamp_of_lt {w : BitVec 32} (h : w.toNat < 32000) :
    clampPos 32000 (by decide) w = Cert.Proof.Spec.tok w := by
  refine Fin.ext ?_
  show min w.toInt.toNat (32000 - 1) = w.toNat % 32000
  rw [toInt_of_lt h, Int.toNat_natCast, Nat.mod_eq_of_lt h]
  omega

/-! ## The stages at an index -/

/-- The start indices: at `(b, k, 0)` the token word `x[b, k]` itself. -/
theorem v5_apply (x0 : (⟨S4096x2, .i32⟩ : BufTy).Contents (Elt Ideal)) (hx : ∀ j, (x0 j).toNat < 32000)
    (b : Fin 4096) (k : Fin 2) :
    val_main_v5 (F := Ideal) x0 (ix3 b k (0 : Fin 1)) = x0 (ix2 b k) := by
  have e : idx_main_v5 (ix3 b k (0 : Fin 1)) = ix2 b k :=
    funext fun a => Fin.ext (by match a with | ⟨0, _⟩ => rfl | ⟨1, _⟩ => rfl)
  rw [val_main_v5_apply, e, val_main_v4_apply, val_main_v1_apply, val_main_v3_apply, val_main_v0_apply,
    val_main_v2_apply, val_main_c_apply, val_main_c_0_apply]
  exact wrap_of_lt (hx _)

/-- The gather: at `(d, b, k)` the table's entry at feature `d` and the row the token `x[b, k]` names. -/
theorem v6_apply (x0 : (⟨S4096x2, .i32⟩ : BufTy).Contents (Elt Ideal)) (x1 : (⟨S128x32000, .f32⟩ : BufTy).Contents (Elt Ideal))
    (hx : ∀ j, (x0 j).toNat < 32000) (d : Fin 128) (b : Fin 4096) (k : Fin 2) :
    val_main_v6 (F := Ideal) x0 x1 (ix3 d b k) = x1 (ix2 d (Cert.Proof.Spec.tok (x0 (ix2 b k)))) := by
  unfold val_main_v6
  have g := gather_cols_apply (B := 128) (N := 32000) (R := 4096) (C := 2) (by decide)
    Facts₀.gather_S128x32000_S4096x2x1_S128x4096x2_0_1_n_n_1_2_1281_wf x1 (val_main_v5 (F := Ideal) x0) (ix3 d b k)
  refine g.trans ?_
  show x1 (ix2 d (clampPos 32000 _ (val_main_v5 (F := Ideal) x0 (ix3 b k (0 : Fin 1))))) = _
  rw [v5_apply x0 hx, clamp_of_lt (hx _)]

/-- The reference's result is the specification's logits. -/
theorem value (x0 : (⟨S4096x2, .i32⟩ : BufTy).Contents (Elt Ideal)) (x1 : (⟨S128x32000, .f32⟩ : BufTy).Contents (Elt Ideal))
    (x2 : (⟨S32000x128, .f32⟩ : BufTy).Contents (Elt Ideal)) (hx : ∀ j, (x0 j).toNat < 32000) :
    val_main_v10 (F := Ideal) x0 x1 x2 = Cert.Proof.Spec.logits x0 x1 x2 := by
  funext i
  obtain ⟨b, p, rfl⟩ : ∃ (b : Fin 4096) (p : Fin 32000), i = ix2 b p := ⟨i 0, i 1, eq_ix2 i⟩
  have e10 : idx_main_v10 (ix2 b p) = ix2 p b :=
    funext fun a => Fin.ext (by match a with | ⟨0, _⟩ => rfl | ⟨1, _⟩ => rfl)
  rw [val_main_v10_apply, e10, val_main_v9_apply]
  show _ = ∑ d : Fin 128, Cert.Proof.Spec.hidden x0 x1 b d * x2 (ix2 p d)
  refine Finset.sum_congr rfl fun d _ => ?_
  have el : lidx_main_v9 (ix2 p b) d = ix2 p d :=
    funext fun a => Fin.ext (by match a with | ⟨0, _⟩ => rfl | ⟨1, _⟩ => rfl)
  have er : ridx_main_v9 (ix2 p b) d = ix2 d b :=
    funext fun a => Fin.ext (by match a with | ⟨0, _⟩ => rfl | ⟨1, _⟩ => rfl)
  have e7 : ∀ k : Fin 2, idx_main_v7 (ix2 d b) k = ix3 d b k := fun k =>
    funext fun a => Fin.ext (by match a with | ⟨0, _⟩ => rfl | ⟨1, _⟩ => rfl | ⟨2, _⟩ => rfl)
  rw [el, er, val_main_v8_apply, val_main_v7_apply, val_main_call0_v0_apply, val_main_call0_cst_apply,
    val_main_cst_apply]
  simp only [e7, v6_apply x0 x1 hx, Fin.sum_univ_two, Ideal.maximumf_def, Ideal.ofBits_def, Ideal.ofBits_zero_f32,
    zero_add]
  exact mul_comm _ _

/-- The reference's run, with its result named: the specification's logits of the argument arrays. -/
theorem run_spec (m : (ℓ : Loc nD τ sig) → Buf (Elt Ideal) ℓ) (ρ : Dev nD → PrngReg)
    (hx : ∀ (c : Dev nD) j, (m ((c.tc : Thread nD τ).loc main_arg0) j).toNat < 32000) :
    θ_run defs (onTc (τ := τ) (main (F := Ideal))) ⟨m, fun _ => 0, ρ⟩ fun r => ∀ c : Dev nD,
      r.2.mem ((c.tc : Thread nD τ).loc main_v10)
        = Cert.Proof.Spec.logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans
      ((val_main_v10_eq (F := Ideal) _ _ _).trans (value _ _ _ (hx c))), (h c).2⟩)
    (Cert.ReferenceIdeal.Value.run (F := Ideal) m ρ)

end Cert.ReferenceIdeal.RefValue

end
-- ==== Proof.PreWords.lean ====
/-
  What the precondition says of the token array: every entry, read as a signed integer, is at least 0 and below 32000,
  so read unsigned it is below 32000. (The precondition is the conjunction of three whole-array tests; the third is
  `all ((x ≥ 0) ∧ (x < 32000))`.)
-/
import proofs.«403318_j74122545594780_3_alg».proof.Pre_finite_inputs
import proofs.«403318_j74122545594780_3_alg».proof.Proof.Gen.Pre_finite_inputs
import Idealize.ShloMosaic.Lib.ReduceAll
import Idealize.ShloMosaic.Lib.StableHlo.Predicate

noncomputable section

namespace Cert.Proof.PreWords

open Idealize.ShloMosaic Cert.Pre_finite_inputs Cert.Pre_finite_inputs.Gen

/-- The rank-0 shape has one index. -/
instance subsingleton_idx0 : Subsingleton S_.Idx := ⟨fun a b => funext fun d => d.elim0⟩

/-- A 32-bit word that is at least 0 and below 32000 as a signed integer is below 32000 as a natural number:
    were its top bit set, its signed value w - 2³² would be negative. -/
theorem word_lt (w : BitVec 32) (h0 : IntOp.cmpi .sge w (0#32) = 1#1) (h1 : IntOp.cmpi .slt w (32000#32) = 1#1) :
    w.toNat < 32000 := by
  unfold IntOp.cmpi at h0 h1
  rw [StableHlo.Predicate.ofBool_eq_one_iff] at h0 h1
  have z0 : (0#32 : BitVec 32).toInt = 0 := by decide
  have z1 : (32000#32 : BitVec 32).toInt = 32000 := by decide
  simp only [BitVec.sle, BitVec.slt, decide_eq_true_eq, z0, z1] at h0 h1
  have hw := w.isLt
  rw [BitVec.toInt_eq_toNat_cond] at h0 h1
  split at h0 <;> omega

/-- Under the precondition every token word is below 32000. -/
theorem tokens_lt {F : FTy → Type} [FloatOps F] (x : IVec S4096x2 32) (W : FVec F S128x32000 .f32) (V : FVec F S32000x128 .f32)
    (h : Cert.Pre_finite_inputs.fn (F := F) x W V = fun _ => 1#1) (j : S4096x2.Idx) : (x j).toNat < 32000 := by
  have e := congrFun h (fun a => a.elim0)
  dsimp only [Cert.Pre_finite_inputs.fn] at e
  -- the conjunction of the three whole-array tests: keep the third
  have e3 := (IntOp.andi_eq_one.1 e).2
  -- the third is "all": read it at j
  have ej := Host.reduce_andi_all _ _ _ _ _ e3 j
  -- at j: (x j ≥ 0) ∧ (x j < 32000), each against a broadcast scalar constant
  obtain ⟨g0, g1⟩ := IntOp.andi_eq_one.1 ej
  exact word_lt (x j) g0 g1

end Cert.Proof.PreWords

end
-- ==== Proof.lean ====
/-
  The certificate of an embedding-lookup classifier: `logits[b, p] = ∑ d, max (W[d, x[b,0]] + W[d, x[b,1]]) 0 · V[p, d]`
  over token indices `x : [4096, 2]`, an embedding table `W : [128, 32000]` and class weights `V : [32000, 128]`.

  The kernel program flattens `x`, transposes `W`, and runs two pipelined kernels. The first, on an 8-point grid, keeps the
  whole transposed table in vector memory and the flattened tokens in scalar memory; at each point a 64-trip loop reads
  sixteen token words per trip, fetches the sixteen rows they name, adds them in pairs, clips at zero into an 8 × 128 tile and
  stores the tile into the point's 512 × 128 block of hidden activations. Reading row `w` of the table is only defined for
  `w < 32000`: the precondition says every token index is in `[0, 32000)`, which is also where the reference's own indexing
  is in range. The second kernel, on a 10 × 8 grid, multiplies a 512 × 128 hidden block with a 3200 × 128 block of class
  weights into a 512 × 3200 block of logits.

  The reference gathers the two columns of `W`, adds them, clips at zero, multiplies by `V` and transposes. Over the extended
  reals (a change of float format is the identity) both programs compute the function above; the two sides differ only in
  how indices are named (flattening, transposition, tiling into blocks) and in the order of the product's two factors.

  Frames: each program runs to the end without a fault and leaves its arguments unchanged — for the two kernel programs by
  the run of the host program through its two regions (the same text at the word-level and the ideal instance), for the
  reference by its run with the result dropped. The idealization rewrote nothing, so `preserves` is trivial.
-/
import proofs.«403318_j74122545594780_3_alg».proof.Defs
import proofs.«403318_j74122545594780_3_alg».proof.Proof.Gen.Kernel
import proofs.«403318_j74122545594780_3_alg».proof.Proof.Gen.KernelIdeal
import proofs.«403318_j74122545594780_3_alg».proof.Proof.Gen.ReferenceIdeal
import proofs.«403318_j74122545594780_3_alg».proof.Proof.Gen.Pre_finite_inputs
import proofs.«403318_j74122545594780_3_alg».proof.Proof.KB.Frame
import proofs.«403318_j74122545594780_3_alg».proof.Proof.KI.Frame
import proofs.«403318_j74122545594780_3_alg».proof.Proof.KernelValue
import proofs.«403318_j74122545594780_3_alg».proof.Proof.RefValue
import proofs.«403318_j74122545594780_3_alg».proof.Proof.PreWords

noncomputable section

namespace Cert.Proof

open Idealize.ShloMosaic Idealize.ShloMosaic.TcCoe Idealize.SL.Sem

/-- The word-level kernel program's frame: the precondition bounds every token word. -/
theorem frame_k : Cert.frame_Kernel := fun m ρ hpre =>
  Cert.Kernel.Hand.frame m ρ fun c j => Cert.Proof.PreWords.tokens_lt (F := Bits) _ _ _ (hpre c) j

/-- The idealized kernel program's frame, by the same run at the ideal instance. -/
theorem frame_ki : Cert.frame_KernelIdeal := fun m ρ hpre =>
  Cert.KernelIdeal.Hand.frame m ρ fun c j => Cert.Proof.PreWords.tokens_lt (F := Ideal) _ _ _ (hpre c) j

/-- The reference's frame: its run with the result dropped. -/
theorem frame_ri : Cert.frame_ReferenceIdeal := fun m ρ hpre =>
  (θ_run Cert.ReferenceIdeal.defs _ _).mono (fun _ h c => (h c).2)
    (Cert.ReferenceIdeal.RefValue.run_spec m ρ fun c j => Cert.Proof.PreWords.tokens_lt (F := Ideal) _ _ _ (hpre c) j)

/-- The idealization rewrote no operation. -/
theorem preserves : Cert.preserves_Kernel_KernelIdeal := trivial

/-- Over the extended reals both programs end with the specification's logits of the arguments. -/
theorem algebraic : Cert.algebraic_KernelIdeal_ReferenceIdeal := by
  intro m ρ m' ρ' hpre hagree
  have hm : ∀ (c : Dev Cert.KernelIdeal.nD) j, (m ((c.tc : Thread Cert.KernelIdeal.nD Cert.KernelIdeal.τ).loc Cert.KernelIdeal.main_arg0) j).toNat < 32000 :=
    fun c j => Cert.Proof.PreWords.tokens_lt (F := Ideal) _ _ _ (hpre c) j
  have hm' : ∀ (c : Dev Cert.ReferenceIdeal.nD) j, (m' ((c.tc : Thread Cert.ReferenceIdeal.nD Cert.ReferenceIdeal.τ).loc Cert.ReferenceIdeal.main_arg0) j).toNat < 32000 :=
    fun c j => by rw [(hagree c).1]; exact hm c j
  refine ⟨fun c => Cert.Proof.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩)
      (Cert.KernelIdeal.Hand.run_main m ρ (Cert.KernelIdeal.Hand.tbl_ok m ρ hm))
    · exact (h c _ (Cert.KernelIdeal.Hand.mem_uc Cert.KernelIdeal.main_v4 (by decide))).trans (Cert.KernelIdeal.HandValue.kernel_value m ρ hm c)
    · exact (h c _ (Cert.KernelIdeal.Hand.mem_uc Cert.KernelIdeal.main_arg0 (by decide))).trans (Cert.KernelIdeal.Hand.W3_main_arg0 m ρ _ c)
    · exact (h c _ (Cert.KernelIdeal.Hand.mem_uc Cert.KernelIdeal.main_arg1 (by decide))).trans (Cert.KernelIdeal.Hand.W3_main_arg1 m ρ _ c)
    · exact (h c _ (Cert.KernelIdeal.Hand.mem_uc Cert.KernelIdeal.main_arg2 (by decide))).trans (Cert.KernelIdeal.Hand.W3_main_arg2 m ρ _ c)
  · refine (θ_run Cert.ReferenceIdeal.defs _ _).mono (fun r h c => ⟨(h c).1.trans ?_, (h c).2⟩)
      (Cert.ReferenceIdeal.RefValue.run_spec m' ρ' hm')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
